-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x96 : Shape := ⟨2, ![50000, 96]⟩
abbrev S96x96 : Shape := ⟨2, ![96, 96]⟩
abbrev S96 : Shape := ⟨1, ![96]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x96 : S_.BroadcastsInDim S50000x96 (![] : Fin 0 → Fin S50000x96.rank)
  reducesTo_S50000x96_S_d0_1 : S50000x96.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : IVec S800000 32) (main_arg1 : IVec S800000 32) (main_arg2 : FVec F S800000 .f32) (main_arg3 : FVec F S50000x96 .f32) (main_arg4 : FVec F S96x96 .f32) (main_arg5 : FVec F S96 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x96 .f32 := Host.absf main_arg3
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S800000 : Shape := ⟨1, ![800000]⟩
abbrev S50000x96 : Shape := ⟨2, ![50000, 96]⟩
abbrev S96x96 : Shape := ⟨2, ![96, 96]⟩
abbrev S96 : Shape := ⟨1, ![96]⟩
abbrev S1x96 : Shape := ⟨2, ![1, 96]⟩
abbrev S_ : Shape := ⟨0, ![]⟩
abbrev S800000x1 : Shape := ⟨2, ![800000, 1]⟩
abbrev S800000x96 : Shape := ⟨2, ![800000, 96]⟩
abbrev S2000x96 : Shape := ⟨2, ![2000, 96]⟩

abbrev nBuf : Space → Nat
  | .hbm => 63
  | .vmem => 42
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x96, .f32⟩
  | .hbm, ⟨4, _⟩ => ⟨S96x96, .f32⟩
  | .hbm, ⟨5, _⟩ => ⟨S96, .f32⟩
  | .hbm, ⟨6, _⟩ => ⟨S1x96, .f32⟩
  | .hbm, ⟨7, _⟩ => ⟨S_, .f32⟩
  | .hbm, ⟨8, _⟩ => ⟨S50000x96, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S800000x96, .f32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S50000x96, .f32⟩
  | .hbm, ⟨26, _⟩ => ⟨S50000x96, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x96, .f32⟩
  | .hbm, ⟨37, _⟩ => ⟨S800000x96, .f32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S800000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x96, .f32⟩
  | .hbm, ⟨55, _⟩ => ⟨S800000x96, .f32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S50000x96, .f32⟩
  | .hbm, ⟨62, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S96x96, .f32⟩
  | .local _ .vmem, ⟨7, _⟩ => ⟨S1x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S2000x96, .f32⟩
  | .local _ .vmem, ⟨19, _⟩ => ⟨S2000x96, .f32⟩
  | .local _ .vmem, ⟨20, _⟩ => ⟨S96x96, .f32⟩
  | .local _ .vmem, ⟨21, _⟩ => ⟨S1x96, .f32⟩
  | .local _ .vmem, ⟨22, _⟩ => ⟨S2000x96, .f32⟩
  | .local _ .vmem, ⟨23, _⟩ => ⟨S2000x96, .f32⟩
  | .local _ .vmem, ⟨24, _⟩ => ⟨S2000x96, .f32⟩
  | .local _ .vmem, ⟨25, _⟩ => ⟨S2000x96, .f32⟩
  | .local _ .vmem, ⟨26, _⟩ => ⟨S2000x96, .f32⟩
  | .local _ .vmem, ⟨27, _⟩ => ⟨S2000x96, .f32⟩
  | .local _ .vmem, ⟨28, _⟩ => ⟨S2000x96, .f32⟩
  | .local _ .vmem, ⟨29, _⟩ => ⟨S2000x96, .f32⟩
  | .local _ .vmem, ⟨30, _⟩ => ⟨S2000x96, .f32⟩
  | .local _ .vmem, ⟨31, _⟩ => ⟨S2000x96, .f32⟩
  | .local _ .vmem, ⟨32, _⟩ => ⟨S2000x96, .f32⟩
  | .local _ .vmem, ⟨33, _⟩ => ⟨S2000x96, .f32⟩
  | .local _ .vmem, ⟨34, _⟩ => ⟨S96x96, .f32⟩
  | .local _ .vmem, ⟨35, _⟩ => ⟨S1x96, .f32⟩
  | .local _ .vmem, ⟨36, _⟩ => ⟨S2000x96, .f32⟩
  | .local _ .vmem, ⟨37, _⟩ => ⟨S2000x96, .f32⟩
  | .local _ .vmem, ⟨38, _⟩ => ⟨S2000x96, .f32⟩
  | .local _ .vmem, ⟨39, _⟩ => ⟨S2000x96, .f32⟩
  | .local _ .vmem, ⟨40, _⟩ => ⟨S2000x96, .f32⟩
  | .local _ .vmem, ⟨41, _⟩ => ⟨S2000x96, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem5_1 : DmaSem sig := 37
abbrev cc2_sem6_0 : DmaSem sig := 38
abbrev cc2_sem6_1 : DmaSem sig := 39
abbrev cc2_sem7_0 : DmaSem sig := 40
abbrev cc2_sem7_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S96_S1x96 : S96.ShapeCasts S1x96
  bcast_S_S50000x96 : S_.BroadcastsInDim S50000x96 (![] : Fin 0 → Fin S50000x96.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  bitsLt_bf16_f32 : FTy.bits .bf16 < FTy.bits .f32
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x96.size a ≤ S50000x96.size a
  hwx0_6 : ∀ i : grid0.Coords, EltTy.bits .f32 = 32 ∨ (Rect.block (s := S50000x96) S2000x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x96.size a ≤ S50000x96.size a
  hwx0_7 : ∀ i : grid0.Coords, EltTy.bits .f32 = 32 ∨ (Rect.block (s := S50000x96) S2000x96.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x96.size a ≤ S50000x96.size a
  hwx1_5 : ∀ i : grid1.Coords, EltTy.bits .f32 = 32 ∨ (Rect.block (s := S50000x96) S2000x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x96.size a ≤ S50000x96.size a
  hwx1_6 : ∀ i : grid1.Coords, EltTy.bits .f32 = 32 ∨ (Rect.block (s := S50000x96) S2000x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x96.size a ≤ S50000x96.size a
  hwx1_7 : ∀ i : grid1.Coords, EltTy.bits .f32 = 32 ∨ (Rect.block (s := S50000x96) S2000x96.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x96.size a ≤ S50000x96.size a
  hwx2_1 : ∀ i : grid2.Coords, EltTy.bits .f32 = 32 ∨ (Rect.block (s := S50000x96) S2000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x96.size a ≤ S50000x96.size a
  hwx2_5 : ∀ i : grid2.Coords, EltTy.bits .f32 = 32 ∨ (Rect.block (s := S50000x96) S2000x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x96.size a ≤ S50000x96.size a
  hwx2_6 : ∀ i : grid2.Coords, EltTy.bits .f32 = 32 ∨ (Rect.block (s := S50000x96) S2000x96.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x96.size a ≤ S50000x96.size a
  hwx2_7 : ∀ i : grid2.Coords, EltTy.bits .f32 = 32 ∨ (Rect.block (s := S50000x96) S2000x96.size (cc2_transform_7 i) (hinb2_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf

abbrev win0_0 : Pipeline.Window sig grid0 :=
  Pipeline.Window.ofSpec (Memref.whole main_arg3) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2000x96.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S2000x96.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S2000x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg3) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S2000x96.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_0) S2000x96.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29_1) S2000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15_0) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_0) S2000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29_1) S2000x96.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v43_0) S2000x96.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v43_1) S2000x96.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where
  halias0_7 : Pipeline.Aliased win0 5 7
  halias1_7 : Pipeline.Aliased win1 5 7
  halias2_7 : Pipeline.Aliased win2 5 7

variable [Facts]
-- ==== ReferenceIdeal.lean ====
abbrev S800000 : Shape := ⟨1, ![800000]⟩
abbrev S50000x96 : Shape := ⟨2, ![50000, 96]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩

abbrev nBuf : Space → Nat
  | .hbm => 84
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x96, .f32⟩
  | .hbm, ⟨4, _⟩ => ⟨S96x96, .f32⟩
  | .hbm, ⟨5, _⟩ => ⟨S96, .f32⟩
  | .hbm, ⟨6, _⟩ => ⟨S50000x96, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x96, .f32⟩
  | .hbm, ⟨17, _⟩ => ⟨S800000x96, .f32⟩
  | .hbm, ⟨18, _⟩ => ⟨S800000x96, .f32⟩
  | .hbm, ⟨19, _⟩ => ⟨S_, .f32⟩
  | .hbm, ⟨20, _⟩ => ⟨S50000x96, .f32⟩
  | .hbm, ⟨21, _⟩ => ⟨S800000x1, .i32⟩
  | .hbm, ⟨22, _⟩ => ⟨S50000x96, .f32⟩
  | .hbm, ⟨23, _⟩ => ⟨S_, .f32⟩
  | .hbm, ⟨24, _⟩ => ⟨S50000x96, .f32⟩
  | .hbm, ⟨25, _⟩ => ⟨S50000x96, .f32⟩
  | .hbm, ⟨26, _⟩ => ⟨S50000x96, .f32⟩
  | .hbm, ⟨27, _⟩ => ⟨S50000x96, .f32⟩
  | .hbm, ⟨28, _⟩ => ⟨S50000x96, .f32⟩
  | .hbm, ⟨29, _⟩ => ⟨S800000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x96, .f32⟩
  | .hbm, ⟨40, _⟩ => ⟨S800000x96, .f32⟩
  | .hbm, ⟨41, _⟩ => ⟨S_, .f32⟩
  | .hbm, ⟨42, _⟩ => ⟨S50000x96, .f32⟩
  | .hbm, ⟨43, _⟩ => ⟨S800000x1, .i32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S50000x96, .f32⟩
  | .hbm, ⟨49, _⟩ => ⟨S_, .f32⟩
  | .hbm, ⟨50, _⟩ => ⟨S50000x96, .f32⟩
  | .hbm, ⟨51, _⟩ => ⟨S50000x96, .f32⟩
  | .hbm, ⟨52, _⟩ => ⟨S50000x96, .f32⟩
  | .hbm, ⟨53, _⟩ => ⟨S50000x96, .f32⟩
  | .hbm, ⟨54, _⟩ => ⟨S50000x96, .f32⟩
  | .hbm, ⟨55, _⟩ => ⟨S800000x1, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x96, .f32⟩
  | .hbm, ⟨65, _⟩ => ⟨S800000x96, .f32⟩
  | .hbm, ⟨66, _⟩ => ⟨S800000x96, .f32⟩
  | .hbm, ⟨67, _⟩ => ⟨S_, .f32⟩
  | .hbm, ⟨68, _⟩ => ⟨S50000x96, .f32⟩
  | .hbm, ⟨69, _⟩ => ⟨S800000x1, .i32⟩
  | .hbm, ⟨70, _⟩ => ⟨S50000x96, .f32⟩
  | .hbm, ⟨71, _⟩ => ⟨S_, .f32⟩
  | .hbm, ⟨72, _⟩ => ⟨S50000x96, .f32⟩
  | .hbm, ⟨73, _⟩ => ⟨S50000x96, .f32⟩
  | .hbm, ⟨74, _⟩ => ⟨S50000x96, .f32⟩
  | .hbm, ⟨75, _⟩ => ⟨S_, .f32⟩
  | .hbm, ⟨76, _⟩ => ⟨S50000x96, .f32⟩
  | .hbm, ⟨77, _⟩ => ⟨S50000x96, .f32⟩
  | .hbm, ⟨78, _⟩ => ⟨S50000x96, .f32⟩
  | .hbm, ⟨79, _⟩ => ⟨S50000x96, .f32⟩
  | .hbm, ⟨80, _⟩ => ⟨S50000x96, .f32⟩
  | .hbm, ⟨81, _⟩ => ⟨S1x96, .f32⟩
  | .hbm, ⟨82, _⟩ => ⟨S50000x96, .f32⟩
  | .hbm, ⟨83, _⟩ => ⟨S50000x96, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.K.Pay.lean ====
/-
  The three Chebyshev-step kernels share one window layout: window 0 the term two steps back, window 1 the
  previous term, window 2 the sparse product L·(previous term), window 3 the weight matrix, window 4 the bias
  row, window 5 the accumulator coming in; window 6 the new term going out, window 7 the accumulator going out.
  Each kernel's two stored values, as functions of the six input blocks IN WINDOW ORDER (the printed payloads
  take the loads in the order the body makes them), and the share of each input array the pipeline holds:
  the first kernel is handed ONE array (H) through windows 0 and 1, so each of those holds half of it.
-/
import proofs.«134689_j88055419503321_1_alg».proof.Proof.Gen.Kernel.Skeleton
import Idealize.SL.RA.TreeShare

noncomputable section

namespace Cert.Kernel.Cheb

open Idealize.ShloMosaic Idealize.SL.RA Cert.Kernel Cert.Kernel.Gen

variable {F : FTy → Type} [FloatOps F]

/-- Step k = 1: the new term 2·s − x1 + 0·x0 (both x0 and x1 are blocks of H). -/
abbrev term0 (x0 x1 x2 : Vec F S2000x96 .f32) : FVec F S2000x96 .f32 := k0_pay1 x1 x0 x2
/-- Step k = 1: the accumulator (acc + term·W) + x1·W. -/
abbrev acc0 (x0 x1 x2 : Vec F S2000x96 .f32) (x3 : Vec F S96x96 .f32) (x4 : Vec F S1x96 .f32) (x5 : Vec F S2000x96 .f32) : FVec F S2000x96 .f32 :=
  k0_pay2 x1 x0 x2 x3 x5
/-- Step k = 2: the new term 4·s − 2·x1 − x0. -/
abbrev term1 (x0 x1 x2 : Vec F S2000x96 .f32) : FVec F S2000x96 .f32 := k1_pay1 x1 x0 x2
/-- Step k = 2: the accumulator acc + term·W. -/
abbrev acc1 (x0 x1 x2 : Vec F S2000x96 .f32) (x3 : Vec F S96x96 .f32) (x4 : Vec F S1x96 .f32) (x5 : Vec F S2000x96 .f32) : FVec F S2000x96 .f32 :=
  k1_pay2 x1 x0 x2 x3 x5
/-- Step k = 3: the new term 4·s − 2·x1 − x0. -/
abbrev term2 (x0 x1 x2 : Vec F S2000x96 .f32) : FVec F S2000x96 .f32 := k2_pay1 x1 x0 x2
/-- Step k = 3: the accumulator (acc + term·W) + bias. -/
abbrev acc2 (x0 x1 x2 : Vec F S2000x96 .f32) (x3 : Vec F S96x96 .f32) (x4 : Vec F S1x96 .f32) (x5 : Vec F S2000x96 .f32) : FVec F S2000x96 .f32 :=
  k2_pay2 x1 x0 x2 x3 x5 x4

/-- The share held of each input array: in the first call windows 0 and 1 read the same array and split it. -/
abbrev share0 : Fin 8 → PosShare TreeShare := fun w => if w = 0 then fullShare.left else if w = 1 then fullShare.right else fullShare
abbrev share1 : Fin 8 → PosShare TreeShare := fun _ => fullShare
abbrev share2 : Fin 8 → PosShare TreeShare := fun _ => fullShare

end Cert.Kernel.Cheb

end
-- ==== Proof.K.Step0.lean ====
/-
  One Chebyshev step as a grid of 25 row blocks (2000 rows each): at every block the body reads its six input
  blocks, stores the new term (a pointwise combination of three of them) into window 6 and the updated
  accumulator (the incoming block plus the new term's product with the weights) into window 7, each store
  covering its whole block. So after the body each output buffer holds one function of the input blocks, every
  input buffer is left as found, and the body needs nothing else: this is all the pipeline's rule asks of a
  body, stated here for any contents V the arrays hold when the call is entered.
-/
import proofs.«134689_j88055419503321_1_alg».proof.Proof.K.Pay
import proofs.«134689_j88055419503321_1_alg».proof.Proof.Gen.Kernel.Launch
import proofs.«134689_j88055419503321_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window w's block at grid point t: rows 2000·t … 2000·t + 1999 of its array (the whole array for the weights
    and the bias row), read off the contents V. -/
def blkOf0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or the block
    index stood still (the weights and the bias row are fetched once), as long as the body leaves it in place. -/
theorem found0_0 {c : Dev nD} (dat : Dat τ (Elt F) Unit ℕ (UR sig nD τ) ℕ cfg0 c) (hA : dat.A 0 = V c (Pipeline.arrRef spec0 0))
    (hafter : ∀ t, dat.after 0 t = blkOf0 V c 0 t) (t : Fin cfg0.N) (d) : dat.before 0 t d = blkOf0 V c 0 t :=
  (dat.before_in_eq_fetched 0 rfl (fun _ => rfl) (fun _ _ _ => rfl) (fun t => by rw [hafter]; unfold Dat.blockOf blkOf0; rw [hA]; try rfl) t d).trans
    (by unfold Dat.fetched Dat.blockOf blkOf0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blkOf0 V c 1 t) (t : Fin cfg0.N) (d) : dat.before 1 t d = blkOf0 V c 1 t :=
  (dat.before_in_eq_fetched 1 rfl (fun _ => rfl) (fun _ _ _ => rfl) (fun t => by rw [hafter]; unfold Dat.blockOf blkOf0; rw [hA]; try rfl) t d).trans
    (by unfold Dat.fetched Dat.blockOf blkOf0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blkOf0 V c 2 t) (t : Fin cfg0.N) (d) : dat.before 2 t d = blkOf0 V c 2 t :=
  (dat.before_in_eq_fetched 2 rfl (fun _ => rfl) (fun _ _ _ => rfl) (fun t => by rw [hafter]; unfold Dat.blockOf blkOf0; rw [hA]; try rfl) t d).trans
    (by unfold Dat.fetched Dat.blockOf blkOf0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blkOf0 V c 3 t) (t : Fin cfg0.N) (d) : dat.before 3 t d = blkOf0 V c 3 t :=
  (dat.before_in_eq_fetched 3 rfl (fun _ => rfl) (fun _ _ _ => rfl) (fun t => by rw [hafter]; unfold Dat.blockOf blkOf0; rw [hA]; try rfl) t d).trans
    (by unfold Dat.fetched Dat.blockOf blkOf0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blkOf0 V c 4 t) (t : Fin cfg0.N) (d) : dat.before 4 t d = blkOf0 V c 4 t :=
  (dat.before_in_eq_fetched 4 rfl (fun _ => rfl) (fun _ _ _ => rfl) (fun t => by rw [hafter]; unfold Dat.blockOf blkOf0; rw [hA]; try rfl) t d).trans
    (by unfold Dat.fetched Dat.blockOf blkOf0; rw [hA]; try rfl)
theorem found0_5 {c : Dev nD} (dat : Dat τ (Elt F) Unit ℕ (UR sig nD τ) ℕ cfg0 c) (hA : dat.A 5 = V c (Pipeline.arrRef spec0 5))
    (hafter : ∀ t, dat.after 5 t = blkOf0 V c 5 t) (t : Fin cfg0.N) (d) : dat.before 5 t d = blkOf0 V c 5 t :=
  (dat.before_in_eq_fetched 5 rfl (fun _ => rfl) (fun _ _ _ => rfl) (fun t => by rw [hafter]; unfold Dat.blockOf blkOf0; rw [hA]; try rfl) t d).trans
    (by unfold Dat.fetched Dat.blockOf blkOf0; rw [hA]; try rfl)

/-! ## What the body stores -/

abbrev tileA0 : Rect S2000x96 := Rect.unit (s := S2000x96) ![0, 0] S2000x96.size inb_S2000x96_S2000x96_0_0
abbrev tileW0 : Rect S96x96 := Rect.unit (s := S96x96) ![0, 0] S96x96.size inb_S96x96_S96x96_0_0
abbrev tileB0 : Rect S1x96 := Rect.unit (s := S1x96) ![0, 0] S1x96.size inb_S1x96_S1x96_0_0

/-- Window 6 after the body: the new term of the three row blocks, stored over the whole block. -/
def newTerm0 (x0 x1 x2 : Vec F S2000x96 .f32) : Vec F S2000x96 .f32 :=
  View.canon [⟨tileA0, term0 (View.ld x0 tileA0) (View.ld x1 tileA0) (View.ld x2 tileA0)⟩]

/-- Window 7 after the body: the updated accumulator block, stored over the whole block. -/
def newAcc0 (x0 x1 x2 : Vec F S2000x96 .f32) (x3 : Vec F S96x96 .f32) (x4 : Vec F S1x96 .f32) (x5 : Vec F S2000x96 .f32) : Vec F S2000x96 .f32 :=
  View.canon [⟨tileA0, acc0 (View.ld x0 tileA0) (View.ld x1 tileA0) (View.ld x2 tileA0) (View.ld x3 tileW0) (View.ld x4 tileB0) (View.ld x5 tileA0)⟩]

/-- One store over the whole 2000 × 96 block covers every index of it. -/
theorem whole0 (p0 : Vec F S2000x96 .f32) (y : S2000x96.Idx) :
    ∃ pc ∈ ([⟨tileA0, p0⟩] : List (View.Piece (Elt F) S2000x96 .f32)), y ∈ pc.1.set :=
  View.cover_of_tiled [⟨tileA0, p0⟩] S2000x96.size (by rfl) y

/-! ## The body's triple -/

set_option maxHeartbeats 1000000 in
/-- On whole staging memrefs, the inputs' at contents x0 … x5 and the outputs' at anything, the body runs to the
    continuation with the inputs' unchanged, window 6's at the new term and window 7's at the new accumulator. -/
theorem sound_kernel0 (c : Dev nD) (E : Set ℕ) (i : grid0.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S2000x96 .f32) (harg6 : arg6.IsWhole) (arg7 : Memref sig .tc .vmem S2000x96 .f32) (harg7 : arg7.IsWhole) (arg8 : Memref sig .tc .vmem S2000x96 .f32) (harg8 : arg8.IsWhole)
    (x0 x1 x2 : Vec F S2000x96 .f32) (x3 : Vec F S96x96 .f32) (x4 : Vec F S1x96 .f32) (x5 : Vec F S2000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newTerm0 x0 x1 x2) ∗ owns (c : Thread nD τ) arg8 fullShare (newAcc0 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (whole0 _)
  iexists _; isplitr
  swap; · iexact H7
  ipureintro
  exact View.read_writes_eq_canon _ _ _ (whole0 _)

/-! ## The pipeline's proof data -/

/-- The step's proof data on core c: the arrays as the call finds them; after the body at point t every input
    buffer at its block, window 6 at the new term and window 7 at the new accumulator of the point's blocks; the
    body's invariant is the untouched rest (the other scoped buffers and the generator register); nothing owed. -/
def stepDat0 (c : Dev nD) : Dat τ (Elt F) Unit ℕ (UR sig nD τ) ℕ cfg0 c where
  A w := V c (Pipeline.arrRef spec0 w)
  after w t := match w with
    | ⟨0, _⟩ => blkOf0 V c 0 t
    | ⟨1, _⟩ => blkOf0 V c 1 t
    | ⟨2, _⟩ => blkOf0 V c 2 t
    | ⟨3, _⟩ => blkOf0 V c 3 t
    | ⟨4, _⟩ => blkOf0 V c 4 t
    | ⟨5, _⟩ => blkOf0 V c 5 t
    | ⟨6, _⟩ => newTerm0 (blkOf0 V c 0 t) (blkOf0 V c 1 t) (blkOf0 V c 2 t)
    | ⟨7, _⟩ => newAcc0 (blkOf0 V c 0 t) (blkOf0 V c 1 t) (blkOf0 V c 2 t) (blkOf0 V c 3 t) (blkOf0 V c 4 t) (blkOf0 V c 5 t)
  Φ _ := Pipeline.ΦA spec0 c
  q := share0
  owed _ := 0

theorem arr_eq0 (c : Dev nD) (w : Fin cfg0.W) : (stepDat0 V c).A w = V c (Pipeline.arrRef spec0 w) := by
  dsimp only [stepDat0]

theorem left0_0 (c : Dev nD) (t : Fin cfg0.N) : (stepDat0 V c).after 0 t = blkOf0 V c 0 t := by dsimp only [stepDat0]
theorem left0_1 (c : Dev nD) (t : Fin cfg0.N) : (stepDat0 V c).after 1 t = blkOf0 V c 1 t := by dsimp only [stepDat0]
theorem left0_2 (c : Dev nD) (t : Fin cfg0.N) : (stepDat0 V c).after 2 t = blkOf0 V c 2 t := by dsimp only [stepDat0]
theorem left0_3 (c : Dev nD) (t : Fin cfg0.N) : (stepDat0 V c).after 3 t = blkOf0 V c 3 t := by dsimp only [stepDat0]
theorem left0_4 (c : Dev nD) (t : Fin cfg0.N) : (stepDat0 V c).after 4 t = blkOf0 V c 4 t := by dsimp only [stepDat0]
theorem left0_5 (c : Dev nD) (t : Fin cfg0.N) : (stepDat0 V c).after 5 t = blkOf0 V c 5 t := by dsimp only [stepDat0]
theorem left0_6 (c : Dev nD) (t : Fin cfg0.N) : (stepDat0 V c).after 6 t = newTerm0 (blkOf0 V c 0 t) (blkOf0 V c 1 t) (blkOf0 V c 2 t) := by dsimp only [stepDat0]
theorem left0_7 (c : Dev nD) (t : Fin cfg0.N) : (stepDat0 V c).after 7 t = newAcc0 (blkOf0 V c 0 t) (blkOf0 V c 1 t) (blkOf0 V c 2 t) (blkOf0 V c 3 t) (blkOf0 V c 4 t) (blkOf0 V c 5 t) := by dsimp only [stepDat0]

theorem handed0_0 (c : Dev nD) (t : Fin cfg0.N) (d) : (stepDat0 V c).before 0 t d = blkOf0 V c 0 t :=
  found0_0 V (stepDat0 V c) (arr_eq0 V c 0) (left0_0 V c) t d
theorem handed0_1 (c : Dev nD) (t : Fin cfg0.N) (d) : (stepDat0 V c).before 1 t d = blkOf0 V c 1 t :=
  found0_1 V (stepDat0 V c) (arr_eq0 V c 1) (left0_1 V c) t d
theorem handed0_2 (c : Dev nD) (t : Fin cfg0.N) (d) : (stepDat0 V c).before 2 t d = blkOf0 V c 2 t :=
  found0_2 V (stepDat0 V c) (arr_eq0 V c 2) (left0_2 V c) t d
theorem handed0_3 (c : Dev nD) (t : Fin cfg0.N) (d) : (stepDat0 V c).before 3 t d = blkOf0 V c 3 t :=
  found0_3 V (stepDat0 V c) (arr_eq0 V c 3) (left0_3 V c) t d
theorem handed0_4 (c : Dev nD) (t : Fin cfg0.N) (d) : (stepDat0 V c).before 4 t d = blkOf0 V c 4 t :=
  found0_4 V (stepDat0 V c) (arr_eq0 V c 4) (left0_4 V c) t d
theorem handed0_5 (c : Dev nD) (t : Fin cfg0.N) (d) : (stepDat0 V c).before 5 t d = blkOf0 V c 5 t :=
  found0_5 V (stepDat0 V c) (arr_eq0 V c 5) (left0_5 V c) t d

/-! ## The body obligation -/

/-- What the body is called with at point t, window by window, -/
def bodyPre0 (c : Dev nD) (t : Fin cfg0.N) : sProp 𝕄 :=
  iprop((stepDat0 V c).Φ t.castSucc ∗ (stepDat0 V c).owesAt () t.castSucc
    ∗ (∃ d, owns (c : Thread nD τ) (st0_0 t) fullShare ((stepDat0 V c).before 0 t d))
    ∗ (∃ d, owns (c : Thread nD τ) (st0_1 t) fullShare ((stepDat0 V c).before 1 t d))
    ∗ (∃ d, owns (c : Thread nD τ) (st0_2 t) fullShare ((stepDat0 V c).before 2 t d))
    ∗ (∃ d, owns (c : Thread nD τ) (st0_3 t) fullShare ((stepDat0 V c).before 3 t d))
    ∗ (∃ d, owns (c : Thread nD τ) (st0_4 t) fullShare ((stepDat0 V c).before 4 t d))
    ∗ (∃ d, owns (c : Thread nD τ) (st0_5 t) fullShare ((stepDat0 V c).before 5 t d))
    ∗ (∃ d, owns (c : Thread nD τ) (st0_6 t) fullShare ((stepDat0 V c).before 6 t d))
    ∗ (∃ d, owns (c : Thread nD τ) (st0_7 t) fullShare ((stepDat0 V c).before 7 t d)))

/-- and what it returns. -/
def bodyPost0 (c : Dev nD) (t : Fin cfg0.N) : sProp 𝕄 :=
  iprop((stepDat0 V c).Φ t.succ ∗ (stepDat0 V c).owesAt () t.succ
    ∗ owns (c : Thread nD τ) (st0_0 t) fullShare ((stepDat0 V c).after 0 t)
    ∗ owns (c : Thread nD τ) (st0_1 t) fullShare ((stepDat0 V c).after 1 t)
    ∗ owns (c : Thread nD τ) (st0_2 t) fullShare ((stepDat0 V c).after 2 t)
    ∗ owns (c : Thread nD τ) (st0_3 t) fullShare ((stepDat0 V c).after 3 t)
    ∗ owns (c : Thread nD τ) (st0_4 t) fullShare ((stepDat0 V c).after 4 t)
    ∗ owns (c : Thread nD τ) (st0_5 t) fullShare ((stepDat0 V c).after 5 t)
    ∗ owns (c : Thread nD τ) (st0_6 t) fullShare ((stepDat0 V c).after 6 t)
    ∗ owns (c : Thread nD τ) (st0_7 t) fullShare ((stepDat0 V c).after 7 t))

set_option maxHeartbeats 1000000 in
/-- At any point the input buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [handed0_0, handed0_1, handed0_2, handed0_3, handed0_4, handed0_5]
  rw [show (stepDat0 V c).Φ t.succ = (stepDat0 V c).Φ t.castSucc from rfl,
    show (stepDat0 V c).owesAt () t.succ = (stepDat0 V c).owesAt () t.castSucc from rfl,
    left0_0, left0_1, left0_2, left0_3, left0_4, left0_5, left0_6, left0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (blkOf0 V c 0 t) (blkOf0 V c 1 t) (blkOf0 V c 2 t) (blkOf0 V c 3 t) (blkOf0 V c 4 t) (blkOf0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation0 (c : Dev nD) : BodyObligation (stepDat0 (F := F) V c) (defs₀ (F := F)) Variants.none () Set.univ := fun t => by
  rw [bigSep_W0, bigSep_W0]
  exact sound_body0 V c t

end Cert.Kernel.Cheb

end
-- ==== Proof.K.Step1.lean ====
/-
  One Chebyshev step as a grid of 25 row blocks (2000 rows each): at every block the body reads its six input
  blocks, stores the new term (a pointwise combination of three of them) into window 6 and the updated
  accumulator (the incoming block plus the new term's product with the weights) into window 7, each store
  covering its whole block. So after the body each output buffer holds one function of the input blocks, every
  input buffer is left as found, and the body needs nothing else: this is all the pipeline's rule asks of a
  body, stated here for any contents V the arrays hold when the call is entered.
-/
import proofs.«134689_j88055419503321_1_alg».proof.Proof.K.Pay
import proofs.«134689_j88055419503321_1_alg».proof.Proof.Gen.Kernel.Launch
import proofs.«134689_j88055419503321_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window w's block at grid point t: rows 2000·t … 2000·t + 1999 of its array (the whole array for the weights
    and the bias row), read off the contents V. -/
def blkOf1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or the block
    index stood still (the weights and the bias row are fetched once), as long as the body leaves it in place. -/
theorem found1_0 {c : Dev nD} (dat : Dat τ (Elt F) Unit ℕ (UR sig nD τ) ℕ cfg1 c) (hA : dat.A 0 = V c (Pipeline.arrRef spec1 0))
    (hafter : ∀ t, dat.after 0 t = blkOf1 V c 0 t) (t : Fin cfg1.N) (d) : dat.before 0 t d = blkOf1 V c 0 t :=
  (dat.before_in_eq_fetched 0 rfl (fun _ => rfl) (fun _ _ _ => rfl) (fun t => by rw [hafter]; unfold Dat.blockOf blkOf1; rw [hA]; try rfl) t d).trans
    (by unfold Dat.fetched Dat.blockOf blkOf1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blkOf1 V c 1 t) (t : Fin cfg1.N) (d) : dat.before 1 t d = blkOf1 V c 1 t :=
  (dat.before_in_eq_fetched 1 rfl (fun _ => rfl) (fun _ _ _ => rfl) (fun t => by rw [hafter]; unfold Dat.blockOf blkOf1; rw [hA]; try rfl) t d).trans
    (by unfold Dat.fetched Dat.blockOf blkOf1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blkOf1 V c 2 t) (t : Fin cfg1.N) (d) : dat.before 2 t d = blkOf1 V c 2 t :=
  (dat.before_in_eq_fetched 2 rfl (fun _ => rfl) (fun _ _ _ => rfl) (fun t => by rw [hafter]; unfold Dat.blockOf blkOf1; rw [hA]; try rfl) t d).trans
    (by unfold Dat.fetched Dat.blockOf blkOf1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blkOf1 V c 3 t) (t : Fin cfg1.N) (d) : dat.before 3 t d = blkOf1 V c 3 t :=
  (dat.before_in_eq_fetched 3 rfl (fun _ => rfl) (fun _ _ _ => rfl) (fun t => by rw [hafter]; unfold Dat.blockOf blkOf1; rw [hA]; try rfl) t d).trans
    (by unfold Dat.fetched Dat.blockOf blkOf1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blkOf1 V c 4 t) (t : Fin cfg1.N) (d) : dat.before 4 t d = blkOf1 V c 4 t :=
  (dat.before_in_eq_fetched 4 rfl (fun _ => rfl) (fun _ _ _ => rfl) (fun t => by rw [hafter]; unfold Dat.blockOf blkOf1; rw [hA]; try rfl) t d).trans
    (by unfold Dat.fetched Dat.blockOf blkOf1; rw [hA]; try rfl)
theorem found1_5 {c : Dev nD} (dat : Dat τ (Elt F) Unit ℕ (UR sig nD τ) ℕ cfg1 c) (hA : dat.A 5 = V c (Pipeline.arrRef spec1 5))
    (hafter : ∀ t, dat.after 5 t = blkOf1 V c 5 t) (t : Fin cfg1.N) (d) : dat.before 5 t d = blkOf1 V c 5 t :=
  (dat.before_in_eq_fetched 5 rfl (fun _ => rfl) (fun _ _ _ => rfl) (fun t => by rw [hafter]; unfold Dat.blockOf blkOf1; rw [hA]; try rfl) t d).trans
    (by unfold Dat.fetched Dat.blockOf blkOf1; rw [hA]; try rfl)

/-! ## What the body stores -/

abbrev tileA1 : Rect S2000x96 := Rect.unit (s := S2000x96) ![0, 0] S2000x96.size inb_S2000x96_S2000x96_0_0
abbrev tileW1 : Rect S96x96 := Rect.unit (s := S96x96) ![0, 0] S96x96.size inb_S96x96_S96x96_0_0
abbrev tileB1 : Rect S1x96 := Rect.unit (s := S1x96) ![0, 0] S1x96.size inb_S1x96_S1x96_0_0

/-- Window 6 after the body: the new term of the three row blocks, stored over the whole block. -/
def newTerm1 (x0 x1 x2 : Vec F S2000x96 .f32) : Vec F S2000x96 .f32 :=
  View.canon [⟨tileA1, term1 (View.ld x0 tileA1) (View.ld x1 tileA1) (View.ld x2 tileA1)⟩]

/-- Window 7 after the body: the updated accumulator block, stored over the whole block. -/
def newAcc1 (x0 x1 x2 : Vec F S2000x96 .f32) (x3 : Vec F S96x96 .f32) (x4 : Vec F S1x96 .f32) (x5 : Vec F S2000x96 .f32) : Vec F S2000x96 .f32 :=
  View.canon [⟨tileA1, acc1 (View.ld x0 tileA1) (View.ld x1 tileA1) (View.ld x2 tileA1) (View.ld x3 tileW1) (View.ld x4 tileB1) (View.ld x5 tileA1)⟩]

/-- One store over the whole 2000 × 96 block covers every index of it. -/
theorem whole1 (p0 : Vec F S2000x96 .f32) (y : S2000x96.Idx) :
    ∃ pc ∈ ([⟨tileA1, p0⟩] : List (View.Piece (Elt F) S2000x96 .f32)), y ∈ pc.1.set :=
  View.cover_of_tiled [⟨tileA1, p0⟩] S2000x96.size (by rfl) y

/-! ## The body's triple -/

set_option maxHeartbeats 1000000 in
/-- On whole staging memrefs, the inputs' at contents x0 … x5 and the outputs' at anything, the body runs to the
    continuation with the inputs' unchanged, window 6's at the new term and window 7's at the new accumulator. -/
theorem sound_kernel1 (c : Dev nD) (E : Set ℕ) (i : grid1.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S2000x96 .f32) (harg6 : arg6.IsWhole) (arg7 : Memref sig .tc .vmem S2000x96 .f32) (harg7 : arg7.IsWhole) (arg8 : Memref sig .tc .vmem S2000x96 .f32) (harg8 : arg8.IsWhole)
    (x0 x1 x2 : Vec F S2000x96 .f32) (x3 : Vec F S96x96 .f32) (x4 : Vec F S1x96 .f32) (x5 : Vec F S2000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newTerm1 x0 x1 x2) ∗ owns (c : Thread nD τ) arg8 fullShare (newAcc1 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (whole1 _)
  iexists _; isplitr
  swap; · iexact H7
  ipureintro
  exact View.read_writes_eq_canon _ _ _ (whole1 _)

/-! ## The pipeline's proof data -/

/-- The step's proof data on core c: the arrays as the call finds them; after the body at point t every input
    buffer at its block, window 6 at the new term and window 7 at the new accumulator of the point's blocks; the
    body's invariant is the untouched rest (the other scoped buffers and the generator register); nothing owed. -/
def stepDat1 (c : Dev nD) : Dat τ (Elt F) Unit ℕ (UR sig nD τ) ℕ cfg1 c where
  A w := V c (Pipeline.arrRef spec1 w)
  after w t := match w with
    | ⟨0, _⟩ => blkOf1 V c 0 t
    | ⟨1, _⟩ => blkOf1 V c 1 t
    | ⟨2, _⟩ => blkOf1 V c 2 t
    | ⟨3, _⟩ => blkOf1 V c 3 t
    | ⟨4, _⟩ => blkOf1 V c 4 t
    | ⟨5, _⟩ => blkOf1 V c 5 t
    | ⟨6, _⟩ => newTerm1 (blkOf1 V c 0 t) (blkOf1 V c 1 t) (blkOf1 V c 2 t)
    | ⟨7, _⟩ => newAcc1 (blkOf1 V c 0 t) (blkOf1 V c 1 t) (blkOf1 V c 2 t) (blkOf1 V c 3 t) (blkOf1 V c 4 t) (blkOf1 V c 5 t)
  Φ _ := Pipeline.ΦA spec1 c
  q := share1
  owed _ := 0

theorem arr_eq1 (c : Dev nD) (w : Fin cfg1.W) : (stepDat1 V c).A w = V c (Pipeline.arrRef spec1 w) := by
  dsimp only [stepDat1]

theorem left1_0 (c : Dev nD) (t : Fin cfg1.N) : (stepDat1 V c).after 0 t = blkOf1 V c 0 t := by dsimp only [stepDat1]
theorem left1_1 (c : Dev nD) (t : Fin cfg1.N) : (stepDat1 V c).after 1 t = blkOf1 V c 1 t := by dsimp only [stepDat1]
theorem left1_2 (c : Dev nD) (t : Fin cfg1.N) : (stepDat1 V c).after 2 t = blkOf1 V c 2 t := by dsimp only [stepDat1]
theorem left1_3 (c : Dev nD) (t : Fin cfg1.N) : (stepDat1 V c).after 3 t = blkOf1 V c 3 t := by dsimp only [stepDat1]
theorem left1_4 (c : Dev nD) (t : Fin cfg1.N) : (stepDat1 V c).after 4 t = blkOf1 V c 4 t := by dsimp only [stepDat1]
theorem left1_5 (c : Dev nD) (t : Fin cfg1.N) : (stepDat1 V c).after 5 t = blkOf1 V c 5 t := by dsimp only [stepDat1]
theorem left1_6 (c : Dev nD) (t : Fin cfg1.N) : (stepDat1 V c).after 6 t = newTerm1 (blkOf1 V c 0 t) (blkOf1 V c 1 t) (blkOf1 V c 2 t) := by dsimp only [stepDat1]
theorem left1_7 (c : Dev nD) (t : Fin cfg1.N) : (stepDat1 V c).after 7 t = newAcc1 (blkOf1 V c 0 t) (blkOf1 V c 1 t) (blkOf1 V c 2 t) (blkOf1 V c 3 t) (blkOf1 V c 4 t) (blkOf1 V c 5 t) := by dsimp only [stepDat1]

theorem handed1_0 (c : Dev nD) (t : Fin cfg1.N) (d) : (stepDat1 V c).before 0 t d = blkOf1 V c 0 t :=
  found1_0 V (stepDat1 V c) (arr_eq1 V c 0) (left1_0 V c) t d
theorem handed1_1 (c : Dev nD) (t : Fin cfg1.N) (d) : (stepDat1 V c).before 1 t d = blkOf1 V c 1 t :=
  found1_1 V (stepDat1 V c) (arr_eq1 V c 1) (left1_1 V c) t d
theorem handed1_2 (c : Dev nD) (t : Fin cfg1.N) (d) : (stepDat1 V c).before 2 t d = blkOf1 V c 2 t :=
  found1_2 V (stepDat1 V c) (arr_eq1 V c 2) (left1_2 V c) t d
theorem handed1_3 (c : Dev nD) (t : Fin cfg1.N) (d) : (stepDat1 V c).before 3 t d = blkOf1 V c 3 t :=
  found1_3 V (stepDat1 V c) (arr_eq1 V c 3) (left1_3 V c) t d
theorem handed1_4 (c : Dev nD) (t : Fin cfg1.N) (d) : (stepDat1 V c).before 4 t d = blkOf1 V c 4 t :=
  found1_4 V (stepDat1 V c) (arr_eq1 V c 4) (left1_4 V c) t d
theorem handed1_5 (c : Dev nD) (t : Fin cfg1.N) (d) : (stepDat1 V c).before 5 t d = blkOf1 V c 5 t :=
  found1_5 V (stepDat1 V c) (arr_eq1 V c 5) (left1_5 V c) t d

/-! ## The body obligation -/

/-- What the body is called with at point t, window by window, -/
def bodyPre1 (c : Dev nD) (t : Fin cfg1.N) : sProp 𝕄 :=
  iprop((stepDat1 V c).Φ t.castSucc ∗ (stepDat1 V c).owesAt () t.castSucc
    ∗ (∃ d, owns (c : Thread nD τ) (st1_0 t) fullShare ((stepDat1 V c).before 0 t d))
    ∗ (∃ d, owns (c : Thread nD τ) (st1_1 t) fullShare ((stepDat1 V c).before 1 t d))
    ∗ (∃ d, owns (c : Thread nD τ) (st1_2 t) fullShare ((stepDat1 V c).before 2 t d))
    ∗ (∃ d, owns (c : Thread nD τ) (st1_3 t) fullShare ((stepDat1 V c).before 3 t d))
    ∗ (∃ d, owns (c : Thread nD τ) (st1_4 t) fullShare ((stepDat1 V c).before 4 t d))
    ∗ (∃ d, owns (c : Thread nD τ) (st1_5 t) fullShare ((stepDat1 V c).before 5 t d))
    ∗ (∃ d, owns (c : Thread nD τ) (st1_6 t) fullShare ((stepDat1 V c).before 6 t d))
    ∗ (∃ d, owns (c : Thread nD τ) (st1_7 t) fullShare ((stepDat1 V c).before 7 t d)))

/-- and what it returns. -/
def bodyPost1 (c : Dev nD) (t : Fin cfg1.N) : sProp 𝕄 :=
  iprop((stepDat1 V c).Φ t.succ ∗ (stepDat1 V c).owesAt () t.succ
    ∗ owns (c : Thread nD τ) (st1_0 t) fullShare ((stepDat1 V c).after 0 t)
    ∗ owns (c : Thread nD τ) (st1_1 t) fullShare ((stepDat1 V c).after 1 t)
    ∗ owns (c : Thread nD τ) (st1_2 t) fullShare ((stepDat1 V c).after 2 t)
    ∗ owns (c : Thread nD τ) (st1_3 t) fullShare ((stepDat1 V c).after 3 t)
    ∗ owns (c : Thread nD τ) (st1_4 t) fullShare ((stepDat1 V c).after 4 t)
    ∗ owns (c : Thread nD τ) (st1_5 t) fullShare ((stepDat1 V c).after 5 t)
    ∗ owns (c : Thread nD τ) (st1_6 t) fullShare ((stepDat1 V c).after 6 t)
    ∗ owns (c : Thread nD τ) (st1_7 t) fullShare ((stepDat1 V c).after 7 t))

set_option maxHeartbeats 1000000 in
/-- At any point the input buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [handed1_0, handed1_1, handed1_2, handed1_3, handed1_4, handed1_5]
  rw [show (stepDat1 V c).Φ t.succ = (stepDat1 V c).Φ t.castSucc from rfl,
    show (stepDat1 V c).owesAt () t.succ = (stepDat1 V c).owesAt () t.castSucc from rfl,
    left1_0, left1_1, left1_2, left1_3, left1_4, left1_5, left1_6, left1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blkOf1 V c 0 t) (blkOf1 V c 1 t) (blkOf1 V c 2 t) (blkOf1 V c 3 t) (blkOf1 V c 4 t) (blkOf1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation1 (c : Dev nD) : BodyObligation (stepDat1 (F := F) V c) (defs₀ (F := F)) Variants.none () Set.univ := fun t => by
  rw [bigSep_W1, bigSep_W1]
  exact sound_body1 V c t

end Cert.Kernel.Cheb

end
-- ==== Proof.K.Step2.lean ====
/-
  One Chebyshev step as a grid of 25 row blocks (2000 rows each): at every block the body reads its six input
  blocks, stores the new term (a pointwise combination of three of them) into window 6 and the updated
  accumulator (the incoming block plus the new term's product with the weights) into window 7, each store
  covering its whole block. So after the body each output buffer holds one function of the input blocks, every
  input buffer is left as found, and the body needs nothing else: this is all the pipeline's rule asks of a
  body, stated here for any contents V the arrays hold when the call is entered.
-/
import proofs.«134689_j88055419503321_1_alg».proof.Proof.K.Pay
import proofs.«134689_j88055419503321_1_alg».proof.Proof.Gen.Kernel.Launch
import proofs.«134689_j88055419503321_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window w's block at grid point t: rows 2000·t … 2000·t + 1999 of its array (the whole array for the weights
    and the bias row), read off the contents V. -/
def blkOf2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetched it or the block
    index stood still (the weights and the bias row are fetched once), as long as the body leaves it in place. -/
theorem found2_0 {c : Dev nD} (dat : Dat τ (Elt F) Unit ℕ (UR sig nD τ) ℕ cfg2 c) (hA : dat.A 0 = V c (Pipeline.arrRef spec2 0))
    (hafter : ∀ t, dat.after 0 t = blkOf2 V c 0 t) (t : Fin cfg2.N) (d) : dat.before 0 t d = blkOf2 V c 0 t :=
  (dat.before_in_eq_fetched 0 rfl (fun _ => rfl) (fun _ _ _ => rfl) (fun t => by rw [hafter]; unfold Dat.blockOf blkOf2; rw [hA]; try rfl) t d).trans
    (by unfold Dat.fetched Dat.blockOf blkOf2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blkOf2 V c 1 t) (t : Fin cfg2.N) (d) : dat.before 1 t d = blkOf2 V c 1 t :=
  (dat.before_in_eq_fetched 1 rfl (fun _ => rfl) (fun _ _ _ => rfl) (fun t => by rw [hafter]; unfold Dat.blockOf blkOf2; rw [hA]; try rfl) t d).trans
    (by unfold Dat.fetched Dat.blockOf blkOf2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blkOf2 V c 2 t) (t : Fin cfg2.N) (d) : dat.before 2 t d = blkOf2 V c 2 t :=
  (dat.before_in_eq_fetched 2 rfl (fun _ => rfl) (fun _ _ _ => rfl) (fun t => by rw [hafter]; unfold Dat.blockOf blkOf2; rw [hA]; try rfl) t d).trans
    (by unfold Dat.fetched Dat.blockOf blkOf2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blkOf2 V c 3 t) (t : Fin cfg2.N) (d) : dat.before 3 t d = blkOf2 V c 3 t :=
  (dat.before_in_eq_fetched 3 rfl (fun _ => rfl) (fun _ _ _ => rfl) (fun t => by rw [hafter]; unfold Dat.blockOf blkOf2; rw [hA]; try rfl) t d).trans
    (by unfold Dat.fetched Dat.blockOf blkOf2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = blkOf2 V c 4 t) (t : Fin cfg2.N) (d) : dat.before 4 t d = blkOf2 V c 4 t :=
  (dat.before_in_eq_fetched 4 rfl (fun _ => rfl) (fun _ _ _ => rfl) (fun t => by rw [hafter]; unfold Dat.blockOf blkOf2; rw [hA]; try rfl) t d).trans
    (by unfold Dat.fetched Dat.blockOf blkOf2; rw [hA]; try rfl)
theorem found2_5 {c : Dev nD} (dat : Dat τ (Elt F) Unit ℕ (UR sig nD τ) ℕ cfg2 c) (hA : dat.A 5 = V c (Pipeline.arrRef spec2 5))
    (hafter : ∀ t, dat.after 5 t = blkOf2 V c 5 t) (t : Fin cfg2.N) (d) : dat.before 5 t d = blkOf2 V c 5 t :=
  (dat.before_in_eq_fetched 5 rfl (fun _ => rfl) (fun _ _ _ => rfl) (fun t => by rw [hafter]; unfold Dat.blockOf blkOf2; rw [hA]; try rfl) t d).trans
    (by unfold Dat.fetched Dat.blockOf blkOf2; rw [hA]; try rfl)

/-! ## What the body stores -/

abbrev tileA2 : Rect S2000x96 := Rect.unit (s := S2000x96) ![0, 0] S2000x96.size inb_S2000x96_S2000x96_0_0
abbrev tileW2 : Rect S96x96 := Rect.unit (s := S96x96) ![0, 0] S96x96.size inb_S96x96_S96x96_0_0
abbrev tileB2 : Rect S1x96 := Rect.unit (s := S1x96) ![0, 0] S1x96.size inb_S1x96_S1x96_0_0

/-- Window 6 after the body: the new term of the three row blocks, stored over the whole block. -/
def newTerm2 (x0 x1 x2 : Vec F S2000x96 .f32) : Vec F S2000x96 .f32 :=
  View.canon [⟨tileA2, term2 (View.ld x0 tileA2) (View.ld x1 tileA2) (View.ld x2 tileA2)⟩]

/-- Window 7 after the body: the updated accumulator block, stored over the whole block. -/
def newAcc2 (x0 x1 x2 : Vec F S2000x96 .f32) (x3 : Vec F S96x96 .f32) (x4 : Vec F S1x96 .f32) (x5 : Vec F S2000x96 .f32) : Vec F S2000x96 .f32 :=
  View.canon [⟨tileA2, acc2 (View.ld x0 tileA2) (View.ld x1 tileA2) (View.ld x2 tileA2) (View.ld x3 tileW2) (View.ld x4 tileB2) (View.ld x5 tileA2)⟩]

/-- One store over the whole 2000 × 96 block covers every index of it. -/
theorem whole2 (p0 : Vec F S2000x96 .f32) (y : S2000x96.Idx) :
    ∃ pc ∈ ([⟨tileA2, p0⟩] : List (View.Piece (Elt F) S2000x96 .f32)), y ∈ pc.1.set :=
  View.cover_of_tiled [⟨tileA2, p0⟩] S2000x96.size (by rfl) y

/-! ## The body's triple -/

set_option maxHeartbeats 1000000 in
/-- On whole staging memrefs, the inputs' at contents x0 … x5 and the outputs' at anything, the body runs to the
    continuation with the inputs' unchanged, window 6's at the new term and window 7's at the new accumulator. -/
theorem sound_kernel2 (c : Dev nD) (E : Set ℕ) (i : grid2.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S2000x96 .f32) (harg6 : arg6.IsWhole) (arg7 : Memref sig .tc .vmem S2000x96 .f32) (harg7 : arg7.IsWhole) (arg8 : Memref sig .tc .vmem S2000x96 .f32) (harg8 : arg8.IsWhole)
    (x0 x1 x2 : Vec F S2000x96 .f32) (x3 : Vec F S96x96 .f32) (x4 : Vec F S1x96 .f32) (x5 : Vec F S2000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newTerm2 x0 x1 x2) ∗ owns (c : Thread nD τ) arg8 fullShare (newAcc2 x0 x1 x2 x3 x4 x5)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (whole2 _)
  iexists _; isplitr
  swap; · iexact H7
  ipureintro
  exact View.read_writes_eq_canon _ _ _ (whole2 _)

/-! ## The pipeline's proof data -/

/-- The step's proof data on core c: the arrays as the call finds them; after the body at point t every input
    buffer at its block, window 6 at the new term and window 7 at the new accumulator of the point's blocks; the
    body's invariant is the untouched rest (the other scoped buffers and the generator register); nothing owed. -/
def stepDat2 (c : Dev nD) : Dat τ (Elt F) Unit ℕ (UR sig nD τ) ℕ cfg2 c where
  A w := V c (Pipeline.arrRef spec2 w)
  after w t := match w with
    | ⟨0, _⟩ => blkOf2 V c 0 t
    | ⟨1, _⟩ => blkOf2 V c 1 t
    | ⟨2, _⟩ => blkOf2 V c 2 t
    | ⟨3, _⟩ => blkOf2 V c 3 t
    | ⟨4, _⟩ => blkOf2 V c 4 t
    | ⟨5, _⟩ => blkOf2 V c 5 t
    | ⟨6, _⟩ => newTerm2 (blkOf2 V c 0 t) (blkOf2 V c 1 t) (blkOf2 V c 2 t)
    | ⟨7, _⟩ => newAcc2 (blkOf2 V c 0 t) (blkOf2 V c 1 t) (blkOf2 V c 2 t) (blkOf2 V c 3 t) (blkOf2 V c 4 t) (blkOf2 V c 5 t)
  Φ _ := Pipeline.ΦA spec2 c
  q := share2
  owed _ := 0

theorem arr_eq2 (c : Dev nD) (w : Fin cfg2.W) : (stepDat2 V c).A w = V c (Pipeline.arrRef spec2 w) := by
  dsimp only [stepDat2]

theorem left2_0 (c : Dev nD) (t : Fin cfg2.N) : (stepDat2 V c).after 0 t = blkOf2 V c 0 t := by dsimp only [stepDat2]
theorem left2_1 (c : Dev nD) (t : Fin cfg2.N) : (stepDat2 V c).after 1 t = blkOf2 V c 1 t := by dsimp only [stepDat2]
theorem left2_2 (c : Dev nD) (t : Fin cfg2.N) : (stepDat2 V c).after 2 t = blkOf2 V c 2 t := by dsimp only [stepDat2]
theorem left2_3 (c : Dev nD) (t : Fin cfg2.N) : (stepDat2 V c).after 3 t = blkOf2 V c 3 t := by dsimp only [stepDat2]
theorem left2_4 (c : Dev nD) (t : Fin cfg2.N) : (stepDat2 V c).after 4 t = blkOf2 V c 4 t := by dsimp only [stepDat2]
theorem left2_5 (c : Dev nD) (t : Fin cfg2.N) : (stepDat2 V c).after 5 t = blkOf2 V c 5 t := by dsimp only [stepDat2]
theorem left2_6 (c : Dev nD) (t : Fin cfg2.N) : (stepDat2 V c).after 6 t = newTerm2 (blkOf2 V c 0 t) (blkOf2 V c 1 t) (blkOf2 V c 2 t) := by dsimp only [stepDat2]
theorem left2_7 (c : Dev nD) (t : Fin cfg2.N) : (stepDat2 V c).after 7 t = newAcc2 (blkOf2 V c 0 t) (blkOf2 V c 1 t) (blkOf2 V c 2 t) (blkOf2 V c 3 t) (blkOf2 V c 4 t) (blkOf2 V c 5 t) := by dsimp only [stepDat2]

theorem handed2_0 (c : Dev nD) (t : Fin cfg2.N) (d) : (stepDat2 V c).before 0 t d = blkOf2 V c 0 t :=
  found2_0 V (stepDat2 V c) (arr_eq2 V c 0) (left2_0 V c) t d
theorem handed2_1 (c : Dev nD) (t : Fin cfg2.N) (d) : (stepDat2 V c).before 1 t d = blkOf2 V c 1 t :=
  found2_1 V (stepDat2 V c) (arr_eq2 V c 1) (left2_1 V c) t d
theorem handed2_2 (c : Dev nD) (t : Fin cfg2.N) (d) : (stepDat2 V c).before 2 t d = blkOf2 V c 2 t :=
  found2_2 V (stepDat2 V c) (arr_eq2 V c 2) (left2_2 V c) t d
theorem handed2_3 (c : Dev nD) (t : Fin cfg2.N) (d) : (stepDat2 V c).before 3 t d = blkOf2 V c 3 t :=
  found2_3 V (stepDat2 V c) (arr_eq2 V c 3) (left2_3 V c) t d
theorem handed2_4 (c : Dev nD) (t : Fin cfg2.N) (d) : (stepDat2 V c).before 4 t d = blkOf2 V c 4 t :=
  found2_4 V (stepDat2 V c) (arr_eq2 V c 4) (left2_4 V c) t d
theorem handed2_5 (c : Dev nD) (t : Fin cfg2.N) (d) : (stepDat2 V c).before 5 t d = blkOf2 V c 5 t :=
  found2_5 V (stepDat2 V c) (arr_eq2 V c 5) (left2_5 V c) t d

/-! ## The body obligation -/

/-- What the body is called with at point t, window by window, -/
def bodyPre2 (c : Dev nD) (t : Fin cfg2.N) : sProp 𝕄 :=
  iprop((stepDat2 V c).Φ t.castSucc ∗ (stepDat2 V c).owesAt () t.castSucc
    ∗ (∃ d, owns (c : Thread nD τ) (st2_0 t) fullShare ((stepDat2 V c).before 0 t d))
    ∗ (∃ d, owns (c : Thread nD τ) (st2_1 t) fullShare ((stepDat2 V c).before 1 t d))
    ∗ (∃ d, owns (c : Thread nD τ) (st2_2 t) fullShare ((stepDat2 V c).before 2 t d))
    ∗ (∃ d, owns (c : Thread nD τ) (st2_3 t) fullShare ((stepDat2 V c).before 3 t d))
    ∗ (∃ d, owns (c : Thread nD τ) (st2_4 t) fullShare ((stepDat2 V c).before 4 t d))
    ∗ (∃ d, owns (c : Thread nD τ) (st2_5 t) fullShare ((stepDat2 V c).before 5 t d))
    ∗ (∃ d, owns (c : Thread nD τ) (st2_6 t) fullShare ((stepDat2 V c).before 6 t d))
    ∗ (∃ d, owns (c : Thread nD τ) (st2_7 t) fullShare ((stepDat2 V c).before 7 t d)))

/-- and what it returns. -/
def bodyPost2 (c : Dev nD) (t : Fin cfg2.N) : sProp 𝕄 :=
  iprop((stepDat2 V c).Φ t.succ ∗ (stepDat2 V c).owesAt () t.succ
    ∗ owns (c : Thread nD τ) (st2_0 t) fullShare ((stepDat2 V c).after 0 t)
    ∗ owns (c : Thread nD τ) (st2_1 t) fullShare ((stepDat2 V c).after 1 t)
    ∗ owns (c : Thread nD τ) (st2_2 t) fullShare ((stepDat2 V c).after 2 t)
    ∗ owns (c : Thread nD τ) (st2_3 t) fullShare ((stepDat2 V c).after 3 t)
    ∗ owns (c : Thread nD τ) (st2_4 t) fullShare ((stepDat2 V c).after 4 t)
    ∗ owns (c : Thread nD τ) (st2_5 t) fullShare ((stepDat2 V c).after 5 t)
    ∗ owns (c : Thread nD τ) (st2_6 t) fullShare ((stepDat2 V c).after 6 t)
    ∗ owns (c : Thread nD τ) (st2_7 t) fullShare ((stepDat2 V c).after 7 t))

set_option maxHeartbeats 1000000 in
/-- At any point the input buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [handed2_0, handed2_1, handed2_2, handed2_3, handed2_4, handed2_5]
  rw [show (stepDat2 V c).Φ t.succ = (stepDat2 V c).Φ t.castSucc from rfl,
    show (stepDat2 V c).owesAt () t.succ = (stepDat2 V c).owesAt () t.castSucc from rfl,
    left2_0, left2_1, left2_2, left2_3, left2_4, left2_5, left2_6, left2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (blkOf2 V c 0 t) (blkOf2 V c 1 t) (blkOf2 V c 2 t) (blkOf2 V c 3 t) (blkOf2 V c 4 t) (blkOf2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation2 (c : Dev nD) : BodyObligation (stepDat2 (F := F) V c) (defs₀ (F := F)) Variants.none () Set.univ := fun t => by
  rw [bigSep_W2, bigSep_W2]
  exact sound_body2 V c t

end Cert.Kernel.Cheb

end
-- ==== Proof.K.Shared0.lean ====
/-
  The first Chebyshev step is handed ONE array, H, through two windows (the term two steps back and the
  previous term are both H at k = 1). The pipeline's rule wants, per window, a share of the window's array: so
  entering the call the core's whole hold on H is cut into two halves, one per window (both windows only read),
  every other array going whole to its one window; leaving it, the two halves — both still at H's entry contents,
  since no input window is written back — are joined again, and the two output arrays come back at what the
  grid's write-backs left in them, every buffer that is no window's array untouched.
-/
import proofs.«134689_j88055419503321_1_alg».proof.Proof.K.Step0
import Idealize.ShloMosaic.Lib.Pipeline.Kit
import Idealize.ShloMosaic.Lib.Pipeline.Regions
import Idealize.ShloMosaic.Lib.Pipeline.RegionsLoop

set_option maxRecDepth 16384

noncomputable section

namespace Cert.Kernel.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' arrays, one by one -/

/-- Window w's array is a whole buffer: its points-to over the array's element set is the points-to of the whole
    buffer behind it, at the share q the window holds. -/
private theorem arr0_eq (c : Dev nD) (w : Fin 8) (q : PosShare TreeShare) (hq : (stepDat0 V c).share w = q)
    (X : Buf (Elt F) ((cfg0.win w).arr.view.loc (c.tc : Thread nD τ))) :
    ((cfg0.win w).arr.view.loc (c.tc : Thread nD τ) ↦[(cfg0.win w).arr.view.set]{(stepDat0 V c).share w} X : sProp 𝕄)
      = ((c.tc : Thread nD τ).loc (Pipeline.arrRef spec0 w) ↦{q} X) := by
  rw [show (cfg0.win w).arr.view.set = Finset.univ from (arr_whole0 w).set_eq_univ, hq]

/-- Equal conjuncts, equal conjunctions. -/
private theorem sep_eq {M : Type} [URA M] {A A' B B' : sProp M} (hA : A = A') (hB : B = B') :
    iprop(A ∗ B) = iprop(A' ∗ B') := by rw [hA, hB]

/-- Equal contents, equal points-tos. -/
private theorem pt_congr {ℓ : Loc nD τ sig} {q : PosShare TreeShare} {f g : Buf (Elt F) ℓ} (h : f = g) :
    (ℓ ↦{q} f : sProp 𝕄) = (ℓ ↦{q} g) := by rw [h]

/-- The share each window holds of its array: windows 0 and 1 half of H each, every other window its whole array. -/
private theorem held0 (c : Dev nD) :
    (stepDat0 V c).share 0 = fullShare.left ∧ (stepDat0 V c).share 1 = fullShare.right
      ∧ (stepDat0 V c).share 2 = fullShare ∧ (stepDat0 V c).share 3 = fullShare ∧ (stepDat0 V c).share 4 = fullShare
      ∧ (stepDat0 V c).share 5 = fullShare ∧ (stepDat0 V c).share 6 = fullShare ∧ (stepDat0 V c).share 7 = fullShare :=
  ⟨rfl, rfl, rfl, rfl, rfl, rfl, rfl, rfl⟩

set_option maxHeartbeats 1000000 in
/-- The first call's arrays at contents X, window by window: H at half a share through each of windows 0 and 1,
    every other array whole. -/
private theorem arrays0_eq (c : Dev nD) (X : (w : Fin cfg0.W) → Buf (Elt F) ((cfg0.win w).arr.view.loc (c.tc : Thread nD τ))) :
    ((stepDat0 V c).arrays X : sProp 𝕄)
      = iprop(((c.tc : Thread nD τ).loc main_arg3 ↦{fullShare.left} X 0) ∗ ((c.tc : Thread nD τ).loc main_arg3 ↦{fullShare.right} X 1)
          ∗ ((c.tc : Thread nD τ).loc main_v14 ↦{fullShare} X 2) ∗ ((c.tc : Thread nD τ).loc main_arg4 ↦{fullShare} X 3)
          ∗ ((c.tc : Thread nD τ).loc main_v0 ↦{fullShare} X 4) ∗ ((c.tc : Thread nD τ).loc main_v1 ↦{fullShare} X 5)
          ∗ ((c.tc : Thread nD τ).loc main_v15_0 ↦{fullShare} X 6) ∗ ((c.tc : Thread nD τ).loc main_v15_1 ↦{fullShare} X 7)) := by
  obtain ⟨s0, s1, s2, s3, s4, s5, s6, s7⟩ := held0 V c
  unfold Dat.arrays
  rw [bigSep_W0]
  exact sep_eq (arr0_eq V c 0 _ s0 (X 0)) (sep_eq (arr0_eq V c 1 _ s1 (X 1))
    (sep_eq (arr0_eq V c 2 _ s2 (X 2)) (sep_eq (arr0_eq V c 3 _ s3 (X 3))
    (sep_eq (arr0_eq V c 4 _ s4 (X 4)) (sep_eq (arr0_eq V c 5 _ s5 (X 5))
    (sep_eq (arr0_eq V c 6 _ s6 (X 6)) (arr0_eq V c 7 _ s7 (X 7))))))))

/-- The seven distinct buffers behind the eight windows' arrays, conjoined one by one. -/
private theorem bigSep_arrs0 {M : Type} [URA M] (Φ : Ref sig .tc → sProp M) :
    bigSep (Finset.univ.image (Pipeline.arrRef spec0)) Φ
      = iprop(Φ main_arg3 ∗ Φ main_v14 ∗ Φ main_arg4 ∗ Φ main_v0 ∗ Φ main_v1 ∗ Φ main_v15_0 ∗ Φ main_v15_1) :=
  bigSep_eq_bigSepL_of_eq [main_arg3, main_v14, main_arg4, main_v0, main_v1, main_v15_0, main_v15_1] (by decide) (by decide) Φ

/-- A core's unscoped buffers at contents V': the buffers behind the first call's arrays, and the rest. -/
private theorem unscoped_split0 (c : Dev nD) (V' : (b : Ref sig .tc) → Buf (Elt F) ((c : Thread nD τ).loc b)) :
    (unscopedBufs c V' : sProp 𝕄) = iprop(Pipeline.arrBufs spec0 c V' ∗ Pipeline.unscopedRest spec0 c V') :=
  Pipeline.unscopedBufs_split₀ cfgs 0 winFacts₀0.arr_unscoped c V'

/-! ## Entering the call -/

/-- ENTRY: a core's unscoped buffers at contents V are the first call's arrays at the proof data's entry contents
    (H's two windows at half each) and the unscoped buffers that are no window's array. -/
theorem enter0 (c : Dev nD) :
    (unscopedBufs c (V c) : sProp 𝕄)
      ⊢ iprop((stepDat0 V c).arrays ((stepDat0 V c).arrAt · 0) ∗ Pipeline.unscopedRest spec0 c (V c)) := by
  rw [unscoped_split0 c (V c)]
  refine sep_mono ?_ .rfl
  unfold Pipeline.arrBufs
  rw [bigSep_arrs0, arrays0_eq]
  iintro ⟨H3, H14, H4, H0, H1, H150, H151⟩
  icases (pointsTo_share (PosShare.mem_left_op_right fullShare)).1 $$ H3 with ⟨H3l, H3r⟩
  isplitl [H3l]; · iexact H3l
  isplitl [H3r]; · iexact H3r
  isplitl [H14]; · iexact H14
  isplitl [H4]; · iexact H4
  isplitl [H0]; · iexact H0
  isplitl [H1]; · iexact H1
  isplitl [H150]; · iexact H150
  iexact H151

/-! ## Leaving the call -/

/-- An input window's array is never written back: at the end of the grid it is at the entry contents. -/
private theorem kept0 (c : Dev nD) (w : Fin cfg0.W) (hin : (cfg0.win w).isOut = false) :
    (stepDat0 V c).arrAt w cfg0.N = V c (Pipeline.arrRef spec0 w) :=
  ((stepDat0 V c).arrAt_in w hin cfg0.N).trans (arr_eq0 V c w)

/-- The arrays' part of the exit: the two halves of H, both at H's entry contents, join; the other input arrays
    are as found; the output arrays are at what the write-backs left. -/
private theorem leave_arrays0 (c : Dev nD) (V' : (b : Ref sig .tc) → Buf (Elt F) ((c : Thread nD τ).loc b))
    (h6 : V' main_v15_0 = (stepDat0 V c).arrAt 6 cfg0.N) (h7 : V' main_v15_1 = (stepDat0 V c).arrAt 7 cfg0.N)
    (h3 : V' main_arg3 = V c main_arg3) (h14 : V' main_v14 = V c main_v14) (h4 : V' main_arg4 = V c main_arg4)
    (h0 : V' main_v0 = V c main_v0) (h1 : V' main_v1 = V c main_v1) :
    ((stepDat0 V c).arrays ((stepDat0 V c).arrAt · cfg0.N) : sProp 𝕄) ⊢ Pipeline.arrBufs spec0 c V' := by
  have e0 : (stepDat0 V c).arrAt 0 cfg0.N = V' main_arg3 := (kept0 V c 0 rfl).trans h3.symm
  have e1 : (stepDat0 V c).arrAt 1 cfg0.N = V' main_arg3 := (kept0 V c 1 rfl).trans h3.symm
  have e2 : (stepDat0 V c).arrAt 2 cfg0.N = V' main_v14 := (kept0 V c 2 rfl).trans h14.symm
  have e3 : (stepDat0 V c).arrAt 3 cfg0.N = V' main_arg4 := (kept0 V c 3 rfl).trans h4.symm
  have e4 : (stepDat0 V c).arrAt 4 cfg0.N = V' main_v0 := (kept0 V c 4 rfl).trans h0.symm
  have e5 : (stepDat0 V c).arrAt 5 cfg0.N = V' main_v1 := (kept0 V c 5 rfl).trans h1.symm
  have hE : ((stepDat0 V c).arrays ((stepDat0 V c).arrAt · cfg0.N) : sProp 𝕄)
      = iprop(((c.tc : Thread nD τ).loc main_arg3 ↦{fullShare.left} V' main_arg3) ∗ ((c.tc : Thread nD τ).loc main_arg3 ↦{fullShare.right} V' main_arg3)
          ∗ ((c.tc : Thread nD τ).loc main_v14 ↦{fullShare} V' main_v14) ∗ ((c.tc : Thread nD τ).loc main_arg4 ↦{fullShare} V' main_arg4)
          ∗ ((c.tc : Thread nD τ).loc main_v0 ↦{fullShare} V' main_v0) ∗ ((c.tc : Thread nD τ).loc main_v1 ↦{fullShare} V' main_v1)
          ∗ ((c.tc : Thread nD τ).loc main_v15_0 ↦{fullShare} V' main_v15_0) ∗ ((c.tc : Thread nD τ).loc main_v15_1 ↦{fullShare} V' main_v15_1)) :=
    (arrays0_eq V c _).trans (sep_eq (pt_congr e0) (sep_eq (pt_congr e1) (sep_eq (pt_congr e2) (sep_eq (pt_congr e3)
      (sep_eq (pt_congr e4) (sep_eq (pt_congr e5) (sep_eq (pt_congr h6.symm) (pt_congr h7.symm))))))))
  unfold Pipeline.arrBufs
  rw [bigSep_arrs0]
  refine (Entails.of_eq hE).trans ?_
  iintro ⟨H3l, H3r, H14, H4, H0, H1, H150, H151⟩
  isplitl [H3l H3r]
  · iapply (pointsTo_share (PosShare.mem_left_op_right fullShare)).2
    isplitl [H3l]; · iexact H3l
    iexact H3r
  isplitl [H14]; · iexact H14
  isplitl [H4]; · iexact H4
  isplitl [H0]; · iexact H0
  isplitl [H1]; · iexact H1
  isplitl [H150]; · iexact H150
  iexact H151

/-- EXIT: the call's arrays at what the pipeline leaves in them and the untouched rest are the core's unscoped
    buffers at any contents V' that has the two output arrays at what the write-backs left and agrees with V
    everywhere else. -/
theorem leave0 (c : Dev nD) (V' : (b : Ref sig .tc) → Buf (Elt F) ((c : Thread nD τ).loc b))
    (h6 : V' main_v15_0 = (stepDat0 V c).arrAt 6 cfg0.N) (h7 : V' main_v15_1 = (stepDat0 V c).arrAt 7 cfg0.N)
    (hrest : ∀ b : Ref sig .tc, b ≠ main_v15_0 → b ≠ main_v15_1 → V' b = V c b) :
    iprop((stepDat0 V c).arrays ((stepDat0 V c).arrAt · cfg0.N) ∗ Pipeline.unscopedRest spec0 c (V c))
      ⊢ (unscopedBufs c V' : sProp 𝕄) := by
  rw [unscoped_split0 c V']
  refine sep_mono (leave_arrays0 V c V' h6 h7 (hrest _ (by decide) (by decide)) (hrest _ (by decide) (by decide))
    (hrest _ (by decide) (by decide)) (hrest _ (by decide) (by decide)) (hrest _ (by decide) (by decide))) (Entails.of_eq ?_)
  unfold Pipeline.unscopedRest
  exact bigSep_congr fun b hb => by
    have hb' := (Finset.mem_sdiff.mp hb).2
    rw [hrest b (fun h => hb' (h ▸ Finset.mem_image.mpr ⟨6, Finset.mem_univ _, rfl⟩))
      (fun h => hb' (h ▸ Finset.mem_image.mpr ⟨7, Finset.mem_univ _, rfl⟩))]

end Cert.Kernel.Cheb

end
-- ==== Proof.K.Run.lean ====
/-
  The whole program, boundary by boundary. @main is: a stretch of host operations (the bias as a row, a zero
  accumulator, the sparse product L·H), the first Chebyshev step, a stretch (L·T1), the second step, a stretch
  (L·T2), the third step. Between two items a core holds every unscoped buffer at known contents: the launch
  memory, then each stretch's operations applied in order, then, after a step, its two output arrays at what
  the grid's write-backs left and everything else as it was. Each step is entered from the contents the stretch
  before it left (its proof data are stated at those), so the steps chain, and at the end every unscoped buffer
  is read off the last contents: the arguments unchanged, the result at the third step's accumulator array.
-/
import proofs.«134689_j88055419503321_1_alg».proof.Proof.K.Step0
import proofs.«134689_j88055419503321_1_alg».proof.Proof.K.Step1
import proofs.«134689_j88055419503321_1_alg».proof.Proof.K.Step2
import proofs.«134689_j88055419503321_1_alg».proof.Proof.K.Shared0
import proofs.«134689_j88055419503321_1_alg».proof.Proof.Gen.Kernel.Regions
import Idealize.ShloMosaic.Lib.Pipeline.RegionsLoop
import Idealize.ShloMosaic.Lib.Pipeline.FrameSuffix

set_option maxRecDepth 16384

noncomputable section

namespace Cert.Kernel.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev at0 (c : Dev nD) : Valuation τ sig (Elt F) := fun b => m (c, b)
/-- After the first stretch: what the first step is entered with. -/
abbrev at1 (c : Dev nD) : Valuation τ sig (Elt F) := StableHlo.after hostOps0 (at0 m c)
abbrev in0 : (c : Dev nD) → (b : Ref sig .tc) → Buf (Elt F) ((c : Thread nD τ).loc b) := fun c b => at1 m c b
/-- After the first step: T1 and the first accumulator where the write-backs left them. -/
def at2 (c : Dev nD) : Valuation τ sig (Elt F) :=
  Function.update (Function.update (at1 m c) main_v15_0 ((stepDat0 (in0 m) c).arrAt 6 cfg0.N)) main_v15_1 ((stepDat0 (in0 m) c).arrAt 7 cfg0.N)
abbrev out0 : (c : Dev nD) → (b : Ref sig .tc) → Buf (Elt F) ((c : Thread nD τ).loc b) := fun c b => at2 m c b
/-- After the second stretch. -/
abbrev at3 (c : Dev nD) : Valuation τ sig (Elt F) := StableHlo.after hostOps1 (at2 m c)
abbrev in1 : (c : Dev nD) → (b : Ref sig .tc) → Buf (Elt F) ((c : Thread nD τ).loc b) := fun c b => at3 m c b
/-- After the second step. -/
def at4 (c : Dev nD) : Valuation τ sig (Elt F) :=
  Pipeline.withArrays spec1 c (at3 m c) fun w => (stepDat1 (in1 m) c).arrAt w cfg1.N
abbrev out1 : (c : Dev nD) → (b : Ref sig .tc) → Buf (Elt F) ((c : Thread nD τ).loc b) := fun c b => at4 m c b
/-- After the third stretch. -/
abbrev at5 (c : Dev nD) : Valuation τ sig (Elt F) := StableHlo.after hostOps2 (at4 m c)
abbrev in2 : (c : Dev nD) → (b : Ref sig .tc) → Buf (Elt F) ((c : Thread nD τ).loc b) := fun c b => at5 m c b
/-- After the third step: the end. -/
def at6 (c : Dev nD) : Valuation τ sig (Elt F) :=
  Pipeline.withArrays spec2 c (at5 m c) fun w => (stepDat2 (in2 m) c).arrAt w cfg2.N
abbrev out2 : (c : Dev nD) → (b : Ref sig .tc) → Buf (Elt F) ((c : Thread nD τ).loc b) := fun c b => at6 m c b

/-! ### The first step's exit contents, buffer by buffer -/

theorem at2_term (c : Dev nD) : out0 m c main_v15_0 = (stepDat0 (in0 m) c).arrAt 6 cfg0.N := by
  show at2 m c (Proc.devRef .tc main_v15_0) = _
  unfold at2
  rw [Function.update_of_ne (StableHlo.devRef_ne_of_ne (by decide) : (Proc.devRef .tc main_v15_0 : DevRef τ sig) ≠ Proc.devRef .tc main_v15_1), Function.update_self]

theorem at2_acc (c : Dev nD) : out0 m c main_v15_1 = (stepDat0 (in0 m) c).arrAt 7 cfg0.N := by
  show at2 m c (Proc.devRef .tc main_v15_1) = _
  unfold at2
  rw [Function.update_self]

theorem at2_rest (c : Dev nD) (b : Ref sig .tc) (h6 : b ≠ main_v15_0) (h7 : b ≠ main_v15_1) : out0 m c b = in0 m c b := by
  show at2 m c (Proc.devRef .tc b) = at1 m c (Proc.devRef .tc b)
  unfold at2
  rw [Function.update_of_ne (StableHlo.devRef_ne_of_ne h7 : (Proc.devRef .tc b : DevRef τ sig) ≠ Proc.devRef .tc main_v15_1),
    Function.update_of_ne (StableHlo.devRef_ne_of_ne h6 : (Proc.devRef .tc b : DevRef τ sig) ≠ Proc.devRef .tc main_v15_0)]

/-! ### The later steps' exit contents -/

theorem at4_arr (c : Dev nD) (w : Fin cfg1.W) :
    at4 m c (Proc.devRef .tc (Pipeline.arrRef spec1 w)) = (stepDat1 (in1 m) c).arrAt w cfg1.N := by
  unfold at4; exact Pipeline.withArrays_arr spec1 launch1.win.arr_inj c _ _ w
theorem at4_rest (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
theorem left_arr1 (c : Dev nD) (w : Fin cfg1.W) : (stepDat1 (in1 m) c).arrAt w cfg1.N = out1 m c (Pipeline.arrRef spec1 w) :=
  (at4_arr m c w).symm
theorem left_rest1 (c : Dev nD) : ∀ b, b ∉ Finset.univ.image (Pipeline.arrRef spec1) → out1 m c b = in1 m c b :=
  fun b hb => at4_rest m c b fun w e => hb (Finset.mem_image.mpr ⟨w, Finset.mem_univ _, e⟩)

theorem at6_arr (c : Dev nD) (w : Fin cfg2.W) :
    at6 m c (Proc.devRef .tc (Pipeline.arrRef spec2 w)) = (stepDat2 (in2 m) c).arrAt w cfg2.N := by
  unfold at6; exact Pipeline.withArrays_arr spec2 launch2.win.arr_inj c _ _ w
theorem at6_rest (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
theorem left_arr2 (c : Dev nD) (w : Fin cfg2.W) : (stepDat2 (in2 m) c).arrAt w cfg2.N = out2 m c (Pipeline.arrRef spec2 w) :=
  (at6_arr m c w).symm
theorem left_rest2 (c : Dev nD) : ∀ b, b ∉ Finset.univ.image (Pipeline.arrRef spec2) → out2 m c b = in2 m c b :=
  fun b hb => at6_rest m c b fun w e => hb (Finset.mem_image.mpr ⟨w, Finset.mem_univ _, e⟩)

/-! ## The proof data of the three steps, and what rides along -/

/-- Each step's proof data at the contents it is entered with. -/
def stepDats : (p : Fin 3) → (c : Dev nD) → Dat τ (Elt F) Unit ℕ (UR sig nD τ) ℕ (Pipeline.pin (pcfgs (F := F)) adm p) c
  | ⟨0, _⟩ => fun c => stepDat0 (in0 m) c
  | ⟨1, _⟩ => fun c => stepDat1 (in1 m) c
  | ⟨2, _⟩ => fun c => stepDat2 (in2 m) c

abbrev noVariants : Variants := Variants.none
/-- No core owes another anything: no level is assigned. -/
abbrev noLevels : GSem nD τ sig → Finset Unit := fun _ => ∅
abbrev noLevel : GSem nD τ sig → Unit → ℕ := fun _ _ => 0
/-- Beside the buffers: the generator register at some state, and the core owing nothing. -/
abbrev rides (c : Dev nD) : sProp 𝕄 := iprop((∃ r, prngReg c r) ∗ ∃ W, owes (c : Thread nD τ) (0 : CellTallies nD τ sig Unit) W)
/-- A stretch of host operations as a segment, from the contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the end contents, the generator register. -/
abbrev endState (c : Dev nD) : sProp 𝕄 := iprop(StableHlo.held (c : Thread nD τ) (Pipeline.ucRefs τ sig) (at6 m c) ∗ ∃ r, prngReg c r)

/-! ## The steps as segments -/

set_option backward.isDefEq.respectTransparency.types false in
/-- Call 0 as a segment of @main: entered with every unscoped buffer at the contents the stretch before it left,
    its arrays split out and, at the exit, put back with the two outputs at what the write-backs left; the generator
    register passes through the body's invariant; nothing is owed; the kernel has no semaphore of its own. -/
def step0Seg : Pipeline.RegionSeg (pcfgs (F := F)) adm (stepDats m) () defs₀ noVariants noLevels noLevel 0 where
  win := winFacts₀0
  block_pos := block_pos0
  stage_whole := stage_whole0
  K := PEmpty
  osem k := k.elim
  ho := Pipeline.OwnSemFacts.none _
  hbody c := (body_obligation0 (in0 m) c).loose
  hwaits := Pipeline.hwaits_of_owed_zero _ _ _ _ noLevels noLevel 0 fun _ _ => rfl
  pre c := iprop(StableHlo.held (c : Thread nD τ) (Pipeline.ucRefs τ sig) (at1 m c) ∗ rides c)
  post c := iprop(StableHlo.held (c : Thread nD τ) (Pipeline.ucRefs τ sig) (at2 m c) ∗ rides c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := enter0 (in0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (stepDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := leave0 (in0 m) c (out0 m c) (at2_term m c) (at2_acc m c) (fun b h6 h7 => at2_rest m c b h6 h7)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents the stretch before it left,
    its arrays split out and, at the exit, put back with the two outputs at what the write-backs left; the generator
    register passes through the body's invariant; nothing is owed; the kernel has no semaphore of its own. -/
def step1Seg : Pipeline.RegionSeg (pcfgs (F := F)) adm (stepDats m) () defs₀ noVariants noLevels noLevel 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ noLevels noLevel 1 fun _ _ => rfl
  pre c := iprop(StableHlo.held (c : Thread nD τ) (Pipeline.ucRefs τ sig) (at3 m c) ∗ rides c)
  post c := iprop(StableHlo.held (c : Thread nD τ) (Pipeline.ucRefs τ sig) (at4 m c) ∗ rides c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (stepDats m) launch1.win launch1.arr_whole c
      ((stepDats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (stepDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stepDats m) ((stepDats m 1 c).share_full fun _ => rfl)
      (in1 m c) (out1 m c) ((stepDats m 1 c).arrAt · cfg1.N) (left_arr1 m c) (left_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at the contents the stretch before it left,
    its arrays split out and, at the exit, put back with the two outputs at what the write-backs left; the generator
    register passes through the body's invariant; nothing is owed; the kernel has no semaphore of its own. -/
def step2Seg : Pipeline.RegionSeg (pcfgs (F := F)) adm (stepDats m) () defs₀ noVariants noLevels noLevel 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ noLevels noLevel 2 fun _ _ => rfl
  pre c := iprop(StableHlo.held (c : Thread nD τ) (Pipeline.ucRefs τ sig) (at5 m c) ∗ rides c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (stepDats m) launch2.win launch2.arr_whole c
      ((stepDats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (stepDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (stepDats m) ((stepDats m 2 c).share_full fun _ => rfl)
      (in2 m c) (out2 m c) ((stepDats m 2 c).arrAt · cfg2.N) (left_arr2 m c) (left_rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev items : List (Pipeline.Seg (pcfgs (F := F)) adm (stepDats m) () defs₀ noVariants noLevels noLevel) :=
  [ .host (stretch hostOps0 hostOps0_sub hostOps0_fresh (at0 m)),
    .region (step0Seg m),
    .host (stretch hostOps1 hostOps1_sub hostOps1_fresh (at2 m)),
    .region (step1Seg m),
    .host (stretch hostOps2 hostOps2_sub hostOps2_fresh (at4 m)),
    .region (step2Seg m) ]

theorem main_items (c : Dev nD) : main (F := F) c = Pipeline.Seg.run (items m) := (main_chain c).trans (by chain_rfl)

set_option backward.isDefEq.respectTransparency.types false in
/-- THE RUN: from any memory with zero counters every weakly fair execution of @main terminates, nothing faulting,
    and in every final state each unscoped buffer holds the end contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = at6 m c b) :=
  Pipeline.θ_run_regions_kit (pcfgs (F := F)) adm (stepDats m) () cellOf_inj emb₁ defs₀ noVariants noLevels noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ rides c)) (Tₙ := endState m)
    (hch := ⟨fun _ => .rfl, fun _ => .rfl, fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at6 m c b)
    (hfin := fun c s' => by
      iintro ⟨⟨Hh, -⟩, HSI⟩
      unfold StableHlo.held
      imodintro
      iapply (pointsTo_read_all (Pipeline.ucRefs τ sig) (fun b => (((c : Thread nD τ)).1, b)) (at6 m c) s')
      isplitl [Hh] <;> iassumption)
    (hQ := fun s h c => h c)

end Cert.Kernel.Cheb

end
-- ==== Proof.K.Flow.lean ====
/-
  What the buffers hold at each boundary of @main, followed back to the arguments. No host stretch writes an
  argument and no step writes back an input window, so the six arguments reach the end as launched. The
  stretch before each step computes the sparse product L·X of the step's previous term X (H, then T1, then T2)
  from the edge list, and copies the accumulator of the step before into the buffer the step accumulates in;
  the first stretch also lays the bias out as a row and makes the zero matrix the accumulator starts from.
-/
import proofs.«134689_j88055419503321_1_alg».proof.Proof.K.Run
import Idealize.ShloMosaic.Lib.StableHlo.Run

set_option maxRecDepth 16384

noncomputable section

namespace Cert.Kernel.Cheb

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- The sparse product L·X over the edge list (rows, cols, vals), as the program spells it: gather the rows of X the
    column indices name (a negative index counted from the end), scale each by its edge weight, add each into the
    row its row index names, into a zero matrix. -/
def spmm (rows cols : (⟨S800000, .i32⟩ : BufTy).Contents (Elt F)) (vals : (⟨S800000, .f32⟩ : BufTy).Contents (Elt F))
    (X : (⟨S50000x96, .f32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 rows)
    (mulf (broadcastInDim S800000x96 ![0, 1] bcast_S800000x1_S800000x96_0_1 (broadcastInDim S800000x1 ![0] bcast_S800000_S800000x1_0 vals))
      (Host.gather gather_S50000x96_S800000x1_S800000x96_1_0_n_n_0_1_196 X
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-! ## Transport: what an item leaves alone -/

theorem at1_keeps (c : Dev nD) (r : Ref sig .tc) (h : r ∉ hostOps0_W) : at1 m c r = at0 m c r :=
  StableHlo.after_of_writes_sub hostOps0 _ hostOps0_writes h
theorem at3_keeps (c : Dev nD) (r : Ref sig .tc) (h : r ∉ hostOps1_W) : at3 m c r = at2 m c r :=
  StableHlo.after_of_writes_sub hostOps1 _ hostOps1_writes h
theorem at5_keeps (c : Dev nD) (r : Ref sig .tc) (h : r ∉ hostOps2_W) : at5 m c r = at4 m c r :=
  StableHlo.after_of_writes_sub hostOps2 _ hostOps2_writes h
theorem at2_keeps (c : Dev nD) (r : Ref sig .tc) (h6 : r ≠ main_v15_0) (h7 : r ≠ main_v15_1) : at2 m c r = at1 m c r :=
  at2_rest m c r h6 h7
/-- An input window's array leaves the second step as it entered. -/
theorem at4_input (c : Dev nD) (w : Fin cfg1.W) (hin : (cfg1.win w).isOut = false) :
    at4 m c (Proc.devRef .tc (Pipeline.arrRef spec1 w)) = at3 m c (Proc.devRef .tc (Pipeline.arrRef spec1 w)) :=
  (at4_arr m c w).trans (((stepDat1 (in1 m) c).arrAt_in w hin _).trans (arr_eq1 (in1 m) c w))
theorem at6_input (c : Dev nD) (w : Fin cfg2.W) (hin : (cfg2.win w).isOut = false) :
    at6 m c (Proc.devRef .tc (Pipeline.arrRef spec2 w)) = at5 m c (Proc.devRef .tc (Pipeline.arrRef spec2 w)) :=
  (at6_arr m c w).trans (((stepDat2 (in2 m) c).arrAt_in w hin _).trans (arr_eq2 (in2 m) c w))

/-! ## The arguments reach the end as launched -/

theorem at4_arg0 (c : Dev nD) : at4 m c main_arg0 = m ((c : Thread nD τ).loc main_arg0) :=
  (at4_rest m c main_arg0 (by decide)).trans <| (at3_keeps m c main_arg0 (by decide)).trans <| (at2_keeps m c main_arg0 (by decide) (by decide)).trans <| (at1_keeps m c main_arg0 (by decide)).trans rfl
theorem at4_arg1 (c : Dev nD) : at4 m c main_arg1 = m ((c : Thread nD τ).loc main_arg1) :=
  (at4_rest m c main_arg1 (by decide)).trans <| (at3_keeps m c main_arg1 (by decide)).trans <| (at2_keeps m c main_arg1 (by decide) (by decide)).trans <| (at1_keeps m c main_arg1 (by decide)).trans rfl
theorem at4_arg2 (c : Dev nD) : at4 m c main_arg2 = m ((c : Thread nD τ).loc main_arg2) :=
  (at4_rest m c main_arg2 (by decide)).trans <| (at3_keeps m c main_arg2 (by decide)).trans <| (at2_keeps m c main_arg2 (by decide) (by decide)).trans <| (at1_keeps m c main_arg2 (by decide)).trans rfl
theorem at4_arg3 (c : Dev nD) : at4 m c main_arg3 = m ((c : Thread nD τ).loc main_arg3) :=
  (at4_input m c 0 rfl).trans <| (at3_keeps m c main_arg3 (by decide)).trans <| (at2_keeps m c main_arg3 (by decide) (by decide)).trans <| (at1_keeps m c main_arg3 (by decide)).trans rfl
theorem at4_arg4 (c : Dev nD) : at4 m c main_arg4 = m ((c : Thread nD τ).loc main_arg4) :=
  (at4_input m c 3 rfl).trans <| (at3_keeps m c main_arg4 (by decide)).trans <| (at2_keeps m c main_arg4 (by decide) (by decide)).trans <| (at1_keeps m c main_arg4 (by decide)).trans rfl
theorem at4_arg5 (c : Dev nD) : at4 m c main_arg5 = m ((c : Thread nD τ).loc main_arg5) :=
  (at4_rest m c main_arg5 (by decide)).trans <| (at3_keeps m c main_arg5 (by decide)).trans <| (at2_keeps m c main_arg5 (by decide) (by decide)).trans <| (at1_keeps m c main_arg5 (by decide)).trans rfl

theorem at6_arg0 (c : Dev nD) : at6 m c main_arg0 = m ((c : Thread nD τ).loc main_arg0) :=
  (at6_rest m c main_arg0 (by decide)).trans <| (at5_keeps m c main_arg0 (by decide)).trans (at4_arg0 m c)
theorem at6_arg1 (c : Dev nD) : at6 m c main_arg1 = m ((c : Thread nD τ).loc main_arg1) :=
  (at6_rest m c main_arg1 (by decide)).trans <| (at5_keeps m c main_arg1 (by decide)).trans (at4_arg1 m c)
theorem at6_arg2 (c : Dev nD) : at6 m c main_arg2 = m ((c : Thread nD τ).loc main_arg2) :=
  (at6_rest m c main_arg2 (by decide)).trans <| (at5_keeps m c main_arg2 (by decide)).trans (at4_arg2 m c)
theorem at6_arg3 (c : Dev nD) : at6 m c main_arg3 = m ((c : Thread nD τ).loc main_arg3) :=
  (at6_rest m c main_arg3 (by decide)).trans <| (at5_keeps m c main_arg3 (by decide)).trans (at4_arg3 m c)
theorem at6_arg4 (c : Dev nD) : at6 m c main_arg4 = m ((c : Thread nD τ).loc main_arg4) :=
  (at6_input m c 3 rfl).trans <| (at5_keeps m c main_arg4 (by decide)).trans (at4_arg4 m c)
theorem at6_arg5 (c : Dev nD) : at6 m c main_arg5 = m ((c : Thread nD τ).loc main_arg5) :=
  (at6_rest m c main_arg5 (by decide)).trans <| (at5_keeps m c main_arg5 (by decide)).trans (at4_arg5 m c)

/-- THE FRAME: every weakly fair execution of @main terminates, nothing faulting, with the six argument arrays as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (at6_arg0 m c),
     (h c _ (mem_uc main_arg1 (by decide))).trans (at6_arg1 m c),
     (h c _ (mem_uc main_arg2 (by decide))).trans (at6_arg2 m c),
     (h c _ (mem_uc main_arg3 (by decide))).trans (at6_arg3 m c),
     (h c _ (mem_uc main_arg4 (by decide))).trans (at6_arg4 m c),
     (h c _ (mem_uc main_arg5 (by decide))).trans (at6_arg5 m c)⟩) (run m ρ)

/-- The same run, also naming what the result buffer ends at: the third step's accumulator array. -/
theorem run_result (ρ : Dev nD → PrngReg) :
    θ_run defs (onTc (τ := τ) (main (F := F))) ⟨m, fun _ => 0, ρ⟩ (fun r => ∀ c : Dev nD,
      r.2.mem ((c.tc : Thread nD τ).loc main_v43_1) = at6 m c main_v43_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v43_1 (by decide)),
     (h c _ (mem_uc main_arg0 (by decide))).trans (at6_arg0 m c),
     (h c _ (mem_uc main_arg1 (by decide))).trans (at6_arg1 m c),
     (h c _ (mem_uc main_arg2 (by decide))).trans (at6_arg2 m c),
     (h c _ (mem_uc main_arg3 (by decide))).trans (at6_arg3 m c),
     (h c _ (mem_uc main_arg4 (by decide))).trans (at6_arg4 m c),
     (h c _ (mem_uc main_arg5 (by decide))).trans (at6_arg5 m c)⟩) (run m ρ)

/-! ## What the stretches compute -/

/-- The first stretch leaves L·H in the buffer the first step reads it from, -/
theorem at1_lap (c : Dev nD) :
    at1 m c main_v14 = spmm (at0 m c main_arg0) (at0 m c main_arg1) (at0 m c main_arg2) (at0 m c main_arg3) := by
  show StableHlo.after hostOps0 (at0 m c) (Proc.devRef .tc main_v14) = _
  after_results <;> rfl
/-- a zero matrix in both accumulator buffers, -/
theorem at1_zero (c : Dev nD) :
    at1 m c main_v1 = broadcastInDim S50000x96 ![] bcast_S_S50000x96 (constant (F := F) S_ .f32 0x00000000#32) := by
  show StableHlo.after hostOps0 (at0 m c) (Proc.devRef .tc main_v1) = _
  after_results <;> rfl
theorem at1_acc (c : Dev nD) : at1 m c main_v15_1 = at1 m c main_v1 := by
  rw [at1_zero]
  show StableHlo.after hostOps0 (at0 m c) (Proc.devRef .tc main_v15_1) = _
  after_results <;> rfl
/-- and the bias as a 1 × 96 row. -/
theorem at1_bias (c : Dev nD) :
    at1 m c main_v0 = shapeCast S1x96 (at0 m c main_arg5) shapeCasts_S96_S1x96 := by
  show StableHlo.after hostOps0 (at0 m c) (Proc.devRef .tc main_v0) = _
  after_results <;> rfl

/-- The second stretch leaves L·T1 (T1 where the first step wrote it) and carries the accumulator over. -/
theorem at3_lap (c : Dev nD) :
    at3 m c main_v28 = spmm (at2 m c main_arg0) (at2 m c main_arg1) (at2 m c main_arg2) (at2 m c main_v15_0) := by
  show StableHlo.after hostOps1 (at2 m c) (Proc.devRef .tc main_v28) = _
  after_results <;> rfl
theorem at3_acc (c : Dev nD) : at3 m c main_v29_1 = at2 m c main_v15_1 := by
  show StableHlo.after hostOps1 (at2 m c) (Proc.devRef .tc main_v29_1) = _
  after_results <;> rfl

/-- The third stretch leaves L·T2 and carries the accumulator over. -/
theorem at5_lap (c : Dev nD) :
    at5 m c main_v42 = spmm (at4 m c main_arg0) (at4 m c main_arg1) (at4 m c main_arg2) (at4 m c main_v29_0) := by
  show StableHlo.after hostOps2 (at4 m c) (Proc.devRef .tc main_v42) = _
  after_results <;> rfl
theorem at5_acc (c : Dev nD) : at5 m c main_v43_1 = at4 m c main_v29_1 := by
  show StableHlo.after hostOps2 (at4 m c) (Proc.devRef .tc main_v43_1) = _
  after_results <;> rfl

end Cert.Kernel.Cheb

end
-- ==== Proof.KI.Pay.lean ====
/-
  The three Chebyshev-step kernels share one window layout: window 0 the term two steps back, window 1 the
  previous term, window 2 the sparse product L·(previous term), window 3 the weight matrix, window 4 the bias
  row, window 5 the accumulator coming in; window 6 the new term going out, window 7 the accumulator going out.
  Each kernel's two stored values, as functions of the six input blocks IN WINDOW ORDER (the printed payloads
  take the loads in the order the body makes them), and the share of each input array the pipeline holds:
  the first kernel is handed ONE array (H) through windows 0 and 1, so each of those holds half of it.
-/
import proofs.«134689_j88055419503321_1_alg».proof.Proof.Gen.KernelIdeal.Skeleton
import Idealize.SL.RA.TreeShare

noncomputable section

namespace Cert.KernelIdeal.Cheb

open Idealize.ShloMosaic Idealize.SL.RA Cert.KernelIdeal Cert.KernelIdeal.Gen

variable {F : FTy → Type} [FloatOps F]

/-- Step k = 1: the new term 2·s − x1 + 0·x0 (both x0 and x1 are blocks of H). -/
abbrev term0 (x0 x1 x2 : Vec F S2000x96 .f32) : FVec F S2000x96 .f32 := k0_pay1 x1 x0 x2
/-- Step k = 1: the accumulator (acc + term·W) + x1·W. -/
abbrev acc0 (x0 x1 x2 : Vec F S2000x96 .f32) (x3 : Vec F S96x96 .f32) (x4 : Vec F S1x96 .f32) (x5 : Vec F S2000x96 .f32) : FVec F S2000x96 .f32 :=
  k0_pay2 x1 x0 x2 x3 x5
/-- Step k = 2: the new term 4·s − 2·x1 − x0. -/
abbrev term1 (x0 x1 x2 : Vec F S2000x96 .f32) : FVec F S2000x96 .f32 := k1_pay1 x1 x0 x2
/-- Step k = 2: the accumulator acc + term·W. -/
abbrev acc1 (x0 x1 x2 : Vec F S2000x96 .f32) (x3 : Vec F S96x96 .f32) (x4 : Vec F S1x96 .f32) (x5 : Vec F S2000x96 .f32) : FVec F S2000x96 .f32 :=
  k1_pay2 x1 x0 x2 x3 x5
/-- Step k = 3: the new term 4·s − 2·x1 − x0. -/
abbrev term2 (x0 x1 x2 : Vec F S2000x96 .f32) : FVec F S2000x96 .f32 := k2_pay1 x1 x0 x2
/-- Step k = 3: the accumulator (acc + term·W) + bias. -/
abbrev acc2 (x0 x1 x2 : Vec F S2000x96 .f32) (x3 : Vec F S96x96 .f32) (x4 : Vec F S1x96 .f32) (x5 : Vec F S2000x96 .f32) : FVec F S2000x96 .f32 :=
  k2_pay2 x1 x0 x2 x3 x5 x4

/-- The share held of each input array: in the first call windows 0 and 1 read the same array and split it. -/
abbrev share0 : Fin 8 → PosShare TreeShare := fun w => if w = 0 then fullShare.left else if w = 1 then fullShare.right else fullShare
abbrev share1 : Fin 8 → PosShare TreeShare := fun _ => fullShare
abbrev share2 : Fin 8 → PosShare TreeShare := fun _ => fullShare

end Cert.KernelIdeal.Cheb

end
-- ==== Proof.KI.Step0.lean ====
/-
  One Chebyshev step as a grid of 25 row blocks (2000 rows each): at every block the body reads its six input
  blocks, stores the new term (a pointwise combination of three of them) into window 6 and the updated
  accumulator (the incoming block plus the new term's product with the weights) into window 7, each store
  covering its whole block. So after the body each output buffer holds one function of the input blocks, every
  input buffer is left as found, and the body needs nothing else: this is all the pipeline's rule asks of a
  body, stated here for any contents V the arrays hold when the call is entered.
-/
import proofs.«134689_j88055419503321_1_alg».proof.Proof.KI.Pay
import proofs.«134689_j88055419503321_1_alg».proof.Proof.Gen.KernelIdeal.Launch
import proofs.«134689_j88055419503321_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window w's block at grid point t: rows 2000·t … 2000·t + 1999 of its array (the whole array for the weights
    and the bias row), read off the contents V. -/
def blkOf0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or the block
    index stood still (the weights and the bias row are fetched once), as long as the body leaves it in place. -/
theorem found0_0 {c : Dev nD} (dat : Dat τ (Elt F) Unit ℕ (UR sig nD τ) ℕ cfg0 c) (hA : dat.A 0 = V c (Pipeline.arrRef spec0 0))
    (hafter : ∀ t, dat.after 0 t = blkOf0 V c 0 t) (t : Fin cfg0.N) (d) : dat.before 0 t d = blkOf0 V c 0 t :=
  (dat.before_in_eq_fetched 0 rfl (fun _ => rfl) (fun _ _ _ => rfl) (fun t => by rw [hafter]; unfold Dat.blockOf blkOf0; rw [hA]; try rfl) t d).trans
    (by unfold Dat.fetched Dat.blockOf blkOf0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blkOf0 V c 1 t) (t : Fin cfg0.N) (d) : dat.before 1 t d = blkOf0 V c 1 t :=
  (dat.before_in_eq_fetched 1 rfl (fun _ => rfl) (fun _ _ _ => rfl) (fun t => by rw [hafter]; unfold Dat.blockOf blkOf0; rw [hA]; try rfl) t d).trans
    (by unfold Dat.fetched Dat.blockOf blkOf0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blkOf0 V c 2 t) (t : Fin cfg0.N) (d) : dat.before 2 t d = blkOf0 V c 2 t :=
  (dat.before_in_eq_fetched 2 rfl (fun _ => rfl) (fun _ _ _ => rfl) (fun t => by rw [hafter]; unfold Dat.blockOf blkOf0; rw [hA]; try rfl) t d).trans
    (by unfold Dat.fetched Dat.blockOf blkOf0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blkOf0 V c 3 t) (t : Fin cfg0.N) (d) : dat.before 3 t d = blkOf0 V c 3 t :=
  (dat.before_in_eq_fetched 3 rfl (fun _ => rfl) (fun _ _ _ => rfl) (fun t => by rw [hafter]; unfold Dat.blockOf blkOf0; rw [hA]; try rfl) t d).trans
    (by unfold Dat.fetched Dat.blockOf blkOf0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blkOf0 V c 4 t) (t : Fin cfg0.N) (d) : dat.before 4 t d = blkOf0 V c 4 t :=
  (dat.before_in_eq_fetched 4 rfl (fun _ => rfl) (fun _ _ _ => rfl) (fun t => by rw [hafter]; unfold Dat.blockOf blkOf0; rw [hA]; try rfl) t d).trans
    (by unfold Dat.fetched Dat.blockOf blkOf0; rw [hA]; try rfl)
theorem found0_5 {c : Dev nD} (dat : Dat τ (Elt F) Unit ℕ (UR sig nD τ) ℕ cfg0 c) (hA : dat.A 5 = V c (Pipeline.arrRef spec0 5))
    (hafter : ∀ t, dat.after 5 t = blkOf0 V c 5 t) (t : Fin cfg0.N) (d) : dat.before 5 t d = blkOf0 V c 5 t :=
  (dat.before_in_eq_fetched 5 rfl (fun _ => rfl) (fun _ _ _ => rfl) (fun t => by rw [hafter]; unfold Dat.blockOf blkOf0; rw [hA]; try rfl) t d).trans
    (by unfold Dat.fetched Dat.blockOf blkOf0; rw [hA]; try rfl)

/-! ## What the body stores -/

abbrev tileA0 : Rect S2000x96 := Rect.unit (s := S2000x96) ![0, 0] S2000x96.size inb_S2000x96_S2000x96_0_0
abbrev tileW0 : Rect S96x96 := Rect.unit (s := S96x96) ![0, 0] S96x96.size inb_S96x96_S96x96_0_0
abbrev tileB0 : Rect S1x96 := Rect.unit (s := S1x96) ![0, 0] S1x96.size inb_S1x96_S1x96_0_0

/-- Window 6 after the body: the new term of the three row blocks, stored over the whole block. -/
def newTerm0 (x0 x1 x2 : Vec F S2000x96 .f32) : Vec F S2000x96 .f32 :=
  View.canon [⟨tileA0, term0 (View.ld x0 tileA0) (View.ld x1 tileA0) (View.ld x2 tileA0)⟩]

/-- Window 7 after the body: the updated accumulator block, stored over the whole block. -/
def newAcc0 (x0 x1 x2 : Vec F S2000x96 .f32) (x3 : Vec F S96x96 .f32) (x4 : Vec F S1x96 .f32) (x5 : Vec F S2000x96 .f32) : Vec F S2000x96 .f32 :=
  View.canon [⟨tileA0, acc0 (View.ld x0 tileA0) (View.ld x1 tileA0) (View.ld x2 tileA0) (View.ld x3 tileW0) (View.ld x4 tileB0) (View.ld x5 tileA0)⟩]

/-- One store over the whole 2000 × 96 block covers every index of it. -/
theorem whole0 (p0 : Vec F S2000x96 .f32) (y : S2000x96.Idx) :
    ∃ pc ∈ ([⟨tileA0, p0⟩] : List (View.Piece (Elt F) S2000x96 .f32)), y ∈ pc.1.set :=
  View.cover_of_tiled [⟨tileA0, p0⟩] S2000x96.size (by rfl) y

/-! ## The body's triple -/

set_option maxHeartbeats 1000000 in
/-- On whole staging memrefs, the inputs' at contents x0 … x5 and the outputs' at anything, the body runs to the
    continuation with the inputs' unchanged, window 6's at the new term and window 7's at the new accumulator. -/
theorem sound_kernel0 (c : Dev nD) (E : Set ℕ) (i : grid0.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S2000x96 .f32) (harg6 : arg6.IsWhole) (arg7 : Memref sig .tc .vmem S2000x96 .f32) (harg7 : arg7.IsWhole) (arg8 : Memref sig .tc .vmem S2000x96 .f32) (harg8 : arg8.IsWhole)
    (x0 x1 x2 : Vec F S2000x96 .f32) (x3 : Vec F S96x96 .f32) (x4 : Vec F S1x96 .f32) (x5 : Vec F S2000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newTerm0 x0 x1 x2) ∗ owns (c : Thread nD τ) arg8 fullShare (newAcc0 x0 x1 x2 x3 x4 x5)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (whole0 _)
  iexists _; isplitr
  swap; · iexact H7
  ipureintro
  exact View.read_writes_eq_canon _ _ _ (whole0 _)

/-! ## The pipeline's proof data -/

/-- The step's proof data on core c: the arrays as the call finds them; after the body at point t every input
    buffer at its block, window 6 at the new term and window 7 at the new accumulator of the point's blocks; the
    body's invariant is the untouched rest (the other scoped buffers and the generator register); nothing owed. -/
def stepDat0 (c : Dev nD) : Dat τ (Elt F) Unit ℕ (UR sig nD τ) ℕ cfg0 c where
  A w := V c (Pipeline.arrRef spec0 w)
  after w t := match w with
    | ⟨0, _⟩ => blkOf0 V c 0 t
    | ⟨1, _⟩ => blkOf0 V c 1 t
    | ⟨2, _⟩ => blkOf0 V c 2 t
    | ⟨3, _⟩ => blkOf0 V c 3 t
    | ⟨4, _⟩ => blkOf0 V c 4 t
    | ⟨5, _⟩ => blkOf0 V c 5 t
    | ⟨6, _⟩ => newTerm0 (blkOf0 V c 0 t) (blkOf0 V c 1 t) (blkOf0 V c 2 t)
    | ⟨7, _⟩ => newAcc0 (blkOf0 V c 0 t) (blkOf0 V c 1 t) (blkOf0 V c 2 t) (blkOf0 V c 3 t) (blkOf0 V c 4 t) (blkOf0 V c 5 t)
  Φ _ := Pipeline.ΦA spec0 c
  q := share0
  owed _ := 0

theorem arr_eq0 (c : Dev nD) (w : Fin cfg0.W) : (stepDat0 V c).A w = V c (Pipeline.arrRef spec0 w) := by
  dsimp only [stepDat0]

theorem left0_0 (c : Dev nD) (t : Fin cfg0.N) : (stepDat0 V c).after 0 t = blkOf0 V c 0 t := by dsimp only [stepDat0]
theorem left0_1 (c : Dev nD) (t : Fin cfg0.N) : (stepDat0 V c).after 1 t = blkOf0 V c 1 t := by dsimp only [stepDat0]
theorem left0_2 (c : Dev nD) (t : Fin cfg0.N) : (stepDat0 V c).after 2 t = blkOf0 V c 2 t := by dsimp only [stepDat0]
theorem left0_3 (c : Dev nD) (t : Fin cfg0.N) : (stepDat0 V c).after 3 t = blkOf0 V c 3 t := by dsimp only [stepDat0]
theorem left0_4 (c : Dev nD) (t : Fin cfg0.N) : (stepDat0 V c).after 4 t = blkOf0 V c 4 t := by dsimp only [stepDat0]
theorem left0_5 (c : Dev nD) (t : Fin cfg0.N) : (stepDat0 V c).after 5 t = blkOf0 V c 5 t := by dsimp only [stepDat0]
theorem left0_6 (c : Dev nD) (t : Fin cfg0.N) : (stepDat0 V c).after 6 t = newTerm0 (blkOf0 V c 0 t) (blkOf0 V c 1 t) (blkOf0 V c 2 t) := by dsimp only [stepDat0]
theorem left0_7 (c : Dev nD) (t : Fin cfg0.N) : (stepDat0 V c).after 7 t = newAcc0 (blkOf0 V c 0 t) (blkOf0 V c 1 t) (blkOf0 V c 2 t) (blkOf0 V c 3 t) (blkOf0 V c 4 t) (blkOf0 V c 5 t) := by dsimp only [stepDat0]

theorem handed0_0 (c : Dev nD) (t : Fin cfg0.N) (d) : (stepDat0 V c).before 0 t d = blkOf0 V c 0 t :=
  found0_0 V (stepDat0 V c) (arr_eq0 V c 0) (left0_0 V c) t d
theorem handed0_1 (c : Dev nD) (t : Fin cfg0.N) (d) : (stepDat0 V c).before 1 t d = blkOf0 V c 1 t :=
  found0_1 V (stepDat0 V c) (arr_eq0 V c 1) (left0_1 V c) t d
theorem handed0_2 (c : Dev nD) (t : Fin cfg0.N) (d) : (stepDat0 V c).before 2 t d = blkOf0 V c 2 t :=
  found0_2 V (stepDat0 V c) (arr_eq0 V c 2) (left0_2 V c) t d
theorem handed0_3 (c : Dev nD) (t : Fin cfg0.N) (d) : (stepDat0 V c).before 3 t d = blkOf0 V c 3 t :=
  found0_3 V (stepDat0 V c) (arr_eq0 V c 3) (left0_3 V c) t d
theorem handed0_4 (c : Dev nD) (t : Fin cfg0.N) (d) : (stepDat0 V c).before 4 t d = blkOf0 V c 4 t :=
  found0_4 V (stepDat0 V c) (arr_eq0 V c 4) (left0_4 V c) t d
theorem handed0_5 (c : Dev nD) (t : Fin cfg0.N) (d) : (stepDat0 V c).before 5 t d = blkOf0 V c 5 t :=
  found0_5 V (stepDat0 V c) (arr_eq0 V c 5) (left0_5 V c) t d

/-! ## The body obligation -/

/-- What the body is called with at point t, window by window, -/
def bodyPre0 (c : Dev nD) (t : Fin cfg0.N) : sProp 𝕄 :=
  iprop((stepDat0 V c).Φ t.castSucc ∗ (stepDat0 V c).owesAt () t.castSucc
    ∗ (∃ d, owns (c : Thread nD τ) (st0_0 t) fullShare ((stepDat0 V c).before 0 t d))
    ∗ (∃ d, owns (c : Thread nD τ) (st0_1 t) fullShare ((stepDat0 V c).before 1 t d))
    ∗ (∃ d, owns (c : Thread nD τ) (st0_2 t) fullShare ((stepDat0 V c).before 2 t d))
    ∗ (∃ d, owns (c : Thread nD τ) (st0_3 t) fullShare ((stepDat0 V c).before 3 t d))
    ∗ (∃ d, owns (c : Thread nD τ) (st0_4 t) fullShare ((stepDat0 V c).before 4 t d))
    ∗ (∃ d, owns (c : Thread nD τ) (st0_5 t) fullShare ((stepDat0 V c).before 5 t d))
    ∗ (∃ d, owns (c : Thread nD τ) (st0_6 t) fullShare ((stepDat0 V c).before 6 t d))
    ∗ (∃ d, owns (c : Thread nD τ) (st0_7 t) fullShare ((stepDat0 V c).before 7 t d)))

/-- and what it returns. -/
def bodyPost0 (c : Dev nD) (t : Fin cfg0.N) : sProp 𝕄 :=
  iprop((stepDat0 V c).Φ t.succ ∗ (stepDat0 V c).owesAt () t.succ
    ∗ owns (c : Thread nD τ) (st0_0 t) fullShare ((stepDat0 V c).after 0 t)
    ∗ owns (c : Thread nD τ) (st0_1 t) fullShare ((stepDat0 V c).after 1 t)
    ∗ owns (c : Thread nD τ) (st0_2 t) fullShare ((stepDat0 V c).after 2 t)
    ∗ owns (c : Thread nD τ) (st0_3 t) fullShare ((stepDat0 V c).after 3 t)
    ∗ owns (c : Thread nD τ) (st0_4 t) fullShare ((stepDat0 V c).after 4 t)
    ∗ owns (c : Thread nD τ) (st0_5 t) fullShare ((stepDat0 V c).after 5 t)
    ∗ owns (c : Thread nD τ) (st0_6 t) fullShare ((stepDat0 V c).after 6 t)
    ∗ owns (c : Thread nD τ) (st0_7 t) fullShare ((stepDat0 V c).after 7 t))

set_option maxHeartbeats 1000000 in
/-- At any point the input buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [handed0_0, handed0_1, handed0_2, handed0_3, handed0_4, handed0_5]
  rw [show (stepDat0 V c).Φ t.succ = (stepDat0 V c).Φ t.castSucc from rfl,
    show (stepDat0 V c).owesAt () t.succ = (stepDat0 V c).owesAt () t.castSucc from rfl,
    left0_0, left0_1, left0_2, left0_3, left0_4, left0_5, left0_6, left0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (blkOf0 V c 0 t) (blkOf0 V c 1 t) (blkOf0 V c 2 t) (blkOf0 V c 3 t) (blkOf0 V c 4 t) (blkOf0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation0 (c : Dev nD) : BodyObligation (stepDat0 (F := F) V c) (defs₀ (F := F)) Variants.none () Set.univ := fun t => by
  rw [bigSep_W0, bigSep_W0]
  exact sound_body0 V c t

end Cert.KernelIdeal.Cheb

end
-- ==== Proof.KI.Step1.lean ====
/-
  One Chebyshev step as a grid of 25 row blocks (2000 rows each): at every block the body reads its six input
  blocks, stores the new term (a pointwise combination of three of them) into window 6 and the updated
  accumulator (the incoming block plus the new term's product with the weights) into window 7, each store
  covering its whole block. So after the body each output buffer holds one function of the input blocks, every
  input buffer is left as found, and the body needs nothing else: this is all the pipeline's rule asks of a
  body, stated here for any contents V the arrays hold when the call is entered.
-/
import proofs.«134689_j88055419503321_1_alg».proof.Proof.KI.Pay
import proofs.«134689_j88055419503321_1_alg».proof.Proof.Gen.KernelIdeal.Launch
import proofs.«134689_j88055419503321_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window w's block at grid point t: rows 2000·t … 2000·t + 1999 of its array (the whole array for the weights
    and the bias row), read off the contents V. -/
def blkOf1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or the block
    index stood still (the weights and the bias row are fetched once), as long as the body leaves it in place. -/
theorem found1_0 {c : Dev nD} (dat : Dat τ (Elt F) Unit ℕ (UR sig nD τ) ℕ cfg1 c) (hA : dat.A 0 = V c (Pipeline.arrRef spec1 0))
    (hafter : ∀ t, dat.after 0 t = blkOf1 V c 0 t) (t : Fin cfg1.N) (d) : dat.before 0 t d = blkOf1 V c 0 t :=
  (dat.before_in_eq_fetched 0 rfl (fun _ => rfl) (fun _ _ _ => rfl) (fun t => by rw [hafter]; unfold Dat.blockOf blkOf1; rw [hA]; try rfl) t d).trans
    (by unfold Dat.fetched Dat.blockOf blkOf1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blkOf1 V c 1 t) (t : Fin cfg1.N) (d) : dat.before 1 t d = blkOf1 V c 1 t :=
  (dat.before_in_eq_fetched 1 rfl (fun _ => rfl) (fun _ _ _ => rfl) (fun t => by rw [hafter]; unfold Dat.blockOf blkOf1; rw [hA]; try rfl) t d).trans
    (by unfold Dat.fetched Dat.blockOf blkOf1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blkOf1 V c 2 t) (t : Fin cfg1.N) (d) : dat.before 2 t d = blkOf1 V c 2 t :=
  (dat.before_in_eq_fetched 2 rfl (fun _ => rfl) (fun _ _ _ => rfl) (fun t => by rw [hafter]; unfold Dat.blockOf blkOf1; rw [hA]; try rfl) t d).trans
    (by unfold Dat.fetched Dat.blockOf blkOf1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blkOf1 V c 3 t) (t : Fin cfg1.N) (d) : dat.before 3 t d = blkOf1 V c 3 t :=
  (dat.before_in_eq_fetched 3 rfl (fun _ => rfl) (fun _ _ _ => rfl) (fun t => by rw [hafter]; unfold Dat.blockOf blkOf1; rw [hA]; try rfl) t d).trans
    (by unfold Dat.fetched Dat.blockOf blkOf1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blkOf1 V c 4 t) (t : Fin cfg1.N) (d) : dat.before 4 t d = blkOf1 V c 4 t :=
  (dat.before_in_eq_fetched 4 rfl (fun _ => rfl) (fun _ _ _ => rfl) (fun t => by rw [hafter]; unfold Dat.blockOf blkOf1; rw [hA]; try rfl) t d).trans
    (by unfold Dat.fetched Dat.blockOf blkOf1; rw [hA]; try rfl)
theorem found1_5 {c : Dev nD} (dat : Dat τ (Elt F) Unit ℕ (UR sig nD τ) ℕ cfg1 c) (hA : dat.A 5 = V c (Pipeline.arrRef spec1 5))
    (hafter : ∀ t, dat.after 5 t = blkOf1 V c 5 t) (t : Fin cfg1.N) (d) : dat.before 5 t d = blkOf1 V c 5 t :=
  (dat.before_in_eq_fetched 5 rfl (fun _ => rfl) (fun _ _ _ => rfl) (fun t => by rw [hafter]; unfold Dat.blockOf blkOf1; rw [hA]; try rfl) t d).trans
    (by unfold Dat.fetched Dat.blockOf blkOf1; rw [hA]; try rfl)

/-! ## What the body stores -/

abbrev tileA1 : Rect S2000x96 := Rect.unit (s := S2000x96) ![0, 0] S2000x96.size inb_S2000x96_S2000x96_0_0
abbrev tileW1 : Rect S96x96 := Rect.unit (s := S96x96) ![0, 0] S96x96.size inb_S96x96_S96x96_0_0
abbrev tileB1 : Rect S1x96 := Rect.unit (s := S1x96) ![0, 0] S1x96.size inb_S1x96_S1x96_0_0

/-- Window 6 after the body: the new term of the three row blocks, stored over the whole block. -/
def newTerm1 (x0 x1 x2 : Vec F S2000x96 .f32) : Vec F S2000x96 .f32 :=
  View.canon [⟨tileA1, term1 (View.ld x0 tileA1) (View.ld x1 tileA1) (View.ld x2 tileA1)⟩]

/-- Window 7 after the body: the updated accumulator block, stored over the whole block. -/
def newAcc1 (x0 x1 x2 : Vec F S2000x96 .f32) (x3 : Vec F S96x96 .f32) (x4 : Vec F S1x96 .f32) (x5 : Vec F S2000x96 .f32) : Vec F S2000x96 .f32 :=
  View.canon [⟨tileA1, acc1 (View.ld x0 tileA1) (View.ld x1 tileA1) (View.ld x2 tileA1) (View.ld x3 tileW1) (View.ld x4 tileB1) (View.ld x5 tileA1)⟩]

/-- One store over the whole 2000 × 96 block covers every index of it. -/
theorem whole1 (p0 : Vec F S2000x96 .f32) (y : S2000x96.Idx) :
    ∃ pc ∈ ([⟨tileA1, p0⟩] : List (View.Piece (Elt F) S2000x96 .f32)), y ∈ pc.1.set :=
  View.cover_of_tiled [⟨tileA1, p0⟩] S2000x96.size (by rfl) y

/-! ## The body's triple -/

set_option maxHeartbeats 1000000 in
/-- On whole staging memrefs, the inputs' at contents x0 … x5 and the outputs' at anything, the body runs to the
    continuation with the inputs' unchanged, window 6's at the new term and window 7's at the new accumulator. -/
theorem sound_kernel1 (c : Dev nD) (E : Set ℕ) (i : grid1.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S2000x96 .f32) (harg6 : arg6.IsWhole) (arg7 : Memref sig .tc .vmem S2000x96 .f32) (harg7 : arg7.IsWhole) (arg8 : Memref sig .tc .vmem S2000x96 .f32) (harg8 : arg8.IsWhole)
    (x0 x1 x2 : Vec F S2000x96 .f32) (x3 : Vec F S96x96 .f32) (x4 : Vec F S1x96 .f32) (x5 : Vec F S2000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newTerm1 x0 x1 x2) ∗ owns (c : Thread nD τ) arg8 fullShare (newAcc1 x0 x1 x2 x3 x4 x5)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (whole1 _)
  iexists _; isplitr
  swap; · iexact H7
  ipureintro
  exact View.read_writes_eq_canon _ _ _ (whole1 _)

/-! ## The pipeline's proof data -/

/-- The step's proof data on core c: the arrays as the call finds them; after the body at point t every input
    buffer at its block, window 6 at the new term and window 7 at the new accumulator of the point's blocks; the
    body's invariant is the untouched rest (the other scoped buffers and the generator register); nothing owed. -/
def stepDat1 (c : Dev nD) : Dat τ (Elt F) Unit ℕ (UR sig nD τ) ℕ cfg1 c where
  A w := V c (Pipeline.arrRef spec1 w)
  after w t := match w with
    | ⟨0, _⟩ => blkOf1 V c 0 t
    | ⟨1, _⟩ => blkOf1 V c 1 t
    | ⟨2, _⟩ => blkOf1 V c 2 t
    | ⟨3, _⟩ => blkOf1 V c 3 t
    | ⟨4, _⟩ => blkOf1 V c 4 t
    | ⟨5, _⟩ => blkOf1 V c 5 t
    | ⟨6, _⟩ => newTerm1 (blkOf1 V c 0 t) (blkOf1 V c 1 t) (blkOf1 V c 2 t)
    | ⟨7, _⟩ => newAcc1 (blkOf1 V c 0 t) (blkOf1 V c 1 t) (blkOf1 V c 2 t) (blkOf1 V c 3 t) (blkOf1 V c 4 t) (blkOf1 V c 5 t)
  Φ _ := Pipeline.ΦA spec1 c
  q := share1
  owed _ := 0

theorem arr_eq1 (c : Dev nD) (w : Fin cfg1.W) : (stepDat1 V c).A w = V c (Pipeline.arrRef spec1 w) := by
  dsimp only [stepDat1]

theorem left1_0 (c : Dev nD) (t : Fin cfg1.N) : (stepDat1 V c).after 0 t = blkOf1 V c 0 t := by dsimp only [stepDat1]
theorem left1_1 (c : Dev nD) (t : Fin cfg1.N) : (stepDat1 V c).after 1 t = blkOf1 V c 1 t := by dsimp only [stepDat1]
theorem left1_2 (c : Dev nD) (t : Fin cfg1.N) : (stepDat1 V c).after 2 t = blkOf1 V c 2 t := by dsimp only [stepDat1]
theorem left1_3 (c : Dev nD) (t : Fin cfg1.N) : (stepDat1 V c).after 3 t = blkOf1 V c 3 t := by dsimp only [stepDat1]
theorem left1_4 (c : Dev nD) (t : Fin cfg1.N) : (stepDat1 V c).after 4 t = blkOf1 V c 4 t := by dsimp only [stepDat1]
theorem left1_5 (c : Dev nD) (t : Fin cfg1.N) : (stepDat1 V c).after 5 t = blkOf1 V c 5 t := by dsimp only [stepDat1]
theorem left1_6 (c : Dev nD) (t : Fin cfg1.N) : (stepDat1 V c).after 6 t = newTerm1 (blkOf1 V c 0 t) (blkOf1 V c 1 t) (blkOf1 V c 2 t) := by dsimp only [stepDat1]
theorem left1_7 (c : Dev nD) (t : Fin cfg1.N) : (stepDat1 V c).after 7 t = newAcc1 (blkOf1 V c 0 t) (blkOf1 V c 1 t) (blkOf1 V c 2 t) (blkOf1 V c 3 t) (blkOf1 V c 4 t) (blkOf1 V c 5 t) := by dsimp only [stepDat1]

theorem handed1_0 (c : Dev nD) (t : Fin cfg1.N) (d) : (stepDat1 V c).before 0 t d = blkOf1 V c 0 t :=
  found1_0 V (stepDat1 V c) (arr_eq1 V c 0) (left1_0 V c) t d
theorem handed1_1 (c : Dev nD) (t : Fin cfg1.N) (d) : (stepDat1 V c).before 1 t d = blkOf1 V c 1 t :=
  found1_1 V (stepDat1 V c) (arr_eq1 V c 1) (left1_1 V c) t d
theorem handed1_2 (c : Dev nD) (t : Fin cfg1.N) (d) : (stepDat1 V c).before 2 t d = blkOf1 V c 2 t :=
  found1_2 V (stepDat1 V c) (arr_eq1 V c 2) (left1_2 V c) t d
theorem handed1_3 (c : Dev nD) (t : Fin cfg1.N) (d) : (stepDat1 V c).before 3 t d = blkOf1 V c 3 t :=
  found1_3 V (stepDat1 V c) (arr_eq1 V c 3) (left1_3 V c) t d
theorem handed1_4 (c : Dev nD) (t : Fin cfg1.N) (d) : (stepDat1 V c).before 4 t d = blkOf1 V c 4 t :=
  found1_4 V (stepDat1 V c) (arr_eq1 V c 4) (left1_4 V c) t d
theorem handed1_5 (c : Dev nD) (t : Fin cfg1.N) (d) : (stepDat1 V c).before 5 t d = blkOf1 V c 5 t :=
  found1_5 V (stepDat1 V c) (arr_eq1 V c 5) (left1_5 V c) t d

/-! ## The body obligation -/

/-- What the body is called with at point t, window by window, -/
def bodyPre1 (c : Dev nD) (t : Fin cfg1.N) : sProp 𝕄 :=
  iprop((stepDat1 V c).Φ t.castSucc ∗ (stepDat1 V c).owesAt () t.castSucc
    ∗ (∃ d, owns (c : Thread nD τ) (st1_0 t) fullShare ((stepDat1 V c).before 0 t d))
    ∗ (∃ d, owns (c : Thread nD τ) (st1_1 t) fullShare ((stepDat1 V c).before 1 t d))
    ∗ (∃ d, owns (c : Thread nD τ) (st1_2 t) fullShare ((stepDat1 V c).before 2 t d))
    ∗ (∃ d, owns (c : Thread nD τ) (st1_3 t) fullShare ((stepDat1 V c).before 3 t d))
    ∗ (∃ d, owns (c : Thread nD τ) (st1_4 t) fullShare ((stepDat1 V c).before 4 t d))
    ∗ (∃ d, owns (c : Thread nD τ) (st1_5 t) fullShare ((stepDat1 V c).before 5 t d))
    ∗ (∃ d, owns (c : Thread nD τ) (st1_6 t) fullShare ((stepDat1 V c).before 6 t d))
    ∗ (∃ d, owns (c : Thread nD τ) (st1_7 t) fullShare ((stepDat1 V c).before 7 t d)))

/-- and what it returns. -/
def bodyPost1 (c : Dev nD) (t : Fin cfg1.N) : sProp 𝕄 :=
  iprop((stepDat1 V c).Φ t.succ ∗ (stepDat1 V c).owesAt () t.succ
    ∗ owns (c : Thread nD τ) (st1_0 t) fullShare ((stepDat1 V c).after 0 t)
    ∗ owns (c : Thread nD τ) (st1_1 t) fullShare ((stepDat1 V c).after 1 t)
    ∗ owns (c : Thread nD τ) (st1_2 t) fullShare ((stepDat1 V c).after 2 t)
    ∗ owns (c : Thread nD τ) (st1_3 t) fullShare ((stepDat1 V c).after 3 t)
    ∗ owns (c : Thread nD τ) (st1_4 t) fullShare ((stepDat1 V c).after 4 t)
    ∗ owns (c : Thread nD τ) (st1_5 t) fullShare ((stepDat1 V c).after 5 t)
    ∗ owns (c : Thread nD τ) (st1_6 t) fullShare ((stepDat1 V c).after 6 t)
    ∗ owns (c : Thread nD τ) (st1_7 t) fullShare ((stepDat1 V c).after 7 t))

set_option maxHeartbeats 1000000 in
/-- At any point the input buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [handed1_0, handed1_1, handed1_2, handed1_3, handed1_4, handed1_5]
  rw [show (stepDat1 V c).Φ t.succ = (stepDat1 V c).Φ t.castSucc from rfl,
    show (stepDat1 V c).owesAt () t.succ = (stepDat1 V c).owesAt () t.castSucc from rfl,
    left1_0, left1_1, left1_2, left1_3, left1_4, left1_5, left1_6, left1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blkOf1 V c 0 t) (blkOf1 V c 1 t) (blkOf1 V c 2 t) (blkOf1 V c 3 t) (blkOf1 V c 4 t) (blkOf1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation1 (c : Dev nD) : BodyObligation (stepDat1 (F := F) V c) (defs₀ (F := F)) Variants.none () Set.univ := fun t => by
  rw [bigSep_W1, bigSep_W1]
  exact sound_body1 V c t

end Cert.KernelIdeal.Cheb

end
-- ==== Proof.KI.Step2.lean ====
/-
  One Chebyshev step as a grid of 25 row blocks (2000 rows each): at every block the body reads its six input
  blocks, stores the new term (a pointwise combination of three of them) into window 6 and the updated
  accumulator (the incoming block plus the new term's product with the weights) into window 7, each store
  covering its whole block. So after the body each output buffer holds one function of the input blocks, every
  input buffer is left as found, and the body needs nothing else: this is all the pipeline's rule asks of a
  body, stated here for any contents V the arrays hold when the call is entered.
-/
import proofs.«134689_j88055419503321_1_alg».proof.Proof.KI.Pay
import proofs.«134689_j88055419503321_1_alg».proof.Proof.Gen.KernelIdeal.Launch
import proofs.«134689_j88055419503321_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window w's block at grid point t: rows 2000·t … 2000·t + 1999 of its array (the whole array for the weights
    and the bias row), read off the contents V. -/
def blkOf2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetched it or the block
    index stood still (the weights and the bias row are fetched once), as long as the body leaves it in place. -/
theorem found2_0 {c : Dev nD} (dat : Dat τ (Elt F) Unit ℕ (UR sig nD τ) ℕ cfg2 c) (hA : dat.A 0 = V c (Pipeline.arrRef spec2 0))
    (hafter : ∀ t, dat.after 0 t = blkOf2 V c 0 t) (t : Fin cfg2.N) (d) : dat.before 0 t d = blkOf2 V c 0 t :=
  (dat.before_in_eq_fetched 0 rfl (fun _ => rfl) (fun _ _ _ => rfl) (fun t => by rw [hafter]; unfold Dat.blockOf blkOf2; rw [hA]; try rfl) t d).trans
    (by unfold Dat.fetched Dat.blockOf blkOf2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blkOf2 V c 1 t) (t : Fin cfg2.N) (d) : dat.before 1 t d = blkOf2 V c 1 t :=
  (dat.before_in_eq_fetched 1 rfl (fun _ => rfl) (fun _ _ _ => rfl) (fun t => by rw [hafter]; unfold Dat.blockOf blkOf2; rw [hA]; try rfl) t d).trans
    (by unfold Dat.fetched Dat.blockOf blkOf2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blkOf2 V c 2 t) (t : Fin cfg2.N) (d) : dat.before 2 t d = blkOf2 V c 2 t :=
  (dat.before_in_eq_fetched 2 rfl (fun _ => rfl) (fun _ _ _ => rfl) (fun t => by rw [hafter]; unfold Dat.blockOf blkOf2; rw [hA]; try rfl) t d).trans
    (by unfold Dat.fetched Dat.blockOf blkOf2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = blkOf2 V c 3 t) (t : Fin cfg2.N) (d) : dat.before 3 t d = blkOf2 V c 3 t :=
  (dat.before_in_eq_fetched 3 rfl (fun _ => rfl) (fun _ _ _ => rfl) (fun t => by rw [hafter]; unfold Dat.blockOf blkOf2; rw [hA]; try rfl) t d).trans
    (by unfold Dat.fetched Dat.blockOf blkOf2; rw [hA]; try rfl)
theorem found2_4 {c : Dev nD} (dat : Dat τ (Elt F) Unit ℕ (UR sig nD τ) ℕ cfg2 c) (hA : dat.A 4 = V c (Pipeline.arrRef spec2 4))
    (hafter : ∀ t, dat.after 4 t = blkOf2 V c 4 t) (t : Fin cfg2.N) (d) : dat.before 4 t d = blkOf2 V c 4 t :=
  (dat.before_in_eq_fetched 4 rfl (fun _ => rfl) (fun _ _ _ => rfl) (fun t => by rw [hafter]; unfold Dat.blockOf blkOf2; rw [hA]; try rfl) t d).trans
    (by unfold Dat.fetched Dat.blockOf blkOf2; rw [hA]; try rfl)
theorem found2_5 {c : Dev nD} (dat : Dat τ (Elt F) Unit ℕ (UR sig nD τ) ℕ cfg2 c) (hA : dat.A 5 = V c (Pipeline.arrRef spec2 5))
    (hafter : ∀ t, dat.after 5 t = blkOf2 V c 5 t) (t : Fin cfg2.N) (d) : dat.before 5 t d = blkOf2 V c 5 t :=
  (dat.before_in_eq_fetched 5 rfl (fun _ => rfl) (fun _ _ _ => rfl) (fun t => by rw [hafter]; unfold Dat.blockOf blkOf2; rw [hA]; try rfl) t d).trans
    (by unfold Dat.fetched Dat.blockOf blkOf2; rw [hA]; try rfl)

/-! ## What the body stores -/

abbrev tileA2 : Rect S2000x96 := Rect.unit (s := S2000x96) ![0, 0] S2000x96.size inb_S2000x96_S2000x96_0_0
abbrev tileW2 : Rect S96x96 := Rect.unit (s := S96x96) ![0, 0] S96x96.size inb_S96x96_S96x96_0_0
abbrev tileB2 : Rect S1x96 := Rect.unit (s := S1x96) ![0, 0] S1x96.size inb_S1x96_S1x96_0_0

/-- Window 6 after the body: the new term of the three row blocks, stored over the whole block. -/
def newTerm2 (x0 x1 x2 : Vec F S2000x96 .f32) : Vec F S2000x96 .f32 :=
  View.canon [⟨tileA2, term2 (View.ld x0 tileA2) (View.ld x1 tileA2) (View.ld x2 tileA2)⟩]

/-- Window 7 after the body: the updated accumulator block, stored over the whole block. -/
def newAcc2 (x0 x1 x2 : Vec F S2000x96 .f32) (x3 : Vec F S96x96 .f32) (x4 : Vec F S1x96 .f32) (x5 : Vec F S2000x96 .f32) : Vec F S2000x96 .f32 :=
  View.canon [⟨tileA2, acc2 (View.ld x0 tileA2) (View.ld x1 tileA2) (View.ld x2 tileA2) (View.ld x3 tileW2) (View.ld x4 tileB2) (View.ld x5 tileA2)⟩]

/-- One store over the whole 2000 × 96 block covers every index of it. -/
theorem whole2 (p0 : Vec F S2000x96 .f32) (y : S2000x96.Idx) :
    ∃ pc ∈ ([⟨tileA2, p0⟩] : List (View.Piece (Elt F) S2000x96 .f32)), y ∈ pc.1.set :=
  View.cover_of_tiled [⟨tileA2, p0⟩] S2000x96.size (by rfl) y

/-! ## The body's triple -/

set_option maxHeartbeats 1000000 in
/-- On whole staging memrefs, the inputs' at contents x0 … x5 and the outputs' at anything, the body runs to the
    continuation with the inputs' unchanged, window 6's at the new term and window 7's at the new accumulator. -/
theorem sound_kernel2 (c : Dev nD) (E : Set ℕ) (i : grid2.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S96x96 .f32) (harg4 : arg4.IsWhole) (arg5 : Memref sig .tc .vmem S1x96 .f32) (harg5 : arg5.IsWhole) (arg6 : Memref sig .tc .vmem S2000x96 .f32) (harg6 : arg6.IsWhole) (arg7 : Memref sig .tc .vmem S2000x96 .f32) (harg7 : arg7.IsWhole) (arg8 : Memref sig .tc .vmem S2000x96 .f32) (harg8 : arg8.IsWhole)
    (x0 x1 x2 : Vec F S2000x96 .f32) (x3 : Vec F S96x96 .f32) (x4 : Vec F S1x96 .f32) (x5 : Vec F S2000x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (newTerm2 x0 x1 x2) ∗ owns (c : Thread nD τ) arg8 fullShare (newAcc2 x0 x1 x2 x3 x4 x5)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (whole2 _)
  iexists _; isplitr
  swap; · iexact H7
  ipureintro
  exact View.read_writes_eq_canon _ _ _ (whole2 _)

/-! ## The pipeline's proof data -/

/-- The step's proof data on core c: the arrays as the call finds them; after the body at point t every input
    buffer at its block, window 6 at the new term and window 7 at the new accumulator of the point's blocks; the
    body's invariant is the untouched rest (the other scoped buffers and the generator register); nothing owed. -/
def stepDat2 (c : Dev nD) : Dat τ (Elt F) Unit ℕ (UR sig nD τ) ℕ cfg2 c where
  A w := V c (Pipeline.arrRef spec2 w)
  after w t := match w with
    | ⟨0, _⟩ => blkOf2 V c 0 t
    | ⟨1, _⟩ => blkOf2 V c 1 t
    | ⟨2, _⟩ => blkOf2 V c 2 t
    | ⟨3, _⟩ => blkOf2 V c 3 t
    | ⟨4, _⟩ => blkOf2 V c 4 t
    | ⟨5, _⟩ => blkOf2 V c 5 t
    | ⟨6, _⟩ => newTerm2 (blkOf2 V c 0 t) (blkOf2 V c 1 t) (blkOf2 V c 2 t)
    | ⟨7, _⟩ => newAcc2 (blkOf2 V c 0 t) (blkOf2 V c 1 t) (blkOf2 V c 2 t) (blkOf2 V c 3 t) (blkOf2 V c 4 t) (blkOf2 V c 5 t)
  Φ _ := Pipeline.ΦA spec2 c
  q := share2
  owed _ := 0

theorem arr_eq2 (c : Dev nD) (w : Fin cfg2.W) : (stepDat2 V c).A w = V c (Pipeline.arrRef spec2 w) := by
  dsimp only [stepDat2]

theorem left2_0 (c : Dev nD) (t : Fin cfg2.N) : (stepDat2 V c).after 0 t = blkOf2 V c 0 t := by dsimp only [stepDat2]
theorem left2_1 (c : Dev nD) (t : Fin cfg2.N) : (stepDat2 V c).after 1 t = blkOf2 V c 1 t := by dsimp only [stepDat2]
theorem left2_2 (c : Dev nD) (t : Fin cfg2.N) : (stepDat2 V c).after 2 t = blkOf2 V c 2 t := by dsimp only [stepDat2]
theorem left2_3 (c : Dev nD) (t : Fin cfg2.N) : (stepDat2 V c).after 3 t = blkOf2 V c 3 t := by dsimp only [stepDat2]
theorem left2_4 (c : Dev nD) (t : Fin cfg2.N) : (stepDat2 V c).after 4 t = blkOf2 V c 4 t := by dsimp only [stepDat2]
theorem left2_5 (c : Dev nD) (t : Fin cfg2.N) : (stepDat2 V c).after 5 t = blkOf2 V c 5 t := by dsimp only [stepDat2]
theorem left2_6 (c : Dev nD) (t : Fin cfg2.N) : (stepDat2 V c).after 6 t = newTerm2 (blkOf2 V c 0 t) (blkOf2 V c 1 t) (blkOf2 V c 2 t) := by dsimp only [stepDat2]
theorem left2_7 (c : Dev nD) (t : Fin cfg2.N) : (stepDat2 V c).after 7 t = newAcc2 (blkOf2 V c 0 t) (blkOf2 V c 1 t) (blkOf2 V c 2 t) (blkOf2 V c 3 t) (blkOf2 V c 4 t) (blkOf2 V c 5 t) := by dsimp only [stepDat2]

theorem handed2_0 (c : Dev nD) (t : Fin cfg2.N) (d) : (stepDat2 V c).before 0 t d = blkOf2 V c 0 t :=
  found2_0 V (stepDat2 V c) (arr_eq2 V c 0) (left2_0 V c) t d
theorem handed2_1 (c : Dev nD) (t : Fin cfg2.N) (d) : (stepDat2 V c).before 1 t d = blkOf2 V c 1 t :=
  found2_1 V (stepDat2 V c) (arr_eq2 V c 1) (left2_1 V c) t d
theorem handed2_2 (c : Dev nD) (t : Fin cfg2.N) (d) : (stepDat2 V c).before 2 t d = blkOf2 V c 2 t :=
  found2_2 V (stepDat2 V c) (arr_eq2 V c 2) (left2_2 V c) t d
theorem handed2_3 (c : Dev nD) (t : Fin cfg2.N) (d) : (stepDat2 V c).before 3 t d = blkOf2 V c 3 t :=
  found2_3 V (stepDat2 V c) (arr_eq2 V c 3) (left2_3 V c) t d
theorem handed2_4 (c : Dev nD) (t : Fin cfg2.N) (d) : (stepDat2 V c).before 4 t d = blkOf2 V c 4 t :=
  found2_4 V (stepDat2 V c) (arr_eq2 V c 4) (left2_4 V c) t d
theorem handed2_5 (c : Dev nD) (t : Fin cfg2.N) (d) : (stepDat2 V c).before 5 t d = blkOf2 V c 5 t :=
  found2_5 V (stepDat2 V c) (arr_eq2 V c 5) (left2_5 V c) t d

/-! ## The body obligation -/

/-- What the body is called with at point t, window by window, -/
def bodyPre2 (c : Dev nD) (t : Fin cfg2.N) : sProp 𝕄 :=
  iprop((stepDat2 V c).Φ t.castSucc ∗ (stepDat2 V c).owesAt () t.castSucc
    ∗ (∃ d, owns (c : Thread nD τ) (st2_0 t) fullShare ((stepDat2 V c).before 0 t d))
    ∗ (∃ d, owns (c : Thread nD τ) (st2_1 t) fullShare ((stepDat2 V c).before 1 t d))
    ∗ (∃ d, owns (c : Thread nD τ) (st2_2 t) fullShare ((stepDat2 V c).before 2 t d))
    ∗ (∃ d, owns (c : Thread nD τ) (st2_3 t) fullShare ((stepDat2 V c).before 3 t d))
    ∗ (∃ d, owns (c : Thread nD τ) (st2_4 t) fullShare ((stepDat2 V c).before 4 t d))
    ∗ (∃ d, owns (c : Thread nD τ) (st2_5 t) fullShare ((stepDat2 V c).before 5 t d))
    ∗ (∃ d, owns (c : Thread nD τ) (st2_6 t) fullShare ((stepDat2 V c).before 6 t d))
    ∗ (∃ d, owns (c : Thread nD τ) (st2_7 t) fullShare ((stepDat2 V c).before 7 t d)))

/-- and what it returns. -/
def bodyPost2 (c : Dev nD) (t : Fin cfg2.N) : sProp 𝕄 :=
  iprop((stepDat2 V c).Φ t.succ ∗ (stepDat2 V c).owesAt () t.succ
    ∗ owns (c : Thread nD τ) (st2_0 t) fullShare ((stepDat2 V c).after 0 t)
    ∗ owns (c : Thread nD τ) (st2_1 t) fullShare ((stepDat2 V c).after 1 t)
    ∗ owns (c : Thread nD τ) (st2_2 t) fullShare ((stepDat2 V c).after 2 t)
    ∗ owns (c : Thread nD τ) (st2_3 t) fullShare ((stepDat2 V c).after 3 t)
    ∗ owns (c : Thread nD τ) (st2_4 t) fullShare ((stepDat2 V c).after 4 t)
    ∗ owns (c : Thread nD τ) (st2_5 t) fullShare ((stepDat2 V c).after 5 t)
    ∗ owns (c : Thread nD τ) (st2_6 t) fullShare ((stepDat2 V c).after 6 t)
    ∗ owns (c : Thread nD τ) (st2_7 t) fullShare ((stepDat2 V c).after 7 t))

set_option maxHeartbeats 1000000 in
/-- At any point the input buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [handed2_0, handed2_1, handed2_2, handed2_3, handed2_4, handed2_5]
  rw [show (stepDat2 V c).Φ t.succ = (stepDat2 V c).Φ t.castSucc from rfl,
    show (stepDat2 V c).owesAt () t.succ = (stepDat2 V c).owesAt () t.castSucc from rfl,
    left2_0, left2_1, left2_2, left2_3, left2_4, left2_5, left2_6, left2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (blkOf2 V c 0 t) (blkOf2 V c 1 t) (blkOf2 V c 2 t) (blkOf2 V c 3 t) (blkOf2 V c 4 t) (blkOf2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation2 (c : Dev nD) : BodyObligation (stepDat2 (F := F) V c) (defs₀ (F := F)) Variants.none () Set.univ := fun t => by
  rw [bigSep_W2, bigSep_W2]
  exact sound_body2 V c t

end Cert.KernelIdeal.Cheb

end
-- ==== Proof.KI.Shared0.lean ====
/-
  The first Chebyshev step is handed ONE array, H, through two windows (the term two steps back and the
  previous term are both H at k = 1). The pipeline's rule wants, per window, a share of the window's array: so
  entering the call the core's whole hold on H is cut into two halves, one per window (both windows only read),
  every other array going whole to its one window; leaving it, the two halves — both still at H's entry contents,
  since no input window is written back — are joined again, and the two output arrays come back at what the
  grid's write-backs left in them, every buffer that is no window's array untouched.
-/
import proofs.«134689_j88055419503321_1_alg».proof.Proof.KI.Step0
import Idealize.ShloMosaic.Lib.Pipeline.Kit
import Idealize.ShloMosaic.Lib.Pipeline.Regions
import Idealize.ShloMosaic.Lib.Pipeline.RegionsLoop

set_option maxRecDepth 16384

noncomputable section

namespace Cert.KernelIdeal.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' arrays, one by one -/

/-- Window w's array is a whole buffer: its points-to over the array's element set is the points-to of the whole
    buffer behind it, at the share q the window holds. -/
private theorem arr0_eq (c : Dev nD) (w : Fin 8) (q : PosShare TreeShare) (hq : (stepDat0 V c).share w = q)
    (X : Buf (Elt F) ((cfg0.win w).arr.view.loc (c.tc : Thread nD τ))) :
    ((cfg0.win w).arr.view.loc (c.tc : Thread nD τ) ↦[(cfg0.win w).arr.view.set]{(stepDat0 V c).share w} X : sProp 𝕄)
      = ((c.tc : Thread nD τ).loc (Pipeline.arrRef spec0 w) ↦{q} X) := by
  rw [show (cfg0.win w).arr.view.set = Finset.univ from (arr_whole0 w).set_eq_univ, hq]

/-- Equal conjuncts, equal conjunctions. -/
private theorem sep_eq {M : Type} [URA M] {A A' B B' : sProp M} (hA : A = A') (hB : B = B') :
    iprop(A ∗ B) = iprop(A' ∗ B') := by rw [hA, hB]

/-- Equal contents, equal points-tos. -/
private theorem pt_congr {ℓ : Loc nD τ sig} {q : PosShare TreeShare} {f g : Buf (Elt F) ℓ} (h : f = g) :
    (ℓ ↦{q} f : sProp 𝕄) = (ℓ ↦{q} g) := by rw [h]

/-- The share each window holds of its array: windows 0 and 1 half of H each, every other window its whole array. -/
private theorem held0 (c : Dev nD) :
    (stepDat0 V c).share 0 = fullShare.left ∧ (stepDat0 V c).share 1 = fullShare.right
      ∧ (stepDat0 V c).share 2 = fullShare ∧ (stepDat0 V c).share 3 = fullShare ∧ (stepDat0 V c).share 4 = fullShare
      ∧ (stepDat0 V c).share 5 = fullShare ∧ (stepDat0 V c).share 6 = fullShare ∧ (stepDat0 V c).share 7 = fullShare :=
  ⟨rfl, rfl, rfl, rfl, rfl, rfl, rfl, rfl⟩

set_option maxHeartbeats 1000000 in
/-- The first call's arrays at contents X, window by window: H at half a share through each of windows 0 and 1,
    every other array whole. -/
private theorem arrays0_eq (c : Dev nD) (X : (w : Fin cfg0.W) → Buf (Elt F) ((cfg0.win w).arr.view.loc (c.tc : Thread nD τ))) :
    ((stepDat0 V c).arrays X : sProp 𝕄)
      = iprop(((c.tc : Thread nD τ).loc main_arg3 ↦{fullShare.left} X 0) ∗ ((c.tc : Thread nD τ).loc main_arg3 ↦{fullShare.right} X 1)
          ∗ ((c.tc : Thread nD τ).loc main_v14 ↦{fullShare} X 2) ∗ ((c.tc : Thread nD τ).loc main_arg4 ↦{fullShare} X 3)
          ∗ ((c.tc : Thread nD τ).loc main_v0 ↦{fullShare} X 4) ∗ ((c.tc : Thread nD τ).loc main_v1 ↦{fullShare} X 5)
          ∗ ((c.tc : Thread nD τ).loc main_v15_0 ↦{fullShare} X 6) ∗ ((c.tc : Thread nD τ).loc main_v15_1 ↦{fullShare} X 7)) := by
  obtain ⟨s0, s1, s2, s3, s4, s5, s6, s7⟩ := held0 V c
  unfold Dat.arrays
  rw [bigSep_W0]
  exact sep_eq (arr0_eq V c 0 _ s0 (X 0)) (sep_eq (arr0_eq V c 1 _ s1 (X 1))
    (sep_eq (arr0_eq V c 2 _ s2 (X 2)) (sep_eq (arr0_eq V c 3 _ s3 (X 3))
    (sep_eq (arr0_eq V c 4 _ s4 (X 4)) (sep_eq (arr0_eq V c 5 _ s5 (X 5))
    (sep_eq (arr0_eq V c 6 _ s6 (X 6)) (arr0_eq V c 7 _ s7 (X 7))))))))

/-- The seven distinct buffers behind the eight windows' arrays, conjoined one by one. -/
private theorem bigSep_arrs0 {M : Type} [URA M] (Φ : Ref sig .tc → sProp M) :
    bigSep (Finset.univ.image (Pipeline.arrRef spec0)) Φ
      = iprop(Φ main_arg3 ∗ Φ main_v14 ∗ Φ main_arg4 ∗ Φ main_v0 ∗ Φ main_v1 ∗ Φ main_v15_0 ∗ Φ main_v15_1) :=
  bigSep_eq_bigSepL_of_eq [main_arg3, main_v14, main_arg4, main_v0, main_v1, main_v15_0, main_v15_1] (by decide) (by decide) Φ

/-- A core's unscoped buffers at contents V': the buffers behind the first call's arrays, and the rest. -/
private theorem unscoped_split0 (c : Dev nD) (V' : (b : Ref sig .tc) → Buf (Elt F) ((c : Thread nD τ).loc b)) :
    (unscopedBufs c V' : sProp 𝕄) = iprop(Pipeline.arrBufs spec0 c V' ∗ Pipeline.unscopedRest spec0 c V') :=
  Pipeline.unscopedBufs_split₀ cfgs 0 winFacts₀0.arr_unscoped c V'

/-! ## Entering the call -/

/-- ENTRY: a core's unscoped buffers at contents V are the first call's arrays at the proof data's entry contents
    (H's two windows at half each) and the unscoped buffers that are no window's array. -/
theorem enter0 (c : Dev nD) :
    (unscopedBufs c (V c) : sProp 𝕄)
      ⊢ iprop((stepDat0 V c).arrays ((stepDat0 V c).arrAt · 0) ∗ Pipeline.unscopedRest spec0 c (V c)) := by
  rw [unscoped_split0 c (V c)]
  refine sep_mono ?_ .rfl
  unfold Pipeline.arrBufs
  rw [bigSep_arrs0, arrays0_eq]
  iintro ⟨H3, H14, H4, H0, H1, H150, H151⟩
  icases (pointsTo_share (PosShare.mem_left_op_right fullShare)).1 $$ H3 with ⟨H3l, H3r⟩
  isplitl [H3l]; · iexact H3l
  isplitl [H3r]; · iexact H3r
  isplitl [H14]; · iexact H14
  isplitl [H4]; · iexact H4
  isplitl [H0]; · iexact H0
  isplitl [H1]; · iexact H1
  isplitl [H150]; · iexact H150
  iexact H151

/-! ## Leaving the call -/

/-- An input window's array is never written back: at the end of the grid it is at the entry contents. -/
private theorem kept0 (c : Dev nD) (w : Fin cfg0.W) (hin : (cfg0.win w).isOut = false) :
    (stepDat0 V c).arrAt w cfg0.N = V c (Pipeline.arrRef spec0 w) :=
  ((stepDat0 V c).arrAt_in w hin cfg0.N).trans (arr_eq0 V c w)

/-- The arrays' part of the exit: the two halves of H, both at H's entry contents, join; the other input arrays
    are as found; the output arrays are at what the write-backs left. -/
private theorem leave_arrays0 (c : Dev nD) (V' : (b : Ref sig .tc) → Buf (Elt F) ((c : Thread nD τ).loc b))
    (h6 : V' main_v15_0 = (stepDat0 V c).arrAt 6 cfg0.N) (h7 : V' main_v15_1 = (stepDat0 V c).arrAt 7 cfg0.N)
    (h3 : V' main_arg3 = V c main_arg3) (h14 : V' main_v14 = V c main_v14) (h4 : V' main_arg4 = V c main_arg4)
    (h0 : V' main_v0 = V c main_v0) (h1 : V' main_v1 = V c main_v1) :
    ((stepDat0 V c).arrays ((stepDat0 V c).arrAt · cfg0.N) : sProp 𝕄) ⊢ Pipeline.arrBufs spec0 c V' := by
  have e0 : (stepDat0 V c).arrAt 0 cfg0.N = V' main_arg3 := (kept0 V c 0 rfl).trans h3.symm
  have e1 : (stepDat0 V c).arrAt 1 cfg0.N = V' main_arg3 := (kept0 V c 1 rfl).trans h3.symm
  have e2 : (stepDat0 V c).arrAt 2 cfg0.N = V' main_v14 := (kept0 V c 2 rfl).trans h14.symm
  have e3 : (stepDat0 V c).arrAt 3 cfg0.N = V' main_arg4 := (kept0 V c 3 rfl).trans h4.symm
  have e4 : (stepDat0 V c).arrAt 4 cfg0.N = V' main_v0 := (kept0 V c 4 rfl).trans h0.symm
  have e5 : (stepDat0 V c).arrAt 5 cfg0.N = V' main_v1 := (kept0 V c 5 rfl).trans h1.symm
  have hE : ((stepDat0 V c).arrays ((stepDat0 V c).arrAt · cfg0.N) : sProp 𝕄)
      = iprop(((c.tc : Thread nD τ).loc main_arg3 ↦{fullShare.left} V' main_arg3) ∗ ((c.tc : Thread nD τ).loc main_arg3 ↦{fullShare.right} V' main_arg3)
          ∗ ((c.tc : Thread nD τ).loc main_v14 ↦{fullShare} V' main_v14) ∗ ((c.tc : Thread nD τ).loc main_arg4 ↦{fullShare} V' main_arg4)
          ∗ ((c.tc : Thread nD τ).loc main_v0 ↦{fullShare} V' main_v0) ∗ ((c.tc : Thread nD τ).loc main_v1 ↦{fullShare} V' main_v1)
          ∗ ((c.tc : Thread nD τ).loc main_v15_0 ↦{fullShare} V' main_v15_0) ∗ ((c.tc : Thread nD τ).loc main_v15_1 ↦{fullShare} V' main_v15_1)) :=
    (arrays0_eq V c _).trans (sep_eq (pt_congr e0) (sep_eq (pt_congr e1) (sep_eq (pt_congr e2) (sep_eq (pt_congr e3)
      (sep_eq (pt_congr e4) (sep_eq (pt_congr e5) (sep_eq (pt_congr h6.symm) (pt_congr h7.symm))))))))
  unfold Pipeline.arrBufs
  rw [bigSep_arrs0]
  refine (Entails.of_eq hE).trans ?_
  iintro ⟨H3l, H3r, H14, H4, H0, H1, H150, H151⟩
  isplitl [H3l H3r]
  · iapply (pointsTo_share (PosShare.mem_left_op_right fullShare)).2
    isplitl [H3l]; · iexact H3l
    iexact H3r
  isplitl [H14]; · iexact H14
  isplitl [H4]; · iexact H4
  isplitl [H0]; · iexact H0
  isplitl [H1]; · iexact H1
  isplitl [H150]; · iexact H150
  iexact H151

/-- EXIT: the call's arrays at what the pipeline leaves in them and the untouched rest are the core's unscoped
    buffers at any contents V' that has the two output arrays at what the write-backs left and agrees with V
    everywhere else. -/
theorem leave0 (c : Dev nD) (V' : (b : Ref sig .tc) → Buf (Elt F) ((c : Thread nD τ).loc b))
    (h6 : V' main_v15_0 = (stepDat0 V c).arrAt 6 cfg0.N) (h7 : V' main_v15_1 = (stepDat0 V c).arrAt 7 cfg0.N)
    (hrest : ∀ b : Ref sig .tc, b ≠ main_v15_0 → b ≠ main_v15_1 → V' b = V c b) :
    iprop((stepDat0 V c).arrays ((stepDat0 V c).arrAt · cfg0.N) ∗ Pipeline.unscopedRest spec0 c (V c))
      ⊢ (unscopedBufs c V' : sProp 𝕄) := by
  rw [unscoped_split0 c V']
  refine sep_mono (leave_arrays0 V c V' h6 h7 (hrest _ (by decide) (by decide)) (hrest _ (by decide) (by decide))
    (hrest _ (by decide) (by decide)) (hrest _ (by decide) (by decide)) (hrest _ (by decide) (by decide))) (Entails.of_eq ?_)
  unfold Pipeline.unscopedRest
  exact bigSep_congr fun b hb => by
    have hb' := (Finset.mem_sdiff.mp hb).2
    rw [hrest b (fun h => hb' (h ▸ Finset.mem_image.mpr ⟨6, Finset.mem_univ _, rfl⟩))
      (fun h => hb' (h ▸ Finset.mem_image.mpr ⟨7, Finset.mem_univ _, rfl⟩))]

end Cert.KernelIdeal.Cheb

end
-- ==== Proof.KI.Run.lean ====
/-
  The whole program, boundary by boundary. @main is: a stretch of host operations (the bias as a row, a zero
  accumulator, the sparse product L·H), the first Chebyshev step, a stretch (L·T1), the second step, a stretch
  (L·T2), the third step. Between two items a core holds every unscoped buffer at known contents: the launch
  memory, then each stretch's operations applied in order, then, after a step, its two output arrays at what
  the grid's write-backs left and everything else as it was. Each step is entered from the contents the stretch
  before it left (its proof data are stated at those), so the steps chain, and at the end every unscoped buffer
  is read off the last contents: the arguments unchanged, the result at the third step's accumulator array.
-/
import proofs.«134689_j88055419503321_1_alg».proof.Proof.KI.Step0
import proofs.«134689_j88055419503321_1_alg».proof.Proof.KI.Step1
import proofs.«134689_j88055419503321_1_alg».proof.Proof.KI.Step2
import proofs.«134689_j88055419503321_1_alg».proof.Proof.KI.Shared0
import proofs.«134689_j88055419503321_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Cheb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev at0 (c : Dev nD) : Valuation τ sig (Elt F) := fun b => m (c, b)
/-- After the first stretch: what the first step is entered with. -/
abbrev at1 (c : Dev nD) : Valuation τ sig (Elt F) := StableHlo.after hostOps0 (at0 m c)
abbrev in0 : (c : Dev nD) → (b : Ref sig .tc) → Buf (Elt F) ((c : Thread nD τ).loc b) := fun c b => at1 m c b
/-- After the first step: T1 and the first accumulator where the write-backs left them. -/
def at2 (c : Dev nD) : Valuation τ sig (Elt F) :=
  Function.update (Function.update (at1 m c) main_v15_0 ((stepDat0 (in0 m) c).arrAt 6 cfg0.N)) main_v15_1 ((stepDat0 (in0 m) c).arrAt 7 cfg0.N)
abbrev out0 : (c : Dev nD) → (b : Ref sig .tc) → Buf (Elt F) ((c : Thread nD τ).loc b) := fun c b => at2 m c b
/-- After the second stretch. -/
abbrev at3 (c : Dev nD) : Valuation τ sig (Elt F) := StableHlo.after hostOps1 (at2 m c)
abbrev in1 : (c : Dev nD) → (b : Ref sig .tc) → Buf (Elt F) ((c : Thread nD τ).loc b) := fun c b => at3 m c b
/-- After the second step. -/
def at4 (c : Dev nD) : Valuation τ sig (Elt F) :=
  Pipeline.withArrays spec1 c (at3 m c) fun w => (stepDat1 (in1 m) c).arrAt w cfg1.N
abbrev out1 : (c : Dev nD) → (b : Ref sig .tc) → Buf (Elt F) ((c : Thread nD τ).loc b) := fun c b => at4 m c b
/-- After the third stretch. -/
abbrev at5 (c : Dev nD) : Valuation τ sig (Elt F) := StableHlo.after hostOps2 (at4 m c)
abbrev in2 : (c : Dev nD) → (b : Ref sig .tc) → Buf (Elt F) ((c : Thread nD τ).loc b) := fun c b => at5 m c b
/-- After the third step: the end. -/
def at6 (c : Dev nD) : Valuation τ sig (Elt F) :=
  Pipeline.withArrays spec2 c (at5 m c) fun w => (stepDat2 (in2 m) c).arrAt w cfg2.N
abbrev out2 : (c : Dev nD) → (b : Ref sig .tc) → Buf (Elt F) ((c : Thread nD τ).loc b) := fun c b => at6 m c b

/-! ### The first step's exit contents, buffer by buffer -/

theorem at2_term (c : Dev nD) : out0 m c main_v15_0 = (stepDat0 (in0 m) c).arrAt 6 cfg0.N := by
  show at2 m c (Proc.devRef .tc main_v15_0) = _
  unfold at2
  rw [Function.update_of_ne (StableHlo.devRef_ne_of_ne (by decide) : (Proc.devRef .tc main_v15_0 : DevRef τ sig) ≠ Proc.devRef .tc main_v15_1), Function.update_self]

theorem at2_acc (c : Dev nD) : out0 m c main_v15_1 = (stepDat0 (in0 m) c).arrAt 7 cfg0.N := by
  show at2 m c (Proc.devRef .tc main_v15_1) = _
  unfold at2
  rw [Function.update_self]

theorem at2_rest (c : Dev nD) (b : Ref sig .tc) (h6 : b ≠ main_v15_0) (h7 : b ≠ main_v15_1) : out0 m c b = in0 m c b := by
  show at2 m c (Proc.devRef .tc b) = at1 m c (Proc.devRef .tc b)
  unfold at2
  rw [Function.update_of_ne (StableHlo.devRef_ne_of_ne h7 : (Proc.devRef .tc b : DevRef τ sig) ≠ Proc.devRef .tc main_v15_1),
    Function.update_of_ne (StableHlo.devRef_ne_of_ne h6 : (Proc.devRef .tc b : DevRef τ sig) ≠ Proc.devRef .tc main_v15_0)]

/-! ### The later steps' exit contents -/

theorem at4_arr (c : Dev nD) (w : Fin cfg1.W) :
    at4 m c (Proc.devRef .tc (Pipeline.arrRef spec1 w)) = (stepDat1 (in1 m) c).arrAt w cfg1.N := by
  unfold at4; exact Pipeline.withArrays_arr spec1 launch1.win.arr_inj c _ _ w
theorem at4_rest (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
theorem left_arr1 (c : Dev nD) (w : Fin cfg1.W) : (stepDat1 (in1 m) c).arrAt w cfg1.N = out1 m c (Pipeline.arrRef spec1 w) :=
  (at4_arr m c w).symm
theorem left_rest1 (c : Dev nD) : ∀ b, b ∉ Finset.univ.image (Pipeline.arrRef spec1) → out1 m c b = in1 m c b :=
  fun b hb => at4_rest m c b fun w e => hb (Finset.mem_image.mpr ⟨w, Finset.mem_univ _, e⟩)

theorem at6_arr (c : Dev nD) (w : Fin cfg2.W) :
    at6 m c (Proc.devRef .tc (Pipeline.arrRef spec2 w)) = (stepDat2 (in2 m) c).arrAt w cfg2.N := by
  unfold at6; exact Pipeline.withArrays_arr spec2 launch2.win.arr_inj c _ _ w
theorem at6_rest (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
theorem left_arr2 (c : Dev nD) (w : Fin cfg2.W) : (stepDat2 (in2 m) c).arrAt w cfg2.N = out2 m c (Pipeline.arrRef spec2 w) :=
  (at6_arr m c w).symm
theorem left_rest2 (c : Dev nD) : ∀ b, b ∉ Finset.univ.image (Pipeline.arrRef spec2) → out2 m c b = in2 m c b :=
  fun b hb => at6_rest m c b fun w e => hb (Finset.mem_image.mpr ⟨w, Finset.mem_univ _, e⟩)

/-! ## The proof data of the three steps, and what rides along -/

/-- Each step's proof data at the contents it is entered with. -/
def stepDats : (p : Fin 3) → (c : Dev nD) → Dat τ (Elt F) Unit ℕ (UR sig nD τ) ℕ (Pipeline.pin (pcfgs (F := F)) adm p) c
  | ⟨0, _⟩ => fun c => stepDat0 (in0 m) c
  | ⟨1, _⟩ => fun c => stepDat1 (in1 m) c
  | ⟨2, _⟩ => fun c => stepDat2 (in2 m) c

abbrev noVariants : Variants := Variants.none
/-- No core owes another anything: no level is assigned. -/
abbrev noLevels : GSem nD τ sig → Finset Unit := fun _ => ∅
abbrev noLevel : GSem nD τ sig → Unit → ℕ := fun _ _ => 0
/-- Beside the buffers: the generator register at some state, and the core owing nothing. -/
abbrev rides (c : Dev nD) : sProp 𝕄 := iprop((∃ r, prngReg c r) ∗ ∃ W, owes (c : Thread nD τ) (0 : CellTallies nD τ sig Unit) W)
/-- A stretch of host operations as a segment, from the contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the end contents, the generator register. -/
abbrev endState (c : Dev nD) : sProp 𝕄 := iprop(StableHlo.held (c : Thread nD τ) (Pipeline.ucRefs τ sig) (at6 m c) ∗ ∃ r, prngReg c r)

/-! ## The steps as segments -/

set_option backward.isDefEq.respectTransparency.types false in
/-- Call 0 as a segment of @main: entered with every unscoped buffer at the contents the stretch before it left,
    its arrays split out and, at the exit, put back with the two outputs at what the write-backs left; the generator
    register passes through the body's invariant; nothing is owed; the kernel has no semaphore of its own. -/
def step0Seg : Pipeline.RegionSeg (pcfgs (F := F)) adm (stepDats m) () defs₀ noVariants noLevels noLevel 0 where
  win := winFacts₀0
  block_pos := block_pos0
  stage_whole := stage_whole0
  K := PEmpty
  osem k := k.elim
  ho := Pipeline.OwnSemFacts.none _
  hbody c := (body_obligation0 (in0 m) c).loose
  hwaits := Pipeline.hwaits_of_owed_zero _ _ _ _ noLevels noLevel 0 fun _ _ => rfl
  pre c := iprop(StableHlo.held (c : Thread nD τ) (Pipeline.ucRefs τ sig) (at1 m c) ∗ rides c)
  post c := iprop(StableHlo.held (c : Thread nD τ) (Pipeline.ucRefs τ sig) (at2 m c) ∗ rides c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := enter0 (in0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (stepDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := leave0 (in0 m) c (out0 m c) (at2_term m c) (at2_acc m c) (fun b h6 h7 => at2_rest m c b h6 h7)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents the stretch before it left,
    its arrays split out and, at the exit, put back with the two outputs at what the write-backs left; the generator
    register passes through the body's invariant; nothing is owed; the kernel has no semaphore of its own. -/
def step1Seg : Pipeline.RegionSeg (pcfgs (F := F)) adm (stepDats m) () defs₀ noVariants noLevels noLevel 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ noLevels noLevel 1 fun _ _ => rfl
  pre c := iprop(StableHlo.held (c : Thread nD τ) (Pipeline.ucRefs τ sig) (at3 m c) ∗ rides c)
  post c := iprop(StableHlo.held (c : Thread nD τ) (Pipeline.ucRefs τ sig) (at4 m c) ∗ rides c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (stepDats m) launch1.win launch1.arr_whole c
      ((stepDats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (stepDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stepDats m) ((stepDats m 1 c).share_full fun _ => rfl)
      (in1 m c) (out1 m c) ((stepDats m 1 c).arrAt · cfg1.N) (left_arr1 m c) (left_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at the contents the stretch before it left,
    its arrays split out and, at the exit, put back with the two outputs at what the write-backs left; the generator
    register passes through the body's invariant; nothing is owed; the kernel has no semaphore of its own. -/
def step2Seg : Pipeline.RegionSeg (pcfgs (F := F)) adm (stepDats m) () defs₀ noVariants noLevels noLevel 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ noLevels noLevel 2 fun _ _ => rfl
  pre c := iprop(StableHlo.held (c : Thread nD τ) (Pipeline.ucRefs τ sig) (at5 m c) ∗ rides c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (stepDats m) launch2.win launch2.arr_whole c
      ((stepDats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (stepDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (stepDats m) ((stepDats m 2 c).share_full fun _ => rfl)
      (in2 m c) (out2 m c) ((stepDats m 2 c).arrAt · cfg2.N) (left_arr2 m c) (left_rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev items : List (Pipeline.Seg (pcfgs (F := F)) adm (stepDats m) () defs₀ noVariants noLevels noLevel) :=
  [ .host (stretch hostOps0 hostOps0_sub hostOps0_fresh (at0 m)),
    .region (step0Seg m),
    .host (stretch hostOps1 hostOps1_sub hostOps1_fresh (at2 m)),
    .region (step1Seg m),
    .host (stretch hostOps2 hostOps2_sub hostOps2_fresh (at4 m)),
    .region (step2Seg m) ]

theorem main_items (c : Dev nD) : main (F := F) c = Pipeline.Seg.run (items m) := (main_chain c).trans (by chain_rfl)

set_option backward.isDefEq.respectTransparency.types false in
/-- THE RUN: from any memory with zero counters every weakly fair execution of @main terminates, nothing faulting,
    and in every final state each unscoped buffer holds the end contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = at6 m c b) :=
  Pipeline.θ_run_regions_kit (pcfgs (F := F)) adm (stepDats m) () cellOf_inj emb₁ defs₀ noVariants noLevels noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ rides c)) (Tₙ := endState m)
    (hch := ⟨fun _ => .rfl, fun _ => .rfl, fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at6 m c b)
    (hfin := fun c s' => by
      iintro ⟨⟨Hh, -⟩, HSI⟩
      unfold StableHlo.held
      imodintro
      iapply (pointsTo_read_all (Pipeline.ucRefs τ sig) (fun b => (((c : Thread nD τ)).1, b)) (at6 m c) s')
      isplitl [Hh] <;> iassumption)
    (hQ := fun s h c => h c)

end Cert.KernelIdeal.Cheb

end
-- ==== Proof.KI.Flow.lean ====
/-
  What the buffers hold at each boundary of @main, followed back to the arguments. No host stretch writes an
  argument and no step writes back an input window, so the six arguments reach the end as launched. The
  stretch before each step computes the sparse product L·X of the step's previous term X (H, then T1, then T2)
  from the edge list, and copies the accumulator of the step before into the buffer the step accumulates in;
  the first stretch also lays the bias out as a row and makes the zero matrix the accumulator starts from.
-/
import proofs.«134689_j88055419503321_1_alg».proof.Proof.KI.Run
import Idealize.ShloMosaic.Lib.StableHlo.Run

set_option maxRecDepth 16384

noncomputable section

namespace Cert.KernelIdeal.Cheb

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The sparse product L·X over the edge list (rows, cols, vals), as the program spells it: gather the rows of X the
    column indices name (a negative index counted from the end), scale each by its edge weight, add each into the
    row its row index names, into a zero matrix. -/
def spmm (rows cols : (⟨S800000, .i32⟩ : BufTy).Contents (Elt F)) (vals : (⟨S800000, .f32⟩ : BufTy).Contents (Elt F))
    (X : (⟨S50000x96, .f32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 rows)
    (mulf (broadcastInDim S800000x96 ![0, 1] bcast_S800000x1_S800000x96_0_1 (broadcastInDim S800000x1 ![0] bcast_S800000_S800000x1_0 vals))
      (Host.gather gather_S50000x96_S800000x1_S800000x96_1_0_n_n_0_1_196 X
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-! ## Transport: what an item leaves alone -/

theorem at1_keeps (c : Dev nD) (r : Ref sig .tc) (h : r ∉ hostOps0_W) : at1 m c r = at0 m c r :=
  StableHlo.after_of_writes_sub hostOps0 _ hostOps0_writes h
theorem at3_keeps (c : Dev nD) (r : Ref sig .tc) (h : r ∉ hostOps1_W) : at3 m c r = at2 m c r :=
  StableHlo.after_of_writes_sub hostOps1 _ hostOps1_writes h
theorem at5_keeps (c : Dev nD) (r : Ref sig .tc) (h : r ∉ hostOps2_W) : at5 m c r = at4 m c r :=
  StableHlo.after_of_writes_sub hostOps2 _ hostOps2_writes h
theorem at2_keeps (c : Dev nD) (r : Ref sig .tc) (h6 : r ≠ main_v15_0) (h7 : r ≠ main_v15_1) : at2 m c r = at1 m c r :=
  at2_rest m c r h6 h7
/-- An input window's array leaves the second step as it entered. -/
theorem at4_input (c : Dev nD) (w : Fin cfg1.W) (hin : (cfg1.win w).isOut = false) :
    at4 m c (Proc.devRef .tc (Pipeline.arrRef spec1 w)) = at3 m c (Proc.devRef .tc (Pipeline.arrRef spec1 w)) :=
  (at4_arr m c w).trans (((stepDat1 (in1 m) c).arrAt_in w hin _).trans (arr_eq1 (in1 m) c w))
theorem at6_input (c : Dev nD) (w : Fin cfg2.W) (hin : (cfg2.win w).isOut = false) :
    at6 m c (Proc.devRef .tc (Pipeline.arrRef spec2 w)) = at5 m c (Proc.devRef .tc (Pipeline.arrRef spec2 w)) :=
  (at6_arr m c w).trans (((stepDat2 (in2 m) c).arrAt_in w hin _).trans (arr_eq2 (in2 m) c w))

/-! ## The arguments reach the end as launched -/

theorem at4_arg0 (c : Dev nD) : at4 m c main_arg0 = m ((c : Thread nD τ).loc main_arg0) :=
  (at4_rest m c main_arg0 (by decide)).trans <| (at3_keeps m c main_arg0 (by decide)).trans <| (at2_keeps m c main_arg0 (by decide) (by decide)).trans <| (at1_keeps m c main_arg0 (by decide)).trans rfl
theorem at4_arg1 (c : Dev nD) : at4 m c main_arg1 = m ((c : Thread nD τ).loc main_arg1) :=
  (at4_rest m c main_arg1 (by decide)).trans <| (at3_keeps m c main_arg1 (by decide)).trans <| (at2_keeps m c main_arg1 (by decide) (by decide)).trans <| (at1_keeps m c main_arg1 (by decide)).trans rfl
theorem at4_arg2 (c : Dev nD) : at4 m c main_arg2 = m ((c : Thread nD τ).loc main_arg2) :=
  (at4_rest m c main_arg2 (by decide)).trans <| (at3_keeps m c main_arg2 (by decide)).trans <| (at2_keeps m c main_arg2 (by decide) (by decide)).trans <| (at1_keeps m c main_arg2 (by decide)).trans rfl
theorem at4_arg3 (c : Dev nD) : at4 m c main_arg3 = m ((c : Thread nD τ).loc main_arg3) :=
  (at4_input m c 0 rfl).trans <| (at3_keeps m c main_arg3 (by decide)).trans <| (at2_keeps m c main_arg3 (by decide) (by decide)).trans <| (at1_keeps m c main_arg3 (by decide)).trans rfl
theorem at4_arg4 (c : Dev nD) : at4 m c main_arg4 = m ((c : Thread nD τ).loc main_arg4) :=
  (at4_input m c 3 rfl).trans <| (at3_keeps m c main_arg4 (by decide)).trans <| (at2_keeps m c main_arg4 (by decide) (by decide)).trans <| (at1_keeps m c main_arg4 (by decide)).trans rfl
theorem at4_arg5 (c : Dev nD) : at4 m c main_arg5 = m ((c : Thread nD τ).loc main_arg5) :=
  (at4_rest m c main_arg5 (by decide)).trans <| (at3_keeps m c main_arg5 (by decide)).trans <| (at2_keeps m c main_arg5 (by decide) (by decide)).trans <| (at1_keeps m c main_arg5 (by decide)).trans rfl

theorem at6_arg0 (c : Dev nD) : at6 m c main_arg0 = m ((c : Thread nD τ).loc main_arg0) :=
  (at6_rest m c main_arg0 (by decide)).trans <| (at5_keeps m c main_arg0 (by decide)).trans (at4_arg0 m c)
theorem at6_arg1 (c : Dev nD) : at6 m c main_arg1 = m ((c : Thread nD τ).loc main_arg1) :=
  (at6_rest m c main_arg1 (by decide)).trans <| (at5_keeps m c main_arg1 (by decide)).trans (at4_arg1 m c)
theorem at6_arg2 (c : Dev nD) : at6 m c main_arg2 = m ((c : Thread nD τ).loc main_arg2) :=
  (at6_rest m c main_arg2 (by decide)).trans <| (at5_keeps m c main_arg2 (by decide)).trans (at4_arg2 m c)
theorem at6_arg3 (c : Dev nD) : at6 m c main_arg3 = m ((c : Thread nD τ).loc main_arg3) :=
  (at6_rest m c main_arg3 (by decide)).trans <| (at5_keeps m c main_arg3 (by decide)).trans (at4_arg3 m c)
theorem at6_arg4 (c : Dev nD) : at6 m c main_arg4 = m ((c : Thread nD τ).loc main_arg4) :=
  (at6_input m c 3 rfl).trans <| (at5_keeps m c main_arg4 (by decide)).trans (at4_arg4 m c)
theorem at6_arg5 (c : Dev nD) : at6 m c main_arg5 = m ((c : Thread nD τ).loc main_arg5) :=
  (at6_rest m c main_arg5 (by decide)).trans <| (at5_keeps m c main_arg5 (by decide)).trans (at4_arg5 m c)

/-- THE FRAME: every weakly fair execution of @main terminates, nothing faulting, with the six argument arrays as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (at6_arg0 m c),
     (h c _ (mem_uc main_arg1 (by decide))).trans (at6_arg1 m c),
     (h c _ (mem_uc main_arg2 (by decide))).trans (at6_arg2 m c),
     (h c _ (mem_uc main_arg3 (by decide))).trans (at6_arg3 m c),
     (h c _ (mem_uc main_arg4 (by decide))).trans (at6_arg4 m c),
     (h c _ (mem_uc main_arg5 (by decide))).trans (at6_arg5 m c)⟩) (run m ρ)

/-- The same run, also naming what the result buffer ends at: the third step's accumulator array. -/
theorem run_result (ρ : Dev nD → PrngReg) :
    θ_run defs (onTc (τ := τ) (main (F := F))) ⟨m, fun _ => 0, ρ⟩ (fun r => ∀ c : Dev nD,
      r.2.mem ((c.tc : Thread nD τ).loc main_v43_1) = at6 m c main_v43_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v43_1 (by decide)),
     (h c _ (mem_uc main_arg0 (by decide))).trans (at6_arg0 m c),
     (h c _ (mem_uc main_arg1 (by decide))).trans (at6_arg1 m c),
     (h c _ (mem_uc main_arg2 (by decide))).trans (at6_arg2 m c),
     (h c _ (mem_uc main_arg3 (by decide))).trans (at6_arg3 m c),
     (h c _ (mem_uc main_arg4 (by decide))).trans (at6_arg4 m c),
     (h c _ (mem_uc main_arg5 (by decide))).trans (at6_arg5 m c)⟩) (run m ρ)

/-! ## What the stretches compute -/

/-- The first stretch leaves L·H in the buffer the first step reads it from, -/
theorem at1_lap (c : Dev nD) :
    at1 m c main_v14 = spmm (at0 m c main_arg0) (at0 m c main_arg1) (at0 m c main_arg2) (at0 m c main_arg3) := by
  show StableHlo.after hostOps0 (at0 m c) (Proc.devRef .tc main_v14) = _
  after_results <;> rfl
/-- a zero matrix in both accumulator buffers, -/
theorem at1_zero (c : Dev nD) :
    at1 m c main_v1 = broadcastInDim S50000x96 ![] bcast_S_S50000x96 (constant (F := F) S_ .f32 0x00000000#32) := by
  show StableHlo.after hostOps0 (at0 m c) (Proc.devRef .tc main_v1) = _
  after_results <;> rfl
theorem at1_acc (c : Dev nD) : at1 m c main_v15_1 = at1 m c main_v1 := by
  rw [at1_zero]
  show StableHlo.after hostOps0 (at0 m c) (Proc.devRef .tc main_v15_1) = _
  after_results <;> rfl
/-- and the bias as a 1 × 96 row. -/
theorem at1_bias (c : Dev nD) :
    at1 m c main_v0 = shapeCast S1x96 (at0 m c main_arg5) shapeCasts_S96_S1x96 := by
  show StableHlo.after hostOps0 (at0 m c) (Proc.devRef .tc main_v0) = _
  after_results <;> rfl

/-- The second stretch leaves L·T1 (T1 where the first step wrote it) and carries the accumulator over. -/
theorem at3_lap (c : Dev nD) :
    at3 m c main_v28 = spmm (at2 m c main_arg0) (at2 m c main_arg1) (at2 m c main_arg2) (at2 m c main_v15_0) := by
  show StableHlo.after hostOps1 (at2 m c) (Proc.devRef .tc main_v28) = _
  after_results <;> rfl
theorem at3_acc (c : Dev nD) : at3 m c main_v29_1 = at2 m c main_v15_1 := by
  show StableHlo.after hostOps1 (at2 m c) (Proc.devRef .tc main_v29_1) = _
  after_results <;> rfl

/-- The third stretch leaves L·T2 and carries the accumulator over. -/
theorem at5_lap (c : Dev nD) :
    at5 m c main_v42 = spmm (at4 m c main_arg0) (at4 m c main_arg1) (at4 m c main_arg2) (at4 m c main_v29_0) := by
  show StableHlo.after hostOps2 (at4 m c) (Proc.devRef .tc main_v42) = _
  after_results <;> rfl
theorem at5_acc (c : Dev nD) : at5 m c main_v43_1 = at4 m c main_v29_1 := by
  show StableHlo.after hostOps2 (at4 m c) (Proc.devRef .tc main_v43_1) = _
  after_results <;> rfl

end Cert.KernelIdeal.Cheb

end
-- ==== Proof.Spec.lean ====
/-
  The Chebyshev graph convolution of order 3, index by index over the extended reals, in the two arrangements
  the two programs compute it in, for ANY map L on node-feature matrices (the sparse product X ↦ L·X: both
  programs apply the same one, so nothing about it is needed).

  With T0 = H, both compute  out = T0·W + T1·W + T2·W + T3·W + bias  where
      T1 = 2·L(T0) − T0,   T(k+1) = 2·(2·L(Tk) − Tk) − T(k−1).
  The reference spells the recurrence that way (a product by 2 and a difference, twice). The kernel spells each
  new term as ONE three-term combination with folded coefficients,
      T1 = 2·L(H) + (−1)·H + 0·H,   T(k+1) = 4·L(Tk) + (−2)·Tk + (−1)·T(k−1),
  starts the accumulator from a zero matrix, and adds T1·W before T0·W. On the extended reals the two
  agree at every entry, infinite ones included: a product by a non-negative real distributes over any sum
  of extended reals, (−c)·x = −(c·x), 0·x = 0, and sums commute.
-/
import Idealize.ShloMosaic.PureOps.Ideal
import Idealize.ShloMosaic.PureOps.Ideal.Laws
import Idealize.ShloMosaic.Lib.ValueIdx

noncomputable section

namespace Cert.Cheb

open Idealize.ShloMosaic

/-- 50000 nodes × 96 features; the 96 × 96 weights; the bias as a 1 × 96 row and as a vector. -/
abbrev Nodes : Shape := ⟨2, ![50000, 96]⟩
abbrev Sq : Shape := ⟨2, ![96, 96]⟩
abbrev Row : Shape := ⟨2, ![1, 96]⟩
abbrev Vec96 : Shape := ⟨1, ![96]⟩
abbrev Mat : Type := Nodes.Idx → EReal

/-- Entry (i₀, k) of a node matrix, entry (k, i₁) of the weights, entry (0, i₁) of the bias row, entry i₁ of the bias. -/
abbrev lix (i : Nodes.Idx) (k : Fin 96) : Nodes.Idx := fun a => match a with
  | ⟨0, _⟩ => ⟨(i 0).val, (i 0).isLt⟩
  | ⟨1, _⟩ => ⟨k.val, k.isLt⟩
abbrev rix (i : Nodes.Idx) (k : Fin 96) : Sq.Idx := fun a => match a with
  | ⟨0, _⟩ => ⟨k.val, k.isLt⟩
  | ⟨1, _⟩ => ⟨(i 1).val, (i 1).isLt⟩
abbrev bix (i : Nodes.Idx) : Row.Idx := fun a => match a with
  | ⟨0, _⟩ => ⟨0, Nat.one_pos⟩
  | ⟨1, _⟩ => ⟨(i 1).val, (i 1).isLt⟩
abbrev qix (i : Nodes.Idx) : Vec96.Idx := fun a => match a with
  | ⟨0, _⟩ => ⟨(i 1).val, (i 1).isLt⟩

/-- (X·W) at entry i: the sum over the 96 features. -/
def mm (X : Mat) (Wt : Sq.Idx → EReal) : Mat := fun i => ∑ k : Fin 96, X (lix i k) * Wt (rix i k)

/-- The float constants the two programs spell, as the words they print: 0, 2, 4, −1, −2. -/
abbrev c0 : EReal := Ideal.ofBits .f32 0x00000000#32
abbrev c2 : EReal := Ideal.ofBits .f32 0x40000000#32
abbrev c4 : EReal := Ideal.ofBits .f32 0x40800000#32
abbrev cm1 : EReal := Ideal.ofBits .f32 0xBF800000#32
abbrev cm2 : EReal := Ideal.ofBits .f32 0xC0000000#32

theorem c0_eq : c0 = 0 := by simp [Ideal.ofBits, Ideal.ieee]
theorem c2_eq : c2 = ((2 : ℝ) : EReal) := by
  simp [Ideal.ofBits, Ideal.ieee, -EReal.coe_mul]; norm_num
theorem c4_eq : c4 = ((4 : ℝ) : EReal) := by
  simp [Ideal.ofBits, Ideal.ieee, -EReal.coe_mul]; norm_num
theorem cm1_eq : cm1 = ((-1 : ℝ) : EReal) := by
  simp [Ideal.ofBits, Ideal.ieee, -EReal.coe_mul]; norm_num
theorem cm2_eq : cm2 = ((-2 : ℝ) : EReal) := by
  simp [Ideal.ofBits, Ideal.ieee, -EReal.coe_mul]; norm_num

/-- The kernels' one shape of new term: a·X + b·Y + c·Z, entry by entry, grouped as the body adds it. -/
def comb3 (a b c : EReal) (X Y Z : Mat) : Mat := fun i => (a * X i + b * Y i) + c * Z i

variable (L : Mat → Mat)

/-! ## The kernel's arrangement -/

/-- The first new term, as the first kernel call combines it: 2·L(H) + (−1)·H + 0·H. -/
def kTerm1 (H : Mat) : Mat := comb3 c2 cm1 c0 (L H) H H
/-- A later term from the two before it: 4·L(Tp) + (−2)·Tp + (−1)·Tpp. -/
def kTermN (Tp Tpp : Mat) : Mat := comb3 c4 cm2 cm1 (L Tp) Tp Tpp
/-- The accumulator after the three calls: from zero, T1·W then H·W, then T2·W, then T3·W and the bias row. -/
def kOut (H : Mat) (Wt : Sq.Idx → EReal) (b : Vec96.Idx → EReal) : Mat := fun i =>
  ((((c0 + mm (kTerm1 L H) Wt i) + mm H Wt i) + mm (kTermN L (kTerm1 L H) H) Wt i)
    + mm (kTermN L (kTermN L (kTerm1 L H) H) (kTerm1 L H)) Wt i) + b (qix i)

/-! ## The reference's arrangement -/

def rTerm1 (H : Mat) : Mat := fun i => c2 * L H i - H i
def rTermN (Tp Tpp : Mat) : Mat := fun i => c2 * (c2 * L Tp i - Tp i) - Tpp i
def rOut (H : Mat) (Wt : Sq.Idx → EReal) (b : Vec96.Idx → EReal) : Mat := fun i =>
  (((mm H Wt i + mm (rTerm1 L H) Wt i) + mm (rTermN L (rTerm1 L H) H) Wt i)
    + mm (rTermN L (rTermN L (rTerm1 L H) H) (rTerm1 L H)) Wt i) + b (qix i)

/-! ## They agree -/

/-- (−1)·x = −x on the extended reals. -/
private theorem negOne_mul (x : EReal) : ((-1 : ℝ) : EReal) * x = -x := by
  rw [EReal.coe_neg, EReal.coe_one, neg_mul, one_mul]

/-- (4·s + (−2)·t) + (−1)·h = 2·(2·s − t) − h for all extended reals: the product by the finite
    non-negative 2 distributes over the difference, 2·(2·s) = 4·s, and (−c)·x = −(c·x). -/
private theorem fold_eq (s t h : EReal) :
    (((4 : ℝ) : EReal) * s + ((-2 : ℝ) : EReal) * t) + ((-1 : ℝ) : EReal) * h
      = ((2 : ℝ) : EReal) * (((2 : ℝ) : EReal) * s - t) - h := by
  have h2 : (0 : EReal) ≤ ((2 : ℝ) : EReal) := by exact_mod_cast (by norm_num : (0 : ℝ) ≤ 2)
  have h4 : ((2 : ℝ) : EReal) * (((2 : ℝ) : EReal) * s) = ((4 : ℝ) : EReal) * s := by
    rw [← mul_assoc, ← EReal.coe_mul]; norm_num
  rw [EReal.mul_sub_of_nonneg_of_ne_top h2 (EReal.coe_ne_top 2), h4, negOne_mul,
    EReal.coe_neg, neg_mul, ← sub_eq_add_neg, ← sub_eq_add_neg]

theorem kTerm1_eq (H : Mat) : kTerm1 L H = rTerm1 L H := by
  funext i
  unfold kTerm1 rTerm1 comb3
  rw [c0_eq, cm1_eq, negOne_mul, zero_mul, add_zero, ← sub_eq_add_neg]
theorem kTermN_eq (Tp Tpp : Mat) : kTermN L Tp Tpp = rTermN L Tp Tpp := by
  funext i
  unfold kTermN rTermN comb3
  rw [c4_eq, cm2_eq, cm1_eq, c2_eq]
  exact fold_eq _ _ _
theorem kOut_eq (H : Mat) (Wt : Sq.Idx → EReal) (b : Vec96.Idx → EReal) : kOut L H Wt b = rOut L H Wt b := by
  funext i
  unfold kOut rOut
  rw [kTerm1_eq L H, kTermN_eq L (rTerm1 L H) H, kTermN_eq L (rTermN L (rTerm1 L H) H) (rTerm1 L H),
    c0_eq, zero_add, add_comm (mm (rTerm1 L H) Wt i) (mm H Wt i)]

end Cert.Cheb

end
-- ==== Proof.KI.PayAt.lean ====
/-
  The two values each Chebyshev-step kernel stores, read at one entry (p, q) of the 2000 × 96 block, over the
  extended reals: the new term is a three-term combination of the same entry of three input blocks; the new
  accumulator is the incoming entry plus the sum over the 96 features of the new term's row p times the
  weights' column q (the matrix unit's product into a zero accumulator is that sum, and narrowing the operands
  to bf16 changes nothing there), plus, in the first step, the same sum for the previous term's row, and, in the
  last step, the bias row's entry q.
-/
import proofs.«134689_j88055419503321_1_alg».proof.Proof.KI.Pay
import proofs.«134689_j88055419503321_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Cheb

open Idealize.ShloMosaic Idealize.ShloMosaic.ValueIdx Cert.KernelIdeal Cert.KernelIdeal.Gen Cert.Cheb

theorem term0_at (x0 x1 x2 : Vec Ideal S2000x96 .f32) (p : Fin 2000) (q : Fin 96) :
    term0 (F := Ideal) x0 x1 x2 (ix2 p q) = (c2 * x2 (ix2 p q) + cm1 * x1 (ix2 p q)) + c0 * x0 (ix2 p q) := by
  unfold term0 k0_pay1
  simp only [shapeCast_self]
  rfl

theorem term1_at (x0 x1 x2 : Vec Ideal S2000x96 .f32) (p : Fin 2000) (q : Fin 96) :
    term1 (F := Ideal) x0 x1 x2 (ix2 p q) = (c4 * x2 (ix2 p q) + cm2 * x1 (ix2 p q)) + cm1 * x0 (ix2 p q) := by
  unfold term1 k1_pay1
  simp only [shapeCast_self]
  rfl

theorem term2_at (x0 x1 x2 : Vec Ideal S2000x96 .f32) (p : Fin 2000) (q : Fin 96) :
    term2 (F := Ideal) x0 x1 x2 (ix2 p q) = (c4 * x2 (ix2 p q) + cm2 * x1 (ix2 p q)) + cm1 * x0 (ix2 p q) := by
  unfold term2 k2_pay1
  simp only [shapeCast_self]
  rfl

/-- The left operand's index at output (i₀, i₁) and contraction index k: its row is i₀ … -/
private theorem lhs_mm_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- … and its column is k. -/
private theorem lhs_mm_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- The right operand's index there: its row is k … -/
private theorem rhs_mm_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- … and its column is i₁. -/
private theorem rhs_mm_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The 2000 × 96 by 96 × 96 product into the zero matrix, at entry (p, q): the sum over the 96 features of row p
    of the left operand times column q of the right one. -/
private theorem mm_at {φ₁ φ₂ : FTy} (a : FVec Ideal S2000x96 φ₁) (b : FVec Ideal S96x96 φ₂) (p : Fin 2000) (q : Fin 96) :
    matmul (F := Ideal) dot_S2000x96_S96x96_S2000x96_1_0_0_1_n_n none a b (constant (F := Ideal) S2000x96 .f32 0x00000000#32) (ix2 p q)
      = ∑ k : Fin 96, a (ix2 p k) * b (ix2 k q) := by
  refine (Ideal.matmul_constant_zero_apply dot_S2000x96_S96x96_S2000x96_1_0_0_1_n_n none a b (ix2 p q)).trans ?_
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx (ix2 p q) ((ValueIdx.contrEquiv1 dot_S2000x96_S96x96_S2000x96_1_0_0_1_n_n 96 rfl rfl).symm k) = ix2 p k := funext fun a => Fin.ext (by
    match a with
    | ⟨0, _⟩ => exact lhs_mm_0 _ _
    | ⟨1, _⟩ => exact (lhs_mm_1 _ _).trans hk)
  have er : dot_S2000x96_S96x96_S2000x96_1_0_0_1_n_n.rhsIdx (ix2 p q) ((ValueIdx.contrEquiv1 dot_S2000x96_S96x96_S2000x96_1_0_0_1_n_n 96 rfl rfl).symm k) = ix2 k q := funext fun a => Fin.ext (by
    match a with
    | ⟨0, _⟩ => exact (rhs_mm_0 _ _).trans hk
    | ⟨1, _⟩ => exact rhs_mm_1 _ _)
  rw [el, er]

theorem acc0_at (x0 x1 x2 : Vec Ideal S2000x96 .f32) (x3 : Vec Ideal S96x96 .f32) (x4 : Vec Ideal S1x96 .f32) (x5 : Vec Ideal S2000x96 .f32)
    (p : Fin 2000) (q : Fin 96) :
    acc0 (F := Ideal) x0 x1 x2 x3 x4 x5 (ix2 p q)
      = (x5 (ix2 p q) + ∑ k : Fin 96, term0 (F := Ideal) x0 x1 x2 (ix2 p k) * x3 (ix2 k q)) + ∑ k : Fin 96, x1 (ix2 p k) * x3 (ix2 k q) := by
  unfold acc0 k0_pay2
  simp only [shapeCast_self]
  refine (addf_apply _ _ _).trans ?_
  rw [mm_at]
  refine congrArg (· + _) ?_
  refine (addf_apply _ _ _).trans ?_
  rw [mm_at]
  rfl

theorem acc1_at (x0 x1 x2 : Vec Ideal S2000x96 .f32) (x3 : Vec Ideal S96x96 .f32) (x4 : Vec Ideal S1x96 .f32) (x5 : Vec Ideal S2000x96 .f32)
    (p : Fin 2000) (q : Fin 96) :
    acc1 (F := Ideal) x0 x1 x2 x3 x4 x5 (ix2 p q)
      = x5 (ix2 p q) + ∑ k : Fin 96, term1 (F := Ideal) x0 x1 x2 (ix2 p k) * x3 (ix2 k q) := by
  unfold acc1 k1_pay2
  simp only [shapeCast_self]
  refine (addf_apply _ _ _).trans ?_
  rw [mm_at]
  rfl

theorem acc2_at (x0 x1 x2 : Vec Ideal S2000x96 .f32) (x3 : Vec Ideal S96x96 .f32) (x4 : Vec Ideal S1x96 .f32) (x5 : Vec Ideal S2000x96 .f32)
    (p : Fin 2000) (q : Fin 96) :
    acc2 (F := Ideal) x0 x1 x2 x3 x4 x5 (ix2 p q)
      = (x5 (ix2 p q) + ∑ k : Fin 96, term2 (F := Ideal) x0 x1 x2 (ix2 p k) * x3 (ix2 k q)) + x4 (ix2 (0 : Fin 1) q) := by
  unfold acc2 k2_pay2
  simp only [shapeCast_self]
  refine (addf_apply _ _ _).trans ?_
  rw [broadcastTo_1b_ab_apply]
  refine congrArg (· + _) ?_
  refine (addf_apply _ _ _).trans ?_
  rw [mm_at]
  rfl

end Cert.KernelIdeal.Cheb

end
-- ==== Proof.KI.Whole0.lean ====
/-
  From blocks to arrays, for the first Chebyshev step (k = 1), where the term two steps back and the previous
  term are both H. The grid's 25 points write back 25 disjoint row blocks that tile each output array, and what
  point t writes is one function of the arrays' entries in the same rows: so after the call the new-term array
  is, entry by entry, 2·(L·H) + (−1)·H + 0·H, and the accumulator array is the incoming one plus the new term's
  product with the weights plus H's product with the weights.
-/
import proofs.«134689_j88055419503321_1_alg».proof.Proof.KI.Step0
import proofs.«134689_j88055419503321_1_alg».proof.Proof.KI.PayAt
import Idealize.ShloMosaic.Lib.Pipeline.Value
import Idealize.ShloMosaic.Lib.ValueIdx

set_option maxRecDepth 16384

noncomputable section

namespace Cert.KernelIdeal.Cheb

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Cheb

variable (V : (c : Dev nD) → (b : Ref sig .tc) → Buf (Elt Ideal) ((c : Thread nD τ).loc b))

/-- The arrays the call is entered with, as node matrices: the term two steps back (window 0), the previous term
    (window 1), its sparse product (window 2), the incoming accumulator (window 5). -/
abbrev back0 (c : Dev nD) : Mat := V c main_arg3
abbrev prev0 (c : Dev nD) : Mat := V c main_arg3
abbrev lap0 (c : Dev nD) : Mat := V c main_v14
abbrev accIn0 (c : Dev nD) : Mat := V c main_v1
/-- The weights (window 3). -/
abbrev wts0 (c : Dev nD) : Sq.Idx → EReal := V c main_arg4

/-- Every tile of the body sits at offset zero of its block. -/
private theorem zeroOff0 : (![0, 0] : Fin 2 → Nat) = fun _ => 0 := funext fun a => by
  match a with
  | ⟨0, _⟩ => rfl
  | ⟨1, _⟩ => rfl

/-- The printed index maps, decided over the grid: at point t the six row-blocked windows are at block (t, 0) and
    the weights at block (0, 0). -/
private theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry (p, q) of window 2's block at point t is the array's entry in row 2000·t + p, column q. -/
private theorem lapBlk0_at (c : Dev nD) (t : Fin cfg0.N) (p : Fin 2000) (q : Fin 96) (i : Nodes.Idx)
    (h0 : (i 0).val = t.val * 2000 + p.val) (h1 : (i 1).val = q.val) :
    (blkOf0 (F := Ideal) V c 2 t : Vec Ideal S2000x96 .f32) (ix2 p q) = lap0 V c i := by
  obtain ⟨-, -, -, -, e0, e1, -⟩ := blockIdx0 t
  show V c main_v14 (((cfg0.win 2).blk t).view.emb (ix2 p q)) = V c main_v14 i
  congr 1
  funext a
  apply Fin.ext
  match a with
  | ⟨0, _⟩ => show win0_2.index t (0 : Fin 2) * 2000 + 1 * p.val = (i 0).val; omega
  | ⟨1, _⟩ => show win0_2.index t (1 : Fin 2) * 96 + 1 * q.val = (i 1).val; omega

/-- Entry (p, q) of window 1's block at point t, likewise. -/
private theorem prevBlk0_at (c : Dev nD) (t : Fin cfg0.N) (p : Fin 2000) (q : Fin 96) (i : Nodes.Idx)
    (h0 : (i 0).val = t.val * 2000 + p.val) (h1 : (i 1).val = q.val) :
    (blkOf0 (F := Ideal) V c 1 t : Vec Ideal S2000x96 .f32) (ix2 p q) = prev0 V c i := by
  obtain ⟨-, -, e0, e1, -⟩ := blockIdx0 t
  show V c main_arg3 (((cfg0.win 1).blk t).view.emb (ix2 p q)) = V c main_arg3 i
  congr 1
  funext a
  apply Fin.ext
  match a with
  | ⟨0, _⟩ => show win0_1.index t (0 : Fin 2) * 2000 + 1 * p.val = (i 0).val; omega
  | ⟨1, _⟩ => show win0_1.index t (1 : Fin 2) * 96 + 1 * q.val = (i 1).val; omega

/-- Entry (p, q) of window 0's block at point t, likewise. -/
private theorem backBlk0_at (c : Dev nD) (t : Fin cfg0.N) (p : Fin 2000) (q : Fin 96) (i : Nodes.Idx)
    (h0 : (i 0).val = t.val * 2000 + p.val) (h1 : (i 1).val = q.val) :
    (blkOf0 (F := Ideal) V c 0 t : Vec Ideal S2000x96 .f32) (ix2 p q) = back0 V c i := by
  obtain ⟨e0, e1, -⟩ := blockIdx0 t
  show V c main_arg3 (((cfg0.win 0).blk t).view.emb (ix2 p q)) = V c main_arg3 i
  congr 1
  funext a
  apply Fin.ext
  match a with
  | ⟨0, _⟩ => show win0_0.index t (0 : Fin 2) * 2000 + 1 * p.val = (i 0).val; omega
  | ⟨1, _⟩ => show win0_0.index t (1 : Fin 2) * 96 + 1 * q.val = (i 1).val; omega

/-- Entry (p, q) of window 5's block at point t, likewise. -/
private theorem accBlk0_at (c : Dev nD) (t : Fin cfg0.N) (p : Fin 2000) (q : Fin 96) (i : Nodes.Idx)
    (h0 : (i 0).val = t.val * 2000 + p.val) (h1 : (i 1).val = q.val) :
    (blkOf0 (F := Ideal) V c 5 t : Vec Ideal S2000x96 .f32) (ix2 p q) = accIn0 V c i := by
  obtain ⟨-, -, -, -, -, -, -, -, e0, e1, -⟩ := blockIdx0 t
  show V c main_v1 (((cfg0.win 5).blk t).view.emb (ix2 p q)) = V c main_v1 i
  congr 1
  funext a
  apply Fin.ext
  match a with
  | ⟨0, _⟩ => show win0_5.index t (0 : Fin 2) * 2000 + 1 * p.val = (i 0).val; omega
  | ⟨1, _⟩ => show win0_5.index t (1 : Fin 2) * 96 + 1 * q.val = (i 1).val; omega

/-- The weights' one block is the whole array: its entry (k, q) is the array's. -/
private theorem wtsBlk0_at (c : Dev nD) (t : Fin cfg0.N) (k q : Fin 96) (j : Sq.Idx)
    (h0 : (j 0).val = k.val) (h1 : (j 1).val = q.val) :
    (blkOf0 (F := Ideal) V c 3 t : Vec Ideal S96x96 .f32) (ix2 k q) = wts0 V c j := by
  obtain ⟨-, -, -, -, -, -, e0, e1, -⟩ := blockIdx0 t
  show V c main_arg4 (((cfg0.win 3).blk t).view.emb (ix2 k q)) = V c main_arg4 j
  congr 1
  funext a
  apply Fin.ext
  match a with
  | ⟨0, _⟩ => show win0_3.index t (0 : Fin 2) * 96 + 1 * k.val = (j 0).val; omega
  | ⟨1, _⟩ => show win0_3.index t (1 : Fin 2) * 96 + 1 * q.val = (j 1).val; omega

/-- Where entry (p, q) of the new term's block at point t lands in its array: row 2000·t + p, column q. -/
private theorem termRow0 (t : Fin cfg0.N) (p : Fin 2000) (q : Fin 96) :
    ((((cfg0.win 6).blk t).view.emb (ix2 p q)) (0 : Fin 2)).val = t.val * 2000 + p.val
    ∧ ((((cfg0.win 6).blk t).view.emb (ix2 p q)) (1 : Fin 2)).val = q.val := by
  obtain ⟨-, -, -, -, -, -, -, -, -, -, e0, e1, -⟩ := blockIdx0 t
  constructor
  · show win0_6.index t (0 : Fin 2) * 2000 + 1 * p.val = _; omega
  · show win0_6.index t (1 : Fin 2) * 96 + 1 * q.val = _; omega

/-- The same for the accumulator's block. -/
private theorem accRow0 (t : Fin cfg0.N) (p : Fin 2000) (q : Fin 96) :
    ((((cfg0.win 7).blk t).view.emb (ix2 p q)) (0 : Fin 2)).val = t.val * 2000 + p.val
    ∧ ((((cfg0.win 7).blk t).view.emb (ix2 p q)) (1 : Fin 2)).val = q.val := by
  obtain ⟨-, -, -, -, -, -, -, -, -, -, -, -, e0, e1⟩ := blockIdx0 t
  constructor
  · show win0_7.index t (0 : Fin 2) * 2000 + 1 * p.val = _; omega
  · show win0_7.index t (1 : Fin 2) * 96 + 1 * q.val = _; omega

/-- The stored new term at entry (p, q): the three-term combination of the same entry of the three blocks. -/
private theorem newTerm0_at (x0 x1 x2 : Vec Ideal S2000x96 .f32) (p : Fin 2000) (q : Fin 96) :
    newTerm0 (F := Ideal) x0 x1 x2 (ix2 p q) = (c2 * x2 (ix2 p q) + cm1 * x1 (ix2 p q)) + c0 * x0 (ix2 p q) := by
  unfold newTerm0
  rw [View.canon_unit_zero zeroOff0]
  simp only [View.ld_unit_zero (S := S2000x96) zeroOff0]
  exact term0_at x0 x1 x2 p q

/-- What point t writes back of the new term is block t of the three-term combination of the entry arrays. -/
private theorem flushedTerm0 (c : Dev nD) (t : Fin cfg0.N) :
    (stepDat0 (F := Ideal) V c).flushed 6 t
      = ((cfg0.win 6).blk t).view.read (Elt Ideal) (comb3 c2 cm1 c0 (lap0 V c) (prev0 V c) (back0 V c)) := by
  show (cfg0.win 6).cut (grid0.coords t) ((stepDat0 V c).after 6 t) = _
  rw [left0_6]
  funext y
  obtain ⟨p, q, rfl⟩ : ∃ (p : Fin 2000) (q : Fin 96), y = ix2 p q := ⟨y 0, y 1, eq_ix2 y⟩
  obtain ⟨r0, r1⟩ := termRow0 t p q
  show newTerm0 (F := Ideal) (blkOf0 V c 0 t) (blkOf0 V c 1 t) (blkOf0 V c 2 t) (ix2 p q)
    = comb3 c2 cm1 c0 (lap0 V c) (prev0 V c) (back0 V c) (((cfg0.win 6).blk t).view.emb (ix2 p q))
  rw [newTerm0_at]
  unfold comb3
  rw [lapBlk0_at V c t p q _ r0 r1, prevBlk0_at V c t p q _ r0 r1, backBlk0_at V c t p q _ r0 r1]

/-- An index of the new-term array is in point t's block iff each coordinate is in the block's range. -/
private theorem mem_termBlk0 (t : Fin cfg0.N) (i : S50000x96.Idx) :
    i ∈ ((cfg0.win 6).blk t).view.set ↔ ∀ a : Fin 2, win0_6.index t a * S2000x96.size a ≤ (i a).val ∧ (i a).val < win0_6.index t a * S2000x96.size a + S2000x96.size a := by
  show i ∈ ((View.whole main_v15_0).slice (win0_6.rect t)).set ↔ _
  rw [View.set_slice_whole, Rect.mem_set_unit]
  exact Iff.rfl

/-- Row r of the new-term array is written by point r / 2000: the 25 blocks tile the array. -/
private theorem termCover0 (i : S50000x96.Idx) :
    ∃ t : Fin cfg0.N, (cfg0.win 6).flush t = true ∧ i ∈ ((cfg0.win 6).blk t).view.set := by
  have hi0 : (i 0).val < 50000 := (i 0).isLt
  have hi1 : (i 1).val < 96 := (i 1).isLt
  have hN : (i 0).val / 2000 < cfg0.N := by show _ < 25; omega
  refine ⟨⟨(i 0).val / 2000, hN⟩, flush0_6 _, ?_⟩
  obtain ⟨-, -, -, -, -, -, -, -, -, -, e0, e1, -⟩ := blockIdx0 ⟨(i 0).val / 2000, hN⟩
  rw [mem_termBlk0]
  intro a
  match a with
  | ⟨0, _⟩ => show win0_6.index ⟨(i 0).val / 2000, hN⟩ (0 : Fin 2) * 2000 ≤ (i 0).val ∧ (i 0).val < win0_6.index ⟨(i 0).val / 2000, hN⟩ (0 : Fin 2) * 2000 + 2000
              rw [e0]; show (i 0).val / 2000 * 2000 ≤ (i 0).val ∧ (i 0).val < (i 0).val / 2000 * 2000 + 2000; omega
  | ⟨1, _⟩ => show win0_6.index ⟨(i 0).val / 2000, hN⟩ (1 : Fin 2) * 96 ≤ (i 1).val ∧ (i 1).val < win0_6.index ⟨(i 0).val / 2000, hN⟩ (1 : Fin 2) * 96 + 96
              rw [e1]; omega

/-- After the call the new-term array (window 6) is the three-term combination of the entry arrays of windows
    2, 1 and 0, at every entry. -/
theorem wholeTerm0 (c : Dev nD) :
    ((stepDat0 (F := Ideal) V c).arrAt 6 cfg0.N : Mat)
      = comb3 c2 cm1 c0 (lap0 V c) (prev0 V c) (back0 V c) :=
  (stepDat0 (F := Ideal) V c).arrAt_eq_of_cover 6 (comb3 c2 cm1 c0 (lap0 V c) (prev0 V c) (back0 V c))
    (fun t _ => flushedTerm0 V c t) termCover0

/-- The stored accumulator at entry (p, q): the incoming block's entry, plus the sum over the 96 features of the
    new term's row p (the three-term combination of the blocks' rows p) times the weights' column q, plus the same
    sum for row p of the previous term's block. -/
private theorem newAcc0_at (x0 x1 x2 : Vec Ideal S2000x96 .f32) (x3 : Vec Ideal S96x96 .f32) (x4 : Vec Ideal S1x96 .f32)
    (x5 : Vec Ideal S2000x96 .f32) (p : Fin 2000) (q : Fin 96) :
    newAcc0 (F := Ideal) x0 x1 x2 x3 x4 x5 (ix2 p q)
      = (x5 (ix2 p q) + ∑ k : Fin 96, ((c2 * x2 (ix2 p k) + cm1 * x1 (ix2 p k)) + c0 * x0 (ix2 p k)) * x3 (ix2 k q))
        + ∑ k : Fin 96, x1 (ix2 p k) * x3 (ix2 k q) := by
  unfold newAcc0
  rw [View.canon_unit_zero zeroOff0]
  simp only [View.ld_unit_zero (S := S2000x96) zeroOff0, View.ld_unit_zero (S := S96x96) zeroOff0,
    View.ld_unit_zero (S := S1x96) zeroOff0]
  refine (acc0_at x0 x1 x2 x3 x4 x5 p q).trans ?_
  congr 2
  exact Finset.sum_congr rfl fun k _ => congrArg (· * x3 (ix2 k q)) (term0_at x0 x1 x2 p k)

/-- What point t writes back of the accumulator is block t of the incoming accumulator plus the product of the
    new term with the weights plus the product of the previous term with the weights: row 2000·t + p of either
    product needs only row 2000·t + p of its left factor, which is row p of point t's blocks, and the weights'
    block is the whole matrix. -/
private theorem flushedAcc0 (c : Dev nD) (t : Fin cfg0.N) :
    (stepDat0 (F := Ideal) V c).flushed 7 t
      = ((cfg0.win 7).blk t).view.read (Elt Ideal)
          ((fun i => (accIn0 V c i + mm (comb3 c2 cm1 c0 (lap0 V c) (prev0 V c) (back0 V c)) (wts0 V c) i)
            + mm (prev0 V c) (wts0 V c) i) : Mat) := by
  show (cfg0.win 7).cut (grid0.coords t) ((stepDat0 V c).after 7 t) = _
  rw [left0_7]
  funext y
  obtain ⟨p, q, rfl⟩ : ∃ (p : Fin 2000) (q : Fin 96), y = ix2 p q := ⟨y 0, y 1, eq_ix2 y⟩
  obtain ⟨r0, r1⟩ := accRow0 t p q
  show newAcc0 (F := Ideal) (blkOf0 V c 0 t) (blkOf0 V c 1 t) (blkOf0 V c 2 t) (blkOf0 V c 3 t) (blkOf0 V c 4 t) (blkOf0 V c 5 t) (ix2 p q)
    = (accIn0 V c (((cfg0.win 7).blk t).view.emb (ix2 p q))
      + mm (comb3 c2 cm1 c0 (lap0 V c) (prev0 V c) (back0 V c)) (wts0 V c) (((cfg0.win 7).blk t).view.emb (ix2 p q)))
      + mm (prev0 V c) (wts0 V c) (((cfg0.win 7).blk t).view.emb (ix2 p q))
  rw [newAcc0_at]
  unfold mm comb3
  refine congrArg₂ (· + ·) (congrArg₂ (· + ·) (accBlk0_at V c t p q _ r0 r1) ?_) ?_
  · refine Finset.sum_congr rfl fun k _ => ?_
    rw [lapBlk0_at V c t p k (lix (((cfg0.win 7).blk t).view.emb (ix2 p q)) k) r0 rfl,
      prevBlk0_at V c t p k (lix (((cfg0.win 7).blk t).view.emb (ix2 p q)) k) r0 rfl,
      backBlk0_at V c t p k (lix (((cfg0.win 7).blk t).view.emb (ix2 p q)) k) r0 rfl,
      wtsBlk0_at V c t k q (rix (((cfg0.win 7).blk t).view.emb (ix2 p q)) k) rfl r1]
  · refine Finset.sum_congr rfl fun k _ => ?_
    rw [prevBlk0_at V c t p k (lix (((cfg0.win 7).blk t).view.emb (ix2 p q)) k) r0 rfl,
      wtsBlk0_at V c t k q (rix (((cfg0.win 7).blk t).view.emb (ix2 p q)) k) rfl r1]

/-- An index of the accumulator array is in point t's block iff each coordinate is in the block's range. -/
private theorem mem_accBlk0 (t : Fin cfg0.N) (i : S50000x96.Idx) :
    i ∈ ((cfg0.win 7).blk t).view.set ↔ ∀ a : Fin 2, win0_7.index t a * S2000x96.size a ≤ (i a).val ∧ (i a).val < win0_7.index t a * S2000x96.size a + S2000x96.size a := by
  show i ∈ ((View.whole main_v15_1).slice (win0_7.rect t)).set ↔ _
  rw [View.set_slice_whole, Rect.mem_set_unit]
  exact Iff.rfl

/-- Row r of the accumulator array is written by point r / 2000: the 25 blocks tile the array. -/
private theorem accCover0 (i : S50000x96.Idx) :
    ∃ t : Fin cfg0.N, (cfg0.win 7).flush t = true ∧ i ∈ ((cfg0.win 7).blk t).view.set := by
  have hi0 : (i 0).val < 50000 := (i 0).isLt
  have hi1 : (i 1).val < 96 := (i 1).isLt
  have hN : (i 0).val / 2000 < cfg0.N := by show _ < 25; omega
  refine ⟨⟨(i 0).val / 2000, hN⟩, flush0_7 _, ?_⟩
  obtain ⟨-, -, -, -, -, -, -, -, -, -, -, -, e0, e1⟩ := blockIdx0 ⟨(i 0).val / 2000, hN⟩
  rw [mem_accBlk0]
  intro a
  match a with
  | ⟨0, _⟩ => show win0_7.index ⟨(i 0).val / 2000, hN⟩ (0 : Fin 2) * 2000 ≤ (i 0).val ∧ (i 0).val < win0_7.index ⟨(i 0).val / 2000, hN⟩ (0 : Fin 2) * 2000 + 2000
              rw [e0]; show (i 0).val / 2000 * 2000 ≤ (i 0).val ∧ (i 0).val < (i 0).val / 2000 * 2000 + 2000; omega
  | ⟨1, _⟩ => show win0_7.index ⟨(i 0).val / 2000, hN⟩ (1 : Fin 2) * 96 ≤ (i 1).val ∧ (i 1).val < win0_7.index ⟨(i 0).val / 2000, hN⟩ (1 : Fin 2) * 96 + 96
              rw [e1]; omega

/-- After the call the accumulator array (window 7), at every entry. -/
theorem wholeAcc0 (c : Dev nD) :
    ((stepDat0 (F := Ideal) V c).arrAt 7 cfg0.N : Mat)
      = fun i => (accIn0 V c i + mm (comb3 c2 cm1 c0 (lap0 V c) (prev0 V c) (back0 V c)) (wts0 V c) i) + mm (prev0 V c) (wts0 V c) i :=
  (stepDat0 (F := Ideal) V c).arrAt_eq_of_cover 7
    ((fun i => (accIn0 V c i + mm (comb3 c2 cm1 c0 (lap0 V c) (prev0 V c) (back0 V c)) (wts0 V c) i)
      + mm (prev0 V c) (wts0 V c) i) : Mat)
    (fun t _ => flushedAcc0 V c t) accCover0

end Cert.KernelIdeal.Cheb

end
-- ==== Proof.KI.Whole1.lean ====
/-
  From blocks to arrays, for the second Chebyshev step (k = 2). The grid's 25 points write back 25 disjoint
  row blocks that tile each output array, and what point t writes is one function of the arrays' entries in
  the same rows: so after the call the new-term array is, entry by entry, 4·(L·T1) − 2·T1 − H of the arrays
  the call was entered with, and the accumulator array is the incoming one plus the new term's product with
  the weights (row i of the product needs only row i of the new term, which lies in one block).
-/
import proofs.«134689_j88055419503321_1_alg».proof.Proof.KI.Step1
import proofs.«134689_j88055419503321_1_alg».proof.Proof.KI.PayAt
import Idealize.ShloMosaic.Lib.Pipeline.Value
import Idealize.ShloMosaic.Lib.ValueIdx

set_option maxRecDepth 16384

noncomputable section

namespace Cert.KernelIdeal.Cheb

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Cheb

variable (V : (c : Dev nD) → (b : Ref sig .tc) → Buf (Elt Ideal) ((c : Thread nD τ).loc b))

/-- The arrays the call is entered with, as node matrices: the term two steps back (window 0), the previous term
    (window 1), its sparse product (window 2), the incoming accumulator (window 5). -/
abbrev back1 (c : Dev nD) : Mat := V c main_arg3
abbrev prev1 (c : Dev nD) : Mat := V c main_v15_0
abbrev lap1 (c : Dev nD) : Mat := V c main_v28
abbrev accIn1 (c : Dev nD) : Mat := V c main_v15_1
/-- The weights (window 3). -/
abbrev wts1 (c : Dev nD) : Sq.Idx → EReal := V c main_arg4

/-- Every tile of the body sits at offset zero of its block. -/
private theorem zeroOff1 : (![0, 0] : Fin 2 → Nat) = fun _ => 0 := funext fun a => by
  match a with
  | ⟨0, _⟩ => rfl
  | ⟨1, _⟩ => rfl

/-- The printed index maps, decided over the grid: at point t the six row-blocked windows are at block (t, 0) and
    the weights at block (0, 0). -/
private theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Entry (p, q) of window 2's block at point t is the array's entry in row 2000·t + p, column q. -/
private theorem lapBlk1_at (c : Dev nD) (t : Fin cfg1.N) (p : Fin 2000) (q : Fin 96) (i : Nodes.Idx)
    (h0 : (i 0).val = t.val * 2000 + p.val) (h1 : (i 1).val = q.val) :
    (blkOf1 (F := Ideal) V c 2 t : Vec Ideal S2000x96 .f32) (ix2 p q) = lap1 V c i := by
  obtain ⟨-, -, -, -, e0, e1, -⟩ := blockIdx1 t
  show V c main_v28 (((cfg1.win 2).blk t).view.emb (ix2 p q)) = V c main_v28 i
  congr 1
  funext a
  apply Fin.ext
  match a with
  | ⟨0, _⟩ => show win1_2.index t (0 : Fin 2) * 2000 + 1 * p.val = (i 0).val; omega
  | ⟨1, _⟩ => show win1_2.index t (1 : Fin 2) * 96 + 1 * q.val = (i 1).val; omega

/-- Entry (p, q) of window 1's block at point t, likewise. -/
private theorem prevBlk1_at (c : Dev nD) (t : Fin cfg1.N) (p : Fin 2000) (q : Fin 96) (i : Nodes.Idx)
    (h0 : (i 0).val = t.val * 2000 + p.val) (h1 : (i 1).val = q.val) :
    (blkOf1 (F := Ideal) V c 1 t : Vec Ideal S2000x96 .f32) (ix2 p q) = prev1 V c i := by
  obtain ⟨-, -, e0, e1, -⟩ := blockIdx1 t
  show V c main_v15_0 (((cfg1.win 1).blk t).view.emb (ix2 p q)) = V c main_v15_0 i
  congr 1
  funext a
  apply Fin.ext
  match a with
  | ⟨0, _⟩ => show win1_1.index t (0 : Fin 2) * 2000 + 1 * p.val = (i 0).val; omega
  | ⟨1, _⟩ => show win1_1.index t (1 : Fin 2) * 96 + 1 * q.val = (i 1).val; omega

/-- Entry (p, q) of window 0's block at point t, likewise. -/
private theorem backBlk1_at (c : Dev nD) (t : Fin cfg1.N) (p : Fin 2000) (q : Fin 96) (i : Nodes.Idx)
    (h0 : (i 0).val = t.val * 2000 + p.val) (h1 : (i 1).val = q.val) :
    (blkOf1 (F := Ideal) V c 0 t : Vec Ideal S2000x96 .f32) (ix2 p q) = back1 V c i := by
  obtain ⟨e0, e1, -⟩ := blockIdx1 t
  show V c main_arg3 (((cfg1.win 0).blk t).view.emb (ix2 p q)) = V c main_arg3 i
  congr 1
  funext a
  apply Fin.ext
  match a with
  | ⟨0, _⟩ => show win1_0.index t (0 : Fin 2) * 2000 + 1 * p.val = (i 0).val; omega
  | ⟨1, _⟩ => show win1_0.index t (1 : Fin 2) * 96 + 1 * q.val = (i 1).val; omega

/-- Entry (p, q) of window 5's block at point t, likewise. -/
private theorem accBlk1_at (c : Dev nD) (t : Fin cfg1.N) (p : Fin 2000) (q : Fin 96) (i : Nodes.Idx)
    (h0 : (i 0).val = t.val * 2000 + p.val) (h1 : (i 1).val = q.val) :
    (blkOf1 (F := Ideal) V c 5 t : Vec Ideal S2000x96 .f32) (ix2 p q) = accIn1 V c i := by
  obtain ⟨-, -, -, -, -, -, -, -, e0, e1, -⟩ := blockIdx1 t
  show V c main_v15_1 (((cfg1.win 5).blk t).view.emb (ix2 p q)) = V c main_v15_1 i
  congr 1
  funext a
  apply Fin.ext
  match a with
  | ⟨0, _⟩ => show win1_5.index t (0 : Fin 2) * 2000 + 1 * p.val = (i 0).val; omega
  | ⟨1, _⟩ => show win1_5.index t (1 : Fin 2) * 96 + 1 * q.val = (i 1).val; omega

/-- The weights' one block is the whole array: its entry (k, q) is the array's. -/
private theorem wtsBlk1_at (c : Dev nD) (t : Fin cfg1.N) (k q : Fin 96) (j : Sq.Idx)
    (h0 : (j 0).val = k.val) (h1 : (j 1).val = q.val) :
    (blkOf1 (F := Ideal) V c 3 t : Vec Ideal S96x96 .f32) (ix2 k q) = wts1 V c j := by
  obtain ⟨-, -, -, -, -, -, e0, e1, -⟩ := blockIdx1 t
  show V c main_arg4 (((cfg1.win 3).blk t).view.emb (ix2 k q)) = V c main_arg4 j
  congr 1
  funext a
  apply Fin.ext
  match a with
  | ⟨0, _⟩ => show win1_3.index t (0 : Fin 2) * 96 + 1 * k.val = (j 0).val; omega
  | ⟨1, _⟩ => show win1_3.index t (1 : Fin 2) * 96 + 1 * q.val = (j 1).val; omega

/-- Where entry (p, q) of the new term's block at point t lands in its array: row 2000·t + p, column q. -/
private theorem termRow1 (t : Fin cfg1.N) (p : Fin 2000) (q : Fin 96) :
    ((((cfg1.win 6).blk t).view.emb (ix2 p q)) (0 : Fin 2)).val = t.val * 2000 + p.val
    ∧ ((((cfg1.win 6).blk t).view.emb (ix2 p q)) (1 : Fin 2)).val = q.val := by
  obtain ⟨-, -, -, -, -, -, -, -, -, -, e0, e1, -⟩ := blockIdx1 t
  constructor
  · show win1_6.index t (0 : Fin 2) * 2000 + 1 * p.val = _; omega
  · show win1_6.index t (1 : Fin 2) * 96 + 1 * q.val = _; omega

/-- The same for the accumulator's block. -/
private theorem accRow1 (t : Fin cfg1.N) (p : Fin 2000) (q : Fin 96) :
    ((((cfg1.win 7).blk t).view.emb (ix2 p q)) (0 : Fin 2)).val = t.val * 2000 + p.val
    ∧ ((((cfg1.win 7).blk t).view.emb (ix2 p q)) (1 : Fin 2)).val = q.val := by
  obtain ⟨-, -, -, -, -, -, -, -, -, -, -, -, e0, e1⟩ := blockIdx1 t
  constructor
  · show win1_7.index t (0 : Fin 2) * 2000 + 1 * p.val = _; omega
  · show win1_7.index t (1 : Fin 2) * 96 + 1 * q.val = _; omega

/-- The stored new term at entry (p, q): the three-term combination of the same entry of the three blocks. -/
private theorem newTerm1_at (x0 x1 x2 : Vec Ideal S2000x96 .f32) (p : Fin 2000) (q : Fin 96) :
    newTerm1 (F := Ideal) x0 x1 x2 (ix2 p q) = (c4 * x2 (ix2 p q) + cm2 * x1 (ix2 p q)) + cm1 * x0 (ix2 p q) := by
  unfold newTerm1
  rw [View.canon_unit_zero zeroOff1]
  simp only [View.ld_unit_zero (S := S2000x96) zeroOff1]
  exact term1_at x0 x1 x2 p q

/-- What point t writes back of the new term is block t of the three-term combination of the entry arrays. -/
private theorem flushedTerm1 (c : Dev nD) (t : Fin cfg1.N) :
    (stepDat1 (F := Ideal) V c).flushed 6 t
      = ((cfg1.win 6).blk t).view.read (Elt Ideal) (comb3 c4 cm2 cm1 (lap1 V c) (prev1 V c) (back1 V c)) := by
  show (cfg1.win 6).cut (grid1.coords t) ((stepDat1 V c).after 6 t) = _
  rw [left1_6]
  funext y
  obtain ⟨p, q, rfl⟩ : ∃ (p : Fin 2000) (q : Fin 96), y = ix2 p q := ⟨y 0, y 1, eq_ix2 y⟩
  obtain ⟨r0, r1⟩ := termRow1 t p q
  show newTerm1 (F := Ideal) (blkOf1 V c 0 t) (blkOf1 V c 1 t) (blkOf1 V c 2 t) (ix2 p q)
    = comb3 c4 cm2 cm1 (lap1 V c) (prev1 V c) (back1 V c) (((cfg1.win 6).blk t).view.emb (ix2 p q))
  rw [newTerm1_at]
  unfold comb3
  rw [lapBlk1_at V c t p q _ r0 r1, prevBlk1_at V c t p q _ r0 r1, backBlk1_at V c t p q _ r0 r1]

/-- An index of the new-term array is in point t's block iff each coordinate is in the block's range. -/
private theorem mem_termBlk1 (t : Fin cfg1.N) (i : S50000x96.Idx) :
    i ∈ ((cfg1.win 6).blk t).view.set ↔ ∀ a : Fin 2, win1_6.index t a * S2000x96.size a ≤ (i a).val ∧ (i a).val < win1_6.index t a * S2000x96.size a + S2000x96.size a := by
  show i ∈ ((View.whole main_v29_0).slice (win1_6.rect t)).set ↔ _
  rw [View.set_slice_whole, Rect.mem_set_unit]
  exact Iff.rfl

/-- Row r of the new-term array is written by point r / 2000: the 25 blocks tile the array. -/
private theorem termCover1 (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  have hN : (i 0).val / 2000 < cfg1.N := by show _ < 25; omega
  refine ⟨⟨(i 0).val / 2000, hN⟩, flush1_6 _, ?_⟩
  obtain ⟨-, -, -, -, -, -, -, -, -, -, e0, e1, -⟩ := blockIdx1 ⟨(i 0).val / 2000, hN⟩
  rw [mem_termBlk1]
  intro a
  match a with
  | ⟨0, _⟩ => show win1_6.index ⟨(i 0).val / 2000, hN⟩ (0 : Fin 2) * 2000 ≤ (i 0).val ∧ (i 0).val < win1_6.index ⟨(i 0).val / 2000, hN⟩ (0 : Fin 2) * 2000 + 2000
              rw [e0]; show (i 0).val / 2000 * 2000 ≤ (i 0).val ∧ (i 0).val < (i 0).val / 2000 * 2000 + 2000; omega
  | ⟨1, _⟩ => show win1_6.index ⟨(i 0).val / 2000, hN⟩ (1 : Fin 2) * 96 ≤ (i 1).val ∧ (i 1).val < win1_6.index ⟨(i 0).val / 2000, hN⟩ (1 : Fin 2) * 96 + 96
              rw [e1]; omega

/-- After the call the new-term array (window 6) is the three-term combination of the entry arrays of windows
    2, 1 and 0, at every entry. -/
theorem wholeTerm1 (c : Dev nD) :
    ((stepDat1 (F := Ideal) V c).arrAt 6 cfg1.N : Mat)
      = comb3 c4 cm2 cm1 (lap1 V c) (prev1 V c) (back1 V c) :=
  (stepDat1 (F := Ideal) V c).arrAt_eq_of_cover 6 (comb3 c4 cm2 cm1 (lap1 V c) (prev1 V c) (back1 V c))
    (fun t _ => flushedTerm1 V c t) termCover1

/-- The stored accumulator at entry (p, q): the incoming block's entry plus the sum over the 96 features of the
    new term's row p (the three-term combination of the blocks' rows p) times the weights' column q. -/
private theorem newAcc1_at (x0 x1 x2 : Vec Ideal S2000x96 .f32) (x3 : Vec Ideal S96x96 .f32) (x4 : Vec Ideal S1x96 .f32)
    (x5 : Vec Ideal S2000x96 .f32) (p : Fin 2000) (q : Fin 96) :
    newAcc1 (F := Ideal) x0 x1 x2 x3 x4 x5 (ix2 p q)
      = x5 (ix2 p q) + ∑ k : Fin 96, ((c4 * x2 (ix2 p k) + cm2 * x1 (ix2 p k)) + cm1 * x0 (ix2 p k)) * x3 (ix2 k q) := by
  unfold newAcc1
  rw [View.canon_unit_zero zeroOff1]
  simp only [View.ld_unit_zero (S := S2000x96) zeroOff1, View.ld_unit_zero (S := S96x96) zeroOff1,
    View.ld_unit_zero (S := S1x96) zeroOff1]
  refine (acc1_at x0 x1 x2 x3 x4 x5 p q).trans ?_
  congr 1
  exact Finset.sum_congr rfl fun k _ => congrArg (· * x3 (ix2 k q)) (term1_at x0 x1 x2 p k)

/-- What point t writes back of the accumulator is block t of the incoming accumulator plus the product of the
    new term with the weights: row 2000·t + p of the product needs only row 2000·t + p of the new term, which is
    row p of point t's blocks, and the weights' block is the whole matrix. -/
private theorem flushedAcc1 (c : Dev nD) (t : Fin cfg1.N) :
    (stepDat1 (F := Ideal) V c).flushed 7 t
      = ((cfg1.win 7).blk t).view.read (Elt Ideal)
          ((fun i => accIn1 V c i + mm (comb3 c4 cm2 cm1 (lap1 V c) (prev1 V c) (back1 V c)) (wts1 V c) i) : Mat) := by
  show (cfg1.win 7).cut (grid1.coords t) ((stepDat1 V c).after 7 t) = _
  rw [left1_7]
  funext y
  obtain ⟨p, q, rfl⟩ : ∃ (p : Fin 2000) (q : Fin 96), y = ix2 p q := ⟨y 0, y 1, eq_ix2 y⟩
  obtain ⟨r0, r1⟩ := accRow1 t p q
  show newAcc1 (F := Ideal) (blkOf1 V c 0 t) (blkOf1 V c 1 t) (blkOf1 V c 2 t) (blkOf1 V c 3 t) (blkOf1 V c 4 t) (blkOf1 V c 5 t) (ix2 p q)
    = accIn1 V c (((cfg1.win 7).blk t).view.emb (ix2 p q))
      + mm (comb3 c4 cm2 cm1 (lap1 V c) (prev1 V c) (back1 V c)) (wts1 V c) (((cfg1.win 7).blk t).view.emb (ix2 p q))
  rw [newAcc1_at]
  unfold mm comb3
  rw [accBlk1_at V c t p q _ r0 r1]
  congr 1
  refine Finset.sum_congr rfl fun k _ => ?_
  rw [lapBlk1_at V c t p k (lix (((cfg1.win 7).blk t).view.emb (ix2 p q)) k) r0 rfl,
    prevBlk1_at V c t p k (lix (((cfg1.win 7).blk t).view.emb (ix2 p q)) k) r0 rfl,
    backBlk1_at V c t p k (lix (((cfg1.win 7).blk t).view.emb (ix2 p q)) k) r0 rfl,
    wtsBlk1_at V c t k q (rix (((cfg1.win 7).blk t).view.emb (ix2 p q)) k) rfl r1]

/-- An index of the accumulator array is in point t's block iff each coordinate is in the block's range. -/
private theorem mem_accBlk1 (t : Fin cfg1.N) (i : S50000x96.Idx) :
    i ∈ ((cfg1.win 7).blk t).view.set ↔ ∀ a : Fin 2, win1_7.index t a * S2000x96.size a ≤ (i a).val ∧ (i a).val < win1_7.index t a * S2000x96.size a + S2000x96.size a := by
  show i ∈ ((View.whole main_v29_1).slice (win1_7.rect t)).set ↔ _
  rw [View.set_slice_whole, Rect.mem_set_unit]
  exact Iff.rfl

/-- Row r of the accumulator array is written by point r / 2000: the 25 blocks tile the array. -/
private theorem accCover1 (i : S50000x96.Idx) :
    ∃ t : Fin cfg1.N, (cfg1.win 7).flush t = true ∧ i ∈ ((cfg1.win 7).blk t).view.set := by
  have hi0 : (i 0).val < 50000 := (i 0).isLt
  have hi1 : (i 1).val < 96 := (i 1).isLt
  have hN : (i 0).val / 2000 < cfg1.N := by show _ < 25; omega
  refine ⟨⟨(i 0).val / 2000, hN⟩, flush1_7 _, ?_⟩
  obtain ⟨-, -, -, -, -, -, -, -, -, -, -, -, e0, e1⟩ := blockIdx1 ⟨(i 0).val / 2000, hN⟩
  rw [mem_accBlk1]
  intro a
  match a with
  | ⟨0, _⟩ => show win1_7.index ⟨(i 0).val / 2000, hN⟩ (0 : Fin 2) * 2000 ≤ (i 0).val ∧ (i 0).val < win1_7.index ⟨(i 0).val / 2000, hN⟩ (0 : Fin 2) * 2000 + 2000
              rw [e0]; show (i 0).val / 2000 * 2000 ≤ (i 0).val ∧ (i 0).val < (i 0).val / 2000 * 2000 + 2000; omega
  | ⟨1, _⟩ => show win1_7.index ⟨(i 0).val / 2000, hN⟩ (1 : Fin 2) * 96 ≤ (i 1).val ∧ (i 1).val < win1_7.index ⟨(i 0).val / 2000, hN⟩ (1 : Fin 2) * 96 + 96
              rw [e1]; omega

/-- After the call the accumulator array (window 7) is the incoming accumulator (window 5's array) plus the new
    term times the weights (window 3's array), at every entry. -/
theorem wholeAcc1 (c : Dev nD) :
    ((stepDat1 (F := Ideal) V c).arrAt 7 cfg1.N : Mat)
      = fun i => accIn1 V c i + mm (comb3 c4 cm2 cm1 (lap1 V c) (prev1 V c) (back1 V c)) (wts1 V c) i :=
  (stepDat1 (F := Ideal) V c).arrAt_eq_of_cover 7
    ((fun i => accIn1 V c i + mm (comb3 c4 cm2 cm1 (lap1 V c) (prev1 V c) (back1 V c)) (wts1 V c) i) : Mat)
    (fun t _ => flushedAcc1 V c t) accCover1

end Cert.KernelIdeal.Cheb

end
-- ==== Proof.KI.Whole2.lean ====
/-
  From blocks to arrays, for the third Chebyshev step (k = 3). The grid's 25 points write back 25 disjoint
  row blocks that tile each output array, and what point t writes is one function of the arrays' entries in
  the same rows: so after the call the new-term array is, entry by entry, 4·(L·T2) − 2·T2 − T1, and the
  accumulator array is the incoming one plus the new term's product with the weights plus the bias row's entry
  in the same column.
-/
import proofs.«134689_j88055419503321_1_alg».proof.Proof.KI.Step2
import proofs.«134689_j88055419503321_1_alg».proof.Proof.KI.PayAt
import Idealize.ShloMosaic.Lib.Pipeline.Value
import Idealize.ShloMosaic.Lib.ValueIdx

set_option maxRecDepth 16384

noncomputable section

namespace Cert.KernelIdeal.Cheb

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Cheb

variable (V : (c : Dev nD) → (b : Ref sig .tc) → Buf (Elt Ideal) ((c : Thread nD τ).loc b))

/-- The arrays the call is entered with, as node matrices: the term two steps back (window 0), the previous term
    (window 1), its sparse product (window 2), the incoming accumulator (window 5). -/
abbrev back2 (c : Dev nD) : Mat := V c main_v15_0
abbrev prev2 (c : Dev nD) : Mat := V c main_v29_0
abbrev lap2 (c : Dev nD) : Mat := V c main_v42
abbrev accIn2 (c : Dev nD) : Mat := V c main_v29_1
/-- The weights (window 3). -/
abbrev wts2 (c : Dev nD) : Sq.Idx → EReal := V c main_arg4
/-- The bias as a 1 × 96 row (window 4). -/
abbrev brow2 (c : Dev nD) : Row.Idx → EReal := V c main_v0

/-- Every tile of the body sits at offset zero of its block. -/
private theorem zeroOff2 : (![0, 0] : Fin 2 → Nat) = fun _ => 0 := funext fun a => by
  match a with
  | ⟨0, _⟩ => rfl
  | ⟨1, _⟩ => rfl

/-- The printed index maps, decided over the grid: at point t the six row-blocked windows are at block (t, 0),
    the weights and the bias row at block (0, 0). -/
private theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Entry (p, q) of window 2's block at point t is the array's entry in row 2000·t + p, column q. -/
private theorem lapBlk2_at (c : Dev nD) (t : Fin cfg2.N) (p : Fin 2000) (q : Fin 96) (i : Nodes.Idx)
    (h0 : (i 0).val = t.val * 2000 + p.val) (h1 : (i 1).val = q.val) :
    (blkOf2 (F := Ideal) V c 2 t : Vec Ideal S2000x96 .f32) (ix2 p q) = lap2 V c i := by
  obtain ⟨-, -, -, -, e0, e1, -⟩ := blockIdx2 t
  show V c main_v42 (((cfg2.win 2).blk t).view.emb (ix2 p q)) = V c main_v42 i
  congr 1
  funext a
  apply Fin.ext
  match a with
  | ⟨0, _⟩ => show win2_2.index t (0 : Fin 2) * 2000 + 1 * p.val = (i 0).val; omega
  | ⟨1, _⟩ => show win2_2.index t (1 : Fin 2) * 96 + 1 * q.val = (i 1).val; omega

/-- Entry (p, q) of window 1's block at point t, likewise. -/
private theorem prevBlk2_at (c : Dev nD) (t : Fin cfg2.N) (p : Fin 2000) (q : Fin 96) (i : Nodes.Idx)
    (h0 : (i 0).val = t.val * 2000 + p.val) (h1 : (i 1).val = q.val) :
    (blkOf2 (F := Ideal) V c 1 t : Vec Ideal S2000x96 .f32) (ix2 p q) = prev2 V c i := by
  obtain ⟨-, -, e0, e1, -⟩ := blockIdx2 t
  show V c main_v29_0 (((cfg2.win 1).blk t).view.emb (ix2 p q)) = V c main_v29_0 i
  congr 1
  funext a
  apply Fin.ext
  match a with
  | ⟨0, _⟩ => show win2_1.index t (0 : Fin 2) * 2000 + 1 * p.val = (i 0).val; omega
  | ⟨1, _⟩ => show win2_1.index t (1 : Fin 2) * 96 + 1 * q.val = (i 1).val; omega

/-- Entry (p, q) of window 0's block at point t, likewise. -/
private theorem backBlk2_at (c : Dev nD) (t : Fin cfg2.N) (p : Fin 2000) (q : Fin 96) (i : Nodes.Idx)
    (h0 : (i 0).val = t.val * 2000 + p.val) (h1 : (i 1).val = q.val) :
    (blkOf2 (F := Ideal) V c 0 t : Vec Ideal S2000x96 .f32) (ix2 p q) = back2 V c i := by
  obtain ⟨e0, e1, -⟩ := blockIdx2 t
  show V c main_v15_0 (((cfg2.win 0).blk t).view.emb (ix2 p q)) = V c main_v15_0 i
  congr 1
  funext a
  apply Fin.ext
  match a with
  | ⟨0, _⟩ => show win2_0.index t (0 : Fin 2) * 2000 + 1 * p.val = (i 0).val; omega
  | ⟨1, _⟩ => show win2_0.index t (1 : Fin 2) * 96 + 1 * q.val = (i 1).val; omega

/-- Entry (p, q) of window 5's block at point t, likewise. -/
private theorem accBlk2_at (c : Dev nD) (t : Fin cfg2.N) (p : Fin 2000) (q : Fin 96) (i : Nodes.Idx)
    (h0 : (i 0).val = t.val * 2000 + p.val) (h1 : (i 1).val = q.val) :
    (blkOf2 (F := Ideal) V c 5 t : Vec Ideal S2000x96 .f32) (ix2 p q) = accIn2 V c i := by
  obtain ⟨-, -, -, -, -, -, -, -, -, -, e0, e1, -⟩ := blockIdx2 t
  show V c main_v29_1 (((cfg2.win 5).blk t).view.emb (ix2 p q)) = V c main_v29_1 i
  congr 1
  funext a
  apply Fin.ext
  match a with
  | ⟨0, _⟩ => show win2_5.index t (0 : Fin 2) * 2000 + 1 * p.val = (i 0).val; omega
  | ⟨1, _⟩ => show win2_5.index t (1 : Fin 2) * 96 + 1 * q.val = (i 1).val; omega

/-- The weights' one block is the whole array: its entry (k, q) is the array's. -/
private theorem wtsBlk2_at (c : Dev nD) (t : Fin cfg2.N) (k q : Fin 96) (j : Sq.Idx)
    (h0 : (j 0).val = k.val) (h1 : (j 1).val = q.val) :
    (blkOf2 (F := Ideal) V c 3 t : Vec Ideal S96x96 .f32) (ix2 k q) = wts2 V c j := by
  obtain ⟨-, -, -, -, -, -, e0, e1, -⟩ := blockIdx2 t
  show V c main_arg4 (((cfg2.win 3).blk t).view.emb (ix2 k q)) = V c main_arg4 j
  congr 1
  funext a
  apply Fin.ext
  match a with
  | ⟨0, _⟩ => show win2_3.index t (0 : Fin 2) * 96 + 1 * k.val = (j 0).val; omega
  | ⟨1, _⟩ => show win2_3.index t (1 : Fin 2) * 96 + 1 * q.val = (j 1).val; omega

/-- The bias row's one block is the whole 1 × 96 array: its entry (0, q) is the array's. -/
private theorem biasBlk2_at (c : Dev nD) (t : Fin cfg2.N) (q : Fin 96) (j : Row.Idx)
    (h0 : (j 0).val = 0) (h1 : (j 1).val = q.val) :
    (blkOf2 (F := Ideal) V c 4 t : Vec Ideal S1x96 .f32) (ix2 (0 : Fin 1) q) = brow2 V c j := by
  obtain ⟨-, -, -, -, -, -, -, -, e0, e1, -⟩ := blockIdx2 t
  show V c main_v0 (((cfg2.win 4).blk t).view.emb (ix2 (0 : Fin 1) q)) = V c main_v0 j
  congr 1
  funext a
  apply Fin.ext
  match a with
  | ⟨0, _⟩ => show win2_4.index t (0 : Fin 2) * 1 + 1 * (0 : Fin 1).val = (j 0).val
              rw [e0, h0]; rfl
  | ⟨1, _⟩ => show win2_4.index t (1 : Fin 2) * 96 + 1 * q.val = (j 1).val; omega

/-- Where entry (p, q) of the new term's block at point t lands in its array: row 2000·t + p, column q. -/
private theorem termRow2 (t : Fin cfg2.N) (p : Fin 2000) (q : Fin 96) :
    ((((cfg2.win 6).blk t).view.emb (ix2 p q)) (0 : Fin 2)).val = t.val * 2000 + p.val
    ∧ ((((cfg2.win 6).blk t).view.emb (ix2 p q)) (1 : Fin 2)).val = q.val := by
  obtain ⟨-, -, -, -, -, -, -, -, -, -, -, -, e0, e1, -⟩ := blockIdx2 t
  constructor
  · show win2_6.index t (0 : Fin 2) * 2000 + 1 * p.val = _; omega
  · show win2_6.index t (1 : Fin 2) * 96 + 1 * q.val = _; omega

/-- The same for the accumulator's block. -/
private theorem accRow2 (t : Fin cfg2.N) (p : Fin 2000) (q : Fin 96) :
    ((((cfg2.win 7).blk t).view.emb (ix2 p q)) (0 : Fin 2)).val = t.val * 2000 + p.val
    ∧ ((((cfg2.win 7).blk t).view.emb (ix2 p q)) (1 : Fin 2)).val = q.val := by
  obtain ⟨-, -, -, -, -, -, -, -, -, -, -, -, -, -, e0, e1⟩ := blockIdx2 t
  constructor
  · show win2_7.index t (0 : Fin 2) * 2000 + 1 * p.val = _; omega
  · show win2_7.index t (1 : Fin 2) * 96 + 1 * q.val = _; omega

/-- The stored new term at entry (p, q): the three-term combination of the same entry of the three blocks. -/
private theorem newTerm2_at (x0 x1 x2 : Vec Ideal S2000x96 .f32) (p : Fin 2000) (q : Fin 96) :
    newTerm2 (F := Ideal) x0 x1 x2 (ix2 p q) = (c4 * x2 (ix2 p q) + cm2 * x1 (ix2 p q)) + cm1 * x0 (ix2 p q) := by
  unfold newTerm2
  rw [View.canon_unit_zero zeroOff2]
  simp only [View.ld_unit_zero (S := S2000x96) zeroOff2]
  exact term2_at x0 x1 x2 p q

/-- What point t writes back of the new term is block t of the three-term combination of the entry arrays. -/
private theorem flushedTerm2 (c : Dev nD) (t : Fin cfg2.N) :
    (stepDat2 (F := Ideal) V c).flushed 6 t
      = ((cfg2.win 6).blk t).view.read (Elt Ideal) (comb3 c4 cm2 cm1 (lap2 V c) (prev2 V c) (back2 V c)) := by
  show (cfg2.win 6).cut (grid2.coords t) ((stepDat2 V c).after 6 t) = _
  rw [left2_6]
  funext y
  obtain ⟨p, q, rfl⟩ : ∃ (p : Fin 2000) (q : Fin 96), y = ix2 p q := ⟨y 0, y 1, eq_ix2 y⟩
  obtain ⟨r0, r1⟩ := termRow2 t p q
  show newTerm2 (F := Ideal) (blkOf2 V c 0 t) (blkOf2 V c 1 t) (blkOf2 V c 2 t) (ix2 p q)
    = comb3 c4 cm2 cm1 (lap2 V c) (prev2 V c) (back2 V c) (((cfg2.win 6).blk t).view.emb (ix2 p q))
  rw [newTerm2_at]
  unfold comb3
  rw [lapBlk2_at V c t p q _ r0 r1, prevBlk2_at V c t p q _ r0 r1, backBlk2_at V c t p q _ r0 r1]

/-- An index of the new-term array is in point t's block iff each coordinate is in the block's range. -/
private theorem mem_termBlk2 (t : Fin cfg2.N) (i : S50000x96.Idx) :
    i ∈ ((cfg2.win 6).blk t).view.set ↔ ∀ a : Fin 2, win2_6.index t a * S2000x96.size a ≤ (i a).val ∧ (i a).val < win2_6.index t a * S2000x96.size a + S2000x96.size a := by
  show i ∈ ((View.whole main_v43_0).slice (win2_6.rect t)).set ↔ _
  rw [View.set_slice_whole, Rect.mem_set_unit]
  exact Iff.rfl

/-- Row r of the new-term array is written by point r / 2000: the 25 blocks tile the array. -/
private theorem termCover2 (i : S50000x96.Idx) :
    ∃ t : Fin cfg2.N, (cfg2.win 6).flush t = true ∧ i ∈ ((cfg2.win 6).blk t).view.set := by
  have hi0 : (i 0).val < 50000 := (i 0).isLt
  have hi1 : (i 1).val < 96 := (i 1).isLt
  have hN : (i 0).val / 2000 < cfg2.N := by show _ < 25; omega
  refine ⟨⟨(i 0).val / 2000, hN⟩, flush2_6 _, ?_⟩
  obtain ⟨-, -, -, -, -, -, -, -, -, -, -, -, e0, e1, -⟩ := blockIdx2 ⟨(i 0).val / 2000, hN⟩
  rw [mem_termBlk2]
  intro a
  match a with
  | ⟨0, _⟩ => show win2_6.index ⟨(i 0).val / 2000, hN⟩ (0 : Fin 2) * 2000 ≤ (i 0).val ∧ (i 0).val < win2_6.index ⟨(i 0).val / 2000, hN⟩ (0 : Fin 2) * 2000 + 2000
              rw [e0]; show (i 0).val / 2000 * 2000 ≤ (i 0).val ∧ (i 0).val < (i 0).val / 2000 * 2000 + 2000; omega
  | ⟨1, _⟩ => show win2_6.index ⟨(i 0).val / 2000, hN⟩ (1 : Fin 2) * 96 ≤ (i 1).val ∧ (i 1).val < win2_6.index ⟨(i 0).val / 2000, hN⟩ (1 : Fin 2) * 96 + 96
              rw [e1]; omega

/-- After the call the new-term array (window 6) is the three-term combination of the entry arrays of windows
    2, 1 and 0, at every entry. -/
theorem wholeTerm2 (c : Dev nD) :
    ((stepDat2 (F := Ideal) V c).arrAt 6 cfg2.N : Mat)
      = comb3 c4 cm2 cm1 (lap2 V c) (prev2 V c) (back2 V c) :=
  (stepDat2 (F := Ideal) V c).arrAt_eq_of_cover 6 (comb3 c4 cm2 cm1 (lap2 V c) (prev2 V c) (back2 V c))
    (fun t _ => flushedTerm2 V c t) termCover2

/-- The stored accumulator at entry (p, q): the incoming block's entry plus the sum over the 96 features of the
    new term's row p (the three-term combination of the blocks' rows p) times the weights' column q, plus the
    bias row's entry q. -/
private theorem newAcc2_at (x0 x1 x2 : Vec Ideal S2000x96 .f32) (x3 : Vec Ideal S96x96 .f32) (x4 : Vec Ideal S1x96 .f32)
    (x5 : Vec Ideal S2000x96 .f32) (p : Fin 2000) (q : Fin 96) :
    newAcc2 (F := Ideal) x0 x1 x2 x3 x4 x5 (ix2 p q)
      = (x5 (ix2 p q) + ∑ k : Fin 96, ((c4 * x2 (ix2 p k) + cm2 * x1 (ix2 p k)) + cm1 * x0 (ix2 p k)) * x3 (ix2 k q))
          + x4 (ix2 (0 : Fin 1) q) := by
  unfold newAcc2
  rw [View.canon_unit_zero zeroOff2]
  simp only [View.ld_unit_zero (S := S2000x96) zeroOff2, View.ld_unit_zero (S := S96x96) zeroOff2,
    View.ld_unit_zero (S := S1x96) zeroOff2]
  refine (acc2_at x0 x1 x2 x3 x4 x5 p q).trans ?_
  refine congrArg (fun z => (x5 (ix2 p q) + z) + x4 (ix2 (0 : Fin 1) q)) ?_
  exact Finset.sum_congr rfl fun k _ => congrArg (· * x3 (ix2 k q)) (term2_at x0 x1 x2 p k)

/-- What point t writes back of the accumulator is block t of the incoming accumulator plus the product of the
    new term with the weights plus the bias row's entry of the column: row 2000·t + p of the product needs only
    row 2000·t + p of the new term, which is row p of point t's blocks; the weights' block is the whole matrix
    and the bias row's block the whole row. -/
private theorem flushedAcc2 (c : Dev nD) (t : Fin cfg2.N) :
    (stepDat2 (F := Ideal) V c).flushed 7 t
      = ((cfg2.win 7).blk t).view.read (Elt Ideal)
          ((fun i => (accIn2 V c i + mm (comb3 c4 cm2 cm1 (lap2 V c) (prev2 V c) (back2 V c)) (wts2 V c) i)
              + brow2 V c (bix i)) : Mat) := by
  show (cfg2.win 7).cut (grid2.coords t) ((stepDat2 V c).after 7 t) = _
  rw [left2_7]
  funext y
  obtain ⟨p, q, rfl⟩ : ∃ (p : Fin 2000) (q : Fin 96), y = ix2 p q := ⟨y 0, y 1, eq_ix2 y⟩
  obtain ⟨r0, r1⟩ := accRow2 t p q
  show newAcc2 (F := Ideal) (blkOf2 V c 0 t) (blkOf2 V c 1 t) (blkOf2 V c 2 t) (blkOf2 V c 3 t) (blkOf2 V c 4 t) (blkOf2 V c 5 t) (ix2 p q)
    = (accIn2 V c (((cfg2.win 7).blk t).view.emb (ix2 p q))
        + mm (comb3 c4 cm2 cm1 (lap2 V c) (prev2 V c) (back2 V c)) (wts2 V c) (((cfg2.win 7).blk t).view.emb (ix2 p q)))
      + brow2 V c (bix (((cfg2.win 7).blk t).view.emb (ix2 p q)))
  rw [newAcc2_at]
  unfold mm comb3
  rw [accBlk2_at V c t p q _ r0 r1,
    biasBlk2_at V c t q (bix (((cfg2.win 7).blk t).view.emb (ix2 p q))) rfl r1]
  congr 2
  refine Finset.sum_congr rfl fun k _ => ?_
  rw [lapBlk2_at V c t p k (lix (((cfg2.win 7).blk t).view.emb (ix2 p q)) k) r0 rfl,
    prevBlk2_at V c t p k (lix (((cfg2.win 7).blk t).view.emb (ix2 p q)) k) r0 rfl,
    backBlk2_at V c t p k (lix (((cfg2.win 7).blk t).view.emb (ix2 p q)) k) r0 rfl,
    wtsBlk2_at V c t k q (rix (((cfg2.win 7).blk t).view.emb (ix2 p q)) k) rfl r1]

/-- An index of the accumulator array is in point t's block iff each coordinate is in the block's range. -/
private theorem mem_accBlk2 (t : Fin cfg2.N) (i : S50000x96.Idx) :
    i ∈ ((cfg2.win 7).blk t).view.set ↔ ∀ a : Fin 2, win2_7.index t a * S2000x96.size a ≤ (i a).val ∧ (i a).val < win2_7.index t a * S2000x96.size a + S2000x96.size a := by
  show i ∈ ((View.whole main_v43_1).slice (win2_7.rect t)).set ↔ _
  rw [View.set_slice_whole, Rect.mem_set_unit]
  exact Iff.rfl

/-- Row r of the accumulator array is written by point r / 2000: the 25 blocks tile the array. -/
private theorem accCover2 (i : S50000x96.Idx) :
    ∃ t : Fin cfg2.N, (cfg2.win 7).flush t = true ∧ i ∈ ((cfg2.win 7).blk t).view.set := by
  have hi0 : (i 0).val < 50000 := (i 0).isLt
  have hi1 : (i 1).val < 96 := (i 1).isLt
  have hN : (i 0).val / 2000 < cfg2.N := by show _ < 25; omega
  refine ⟨⟨(i 0).val / 2000, hN⟩, flush2_7 _, ?_⟩
  obtain ⟨-, -, -, -, -, -, -, -, -, -, -, -, -, -, e0, e1⟩ := blockIdx2 ⟨(i 0).val / 2000, hN⟩
  rw [mem_accBlk2]
  intro a
  match a with
  | ⟨0, _⟩ => show win2_7.index ⟨(i 0).val / 2000, hN⟩ (0 : Fin 2) * 2000 ≤ (i 0).val ∧ (i 0).val < win2_7.index ⟨(i 0).val / 2000, hN⟩ (0 : Fin 2) * 2000 + 2000
              rw [e0]; show (i 0).val / 2000 * 2000 ≤ (i 0).val ∧ (i 0).val < (i 0).val / 2000 * 2000 + 2000; omega
  | ⟨1, _⟩ => show win2_7.index ⟨(i 0).val / 2000, hN⟩ (1 : Fin 2) * 96 ≤ (i 1).val ∧ (i 1).val < win2_7.index ⟨(i 0).val / 2000, hN⟩ (1 : Fin 2) * 96 + 96
              rw [e1]; omega

/-- After the call the accumulator array (window 7), at every entry. -/
theorem wholeAcc2 (c : Dev nD) :
    ((stepDat2 (F := Ideal) V c).arrAt 7 cfg2.N : Mat)
      = fun i => (accIn2 V c i + mm (comb3 c4 cm2 cm1 (lap2 V c) (prev2 V c) (back2 V c)) (wts2 V c) i) + brow2 V c (bix i) :=
  (stepDat2 (F := Ideal) V c).arrAt_eq_of_cover 7
    ((fun i => (accIn2 V c i + mm (comb3 c4 cm2 cm1 (lap2 V c) (prev2 V c) (back2 V c)) (wts2 V c) i) + brow2 V c (bix i)) : Mat)
    (fun t _ => flushedAcc2 V c t) accCover2

end Cert.KernelIdeal.Cheb

end
-- ==== Proof.KI.Result.lean ====
/-
  The kernel program's result, followed through the three steps: with L·X the sparse product over the argument
  edge list, the first step leaves T1 = 2·L(H) + (−1)·H + 0·H and the accumulator 0 + T1·W + H·W; the second
  T2 = 4·L(T1) + (−2)·T1 + (−1)·H and the accumulator plus T2·W; the third adds T3·W, T3 = 4·L(T2) + (−2)·T2 +
  (−1)·T1, and the bias row. Each step's output arrays are the whole-array functions of the arrays it was entered
  with; the stretches between the steps put L·(previous term) and the accumulator where the next step reads them,
  and leave the arguments, the weights and the bias row alone. So the result buffer ends at the specification's
  kernel arrangement of the arguments.
-/
import proofs.«134689_j88055419503321_1_alg».proof.Proof.KI.Flow
import proofs.«134689_j88055419503321_1_alg».proof.Proof.KI.Whole0
import proofs.«134689_j88055419503321_1_alg».proof.Proof.KI.Whole1
import proofs.«134689_j88055419503321_1_alg».proof.Proof.KI.Whole2
import Idealize.ShloMosaic.Lib.Pipeline.Value
import Idealize.ShloMosaic.Lib.ValueLayout

set_option maxRecDepth 16384

noncomputable section

namespace Cert.KernelIdeal.Cheb

open Idealize.ShloMosaic Idealize.ShloMosaic.TcCoe
open Idealize.SL Idealize.SL.Sem
open Idealize.ShloMosaic.Pipeline (Dat Cfg Window)
open Cert.KernelIdeal Cert.KernelIdeal.Gen Cert.Cheb

variable (m : (ℓ : Loc nD τ sig) → Buf (Elt Ideal) ℓ)

/-- The arguments on core c: the node features H, the weights, the bias; and X ↦ L·X over the edge list. -/
abbrev feat (c : Dev nD) : Mat := m ((c : Thread nD τ).loc main_arg3)
abbrev wts (c : Dev nD) : Sq.Idx → EReal := m ((c : Thread nD τ).loc main_arg4)
abbrev bias (c : Dev nD) : Vec96.Idx → EReal := m ((c : Thread nD τ).loc main_arg5)
abbrev lapl (c : Dev nD) : Mat → Mat := fun X =>
  spmm (F := Ideal) (m ((c : Thread nD τ).loc main_arg0)) (m ((c : Thread nD τ).loc main_arg1)) (m ((c : Thread nD τ).loc main_arg2)) X

/-- The three terms and the three accumulators, as the specification's kernel arrangement builds them. -/
abbrev t1 (c : Dev nD) : Mat := kTerm1 (lapl m c) (feat m c)
abbrev t2 (c : Dev nD) : Mat := kTermN (lapl m c) (t1 m c) (feat m c)
abbrev t3 (c : Dev nD) : Mat := kTermN (lapl m c) (t2 m c) (t1 m c)
abbrev a1 (c : Dev nD) : Mat := fun i => (c0 + mm (t1 m c) (wts m c) i) + mm (feat m c) (wts m c) i
abbrev a2 (c : Dev nD) : Mat := fun i => a1 m c i + mm (t2 m c) (wts m c) i

/-! ## The first step -/

theorem feat_at1 (c : Dev nD) : (at1 m c main_arg3 : Mat) = feat m c := at1_keeps m c main_arg3 (by decide)
theorem wts_at1 (c : Dev nD) : (at1 m c main_arg4 : Sq.Idx → EReal) = wts m c := at1_keeps m c main_arg4 (by decide)

theorem term_after0 (c : Dev nD) : (at2 m c main_v15_0 : Mat) = t1 m c := by
  have h := wholeTerm0 (in0 m) c
  have hl : lap0 (in0 m) c = lapl m c (feat m c) := at1_lap m c
  have hp : prev0 (in0 m) c = feat m c := feat_at1 m c
  have hb : back0 (in0 m) c = feat m c := feat_at1 m c
  rw [hl, hp, hb] at h
  exact (at2_term m c).trans h

theorem acc_after0 (c : Dev nD) : (at2 m c main_v15_1 : Mat) = a1 m c := by
  have h := wholeAcc0 (in0 m) c
  have hl : lap0 (in0 m) c = lapl m c (feat m c) := at1_lap m c
  have hp : prev0 (in0 m) c = feat m c := feat_at1 m c
  have hb : back0 (in0 m) c = feat m c := feat_at1 m c
  have hw : wts0 (in0 m) c = wts m c := wts_at1 m c
  have hz : accIn0 (in0 m) c = fun _ => c0 := by
    show (at1 m c main_v1 : Mat) = _
    rw [at1_zero m c]; rfl
  rw [hl, hp, hb, hw, hz] at h
  exact (at2_acc m c).trans h

/-! ## The second step -/

theorem arg0_at2 (c : Dev nD) : at2 m c main_arg0 = m ((c : Thread nD τ).loc main_arg0) :=
  (at2_keeps m c main_arg0 (by decide) (by decide)).trans (at1_keeps m c main_arg0 (by decide))
theorem arg1_at2 (c : Dev nD) : at2 m c main_arg1 = m ((c : Thread nD τ).loc main_arg1) :=
  (at2_keeps m c main_arg1 (by decide) (by decide)).trans (at1_keeps m c main_arg1 (by decide))
theorem arg2_at2 (c : Dev nD) : at2 m c main_arg2 = m ((c : Thread nD τ).loc main_arg2) :=
  (at2_keeps m c main_arg2 (by decide) (by decide)).trans (at1_keeps m c main_arg2 (by decide))
theorem feat_at3 (c : Dev nD) : (at3 m c main_arg3 : Mat) = feat m c :=
  (at3_keeps m c main_arg3 (by decide)).trans <| (at2_keeps m c main_arg3 (by decide) (by decide)).trans (at1_keeps m c main_arg3 (by decide))
theorem wts_at3 (c : Dev nD) : (at3 m c main_arg4 : Sq.Idx → EReal) = wts m c :=
  (at3_keeps m c main_arg4 (by decide)).trans <| (at2_keeps m c main_arg4 (by decide) (by decide)).trans (at1_keeps m c main_arg4 (by decide))
theorem t1_at3 (c : Dev nD) : (at3 m c main_v15_0 : Mat) = t1 m c :=
  (at3_keeps m c main_v15_0 (by decide)).trans (term_after0 m c)
theorem a1_at3 (c : Dev nD) : (at3 m c main_v15_1 : Mat) = a1 m c :=
  (at3_keeps m c main_v15_1 (by decide)).trans (acc_after0 m c)
theorem lap_at3 (c : Dev nD) : (at3 m c main_v28 : Mat) = lapl m c (t1 m c) := by
  rw [at3_lap m c, arg0_at2, arg1_at2, arg2_at2]
  exact congrArg (lapl m c) (term_after0 m c)

theorem term_after1 (c : Dev nD) : (at4 m c main_v29_0 : Mat) = t2 m c := by
  have h := wholeTerm1 (in1 m) c
  have hl : lap1 (in1 m) c = lapl m c (t1 m c) := lap_at3 m c
  have hp : prev1 (in1 m) c = t1 m c := t1_at3 m c
  have hb : back1 (in1 m) c = feat m c := feat_at3 m c
  rw [hl, hp, hb] at h
  exact (at4_arr m c 6).trans h

theorem acc_after1 (c : Dev nD) : (at4 m c main_v29_1 : Mat) = a2 m c := by
  have h := wholeAcc1 (in1 m) c
  have hl : lap1 (in1 m) c = lapl m c (t1 m c) := lap_at3 m c
  have hp : prev1 (in1 m) c = t1 m c := t1_at3 m c
  have hb : back1 (in1 m) c = feat m c := feat_at3 m c
  have hw : wts1 (in1 m) c = wts m c := wts_at3 m c
  have ha : accIn1 (in1 m) c = a1 m c := a1_at3 m c
  rw [hl, hp, hb, hw, ha] at h
  exact (at4_arr m c 7).trans h

/-! ## The third step -/

theorem wts_at5 (c : Dev nD) : (at5 m c main_arg4 : Sq.Idx → EReal) = wts m c :=
  (at5_keeps m c main_arg4 (by decide)).trans (at4_arg4 m c)
theorem t1_at5 (c : Dev nD) : (at5 m c main_v15_0 : Mat) = t1 m c :=
  (at5_keeps m c main_v15_0 (by decide)).trans <| (at4_input m c 1 rfl).trans (t1_at3 m c)
theorem t2_at5 (c : Dev nD) : (at5 m c main_v29_0 : Mat) = t2 m c :=
  (at5_keeps m c main_v29_0 (by decide)).trans (term_after1 m c)
theorem a2_at5 (c : Dev nD) : (at5 m c main_v29_1 : Mat) = a2 m c :=
  (at5_keeps m c main_v29_1 (by decide)).trans (acc_after1 m c)
theorem lap_at5 (c : Dev nD) : (at5 m c main_v42 : Mat) = lapl m c (t2 m c) := by
  rw [at5_lap m c, at4_arg0, at4_arg1, at4_arg2]
  exact congrArg (lapl m c) (term_after1 m c)
/-- The bias row, entry (0, q), is the bias vector's entry q. -/
theorem brow_at5 (c : Dev nD) (i : Nodes.Idx) : (at5 m c main_v0 : Row.Idx → EReal) (bix i) = bias m c (qix i) := by
  have h : at5 m c main_v0 = at1 m c main_v0 :=
    (at5_keeps m c main_v0 (by decide)).trans <| (at4_input m c 4 rfl).trans <| (at3_keeps m c main_v0 (by decide)).trans (at2_keeps m c main_v0 (by decide) (by decide))
  rw [h, at1_bias m c]
  have e1 : bix i = ValueIdx.ix2 (⟨0, Nat.one_pos⟩ : Fin 1) (⟨(i 1).val, (i 1).isLt⟩ : Fin 96) :=
    funext fun a => by match a with | ⟨0, _⟩ => rfl | ⟨1, _⟩ => rfl
  have e2 : qix i = ValueIdx.ix1 (⟨(i 1).val, (i 1).isLt⟩ : Fin 96) :=
    funext fun a => by match a with | ⟨0, _⟩ => rfl
  rw [e1, e2]
  exact ValueIdx.shapeCast_a_1a_apply _ _ _ _

/-- THE RESULT: the buffer @main returns ends at the kernel arrangement of the arguments. -/
theorem result (c : Dev nD) : (at6 m c main_v43_1 : Mat) = kOut (lapl m c) (feat m c) (wts m c) (bias m c) := by
  have h := wholeAcc2 (in2 m) c
  have hl : lap2 (in2 m) c = lapl m c (t2 m c) := lap_at5 m c
  have hp : prev2 (in2 m) c = t2 m c := t2_at5 m c
  have hb : back2 (in2 m) c = t1 m c := t1_at5 m c
  have hw : wts2 (in2 m) c = wts m c := wts_at5 m c
  have ha : accIn2 (in2 m) c = a2 m c := a2_at5 m c
  rw [hl, hp, hb, hw, ha] at h
  refine ((at6_arr m c 7).trans h).trans ?_
  funext i
  show (a2 m c i + mm (comb3 c4 cm2 cm1 (lapl m c (t2 m c)) (t2 m c) (t1 m c)) (wts m c) i) + brow2 (in2 m) c (bix i) = _
  rw [show brow2 (in2 m) c (bix i) = bias m c (qix i) from brow_at5 m c i]
  rfl

end Cert.KernelIdeal.Cheb

end
-- ==== Proof.RefSide.lean ====
/-
  The reference program's result, read off its run: with L·X the sparse product both programs spell the same
  way (gather the rows of X the edge list's column indices name, a negative index counted from the end; scale
  each by its edge weight; add each into the row its row index names, into a zero matrix), the result is
  H·W + T1·W + T2·W + T3·W + bias with T1 = 2·L(H) − H and T(k+1) = 2·(2·L(Tk) − Tk) − T(k−1): the
  arrangement the specification calls the reference's, entry by entry (a host dot_general is the sum over the
  contracted axis on the extended reals; the bias vector is laid along the rows).
-/
import proofs.«134689_j88055419503321_1_alg».proof.Proof.Spec
import proofs.«134689_j88055419503321_1_alg».proof.Proof.Gen.ReferenceIdeal.Read

noncomputable section

namespace Cert.ReferenceIdeal.Cheb

open Idealize.ShloMosaic Idealize.ShloMosaic.TcCoe Idealize.SL.Sem Cert.ReferenceIdeal Cert.ReferenceIdeal.Gen

variable {F : FTy → Type} [FloatOps F]

/-- The sparse product L·X over the edge list (rows, cols, vals), as the program spells it. -/
def spmm (rows cols : (⟨S800000, .i32⟩ : BufTy).Contents (Elt F)) (vals : (⟨S800000, .f32⟩ : BufTy).Contents (Elt F))
    (X : (⟨S50000x96, .f32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (broadcastInDim S800000x1 ![0] bcast_S800000_S800000x1_0 rows)
    (mulf (broadcastInDim S800000x96 ![0, 1] bcast_S800000x1_S800000x96_0_1 (broadcastInDim S800000x1 ![0] bcast_S800000_S800000x1_0 vals))
      (Host.gather gather_S50000x96_S800000x1_S800000x96_1_0_n_n_0_1_196 X
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

open Cert.ReferenceIdeal.Read

/-! ## The three sparse products of the run are the one map, applied to H, T1 and T2 -/

section Arrays

variable (x0 x1 : (⟨S800000, .i32⟩ : BufTy).Contents (Elt F)) (x2 : (⟨S800000, .f32⟩ : BufTy).Contents (Elt F))
  (x3 : (⟨S50000x96, .f32⟩ : BufTy).Contents (Elt F))

private theorem v13_eq : val_main_v13 (F := F) x0 x1 x2 x3 = spmm x0 x1 x2 x3 := rfl

private theorem v31_eq :
    val_main_v31 (F := F) x0 x1 x2 x3 = spmm x0 x1 x2 (val_main_v16 (F := F) x0 x1 x2 x3) := rfl

private theorem v52_eq :
    val_main_v52 (F := F) x0 x1 x2 x3 = spmm x0 x1 x2 (val_main_v37 (F := F) x0 x1 x2 x3) := rfl

end Arrays

/-! ## The three new terms, entry by entry on the extended reals -/

section Terms

variable (x0 x1 : (⟨S800000, .i32⟩ : BufTy).Contents (Elt Ideal)) (x2 : (⟨S800000, .f32⟩ : BufTy).Contents (Elt Ideal))
  (x3 : (⟨S50000x96, .f32⟩ : BufTy).Contents (Elt Ideal))

/-- T1 = 2·L(H) − H. -/
private theorem t1_eq :
    (val_main_v16 (F := Ideal) x0 x1 x2 x3 : Cert.Cheb.Mat) = Cert.Cheb.rTerm1 (spmm (F := Ideal) x0 x1 x2) x3 := by
  funext i
  rw [val_main_v16_apply, val_main_v15_apply, val_main_v14_apply, v13_eq]
  rfl

/-- T2 = 2·(2·L(T1) − T1) − H. -/
private theorem t2_eq :
    (val_main_v37 (F := Ideal) x0 x1 x2 x3 : Cert.Cheb.Mat)
      = Cert.Cheb.rTermN (spmm (F := Ideal) x0 x1 x2) (val_main_v16 (F := Ideal) x0 x1 x2 x3) x3 := by
  funext i
  rw [val_main_v37_apply, val_main_v36_apply, val_main_v35_apply, val_main_v34_apply, val_main_v33_apply,
    val_main_v32_apply, v31_eq]
  rfl

/-- T3 = 2·(2·L(T2) − T2) − T1. -/
private theorem t3_eq :
    (val_main_v58 (F := Ideal) x0 x1 x2 x3 : Cert.Cheb.Mat)
      = Cert.Cheb.rTermN (spmm (F := Ideal) x0 x1 x2) (val_main_v37 (F := Ideal) x0 x1 x2 x3)
          (val_main_v16 (F := Ideal) x0 x1 x2 x3) := by
  funext i
  rw [val_main_v58_apply, val_main_v57_apply, val_main_v56_apply, val_main_v55_apply, val_main_v54_apply,
    val_main_v53_apply, v52_eq]
  rfl

end Terms

/-! ## The four products and the bias row -/

section Products

variable (X : (⟨S50000x96, .f32⟩ : BufTy).Contents (Elt Ideal)) (x4 : (⟨S96x96, .f32⟩ : BufTy).Contents (Elt Ideal))

/-- A host product's entry, the sum over the 96 contracted features, is the specification's (X·W) entry. -/
private theorem mm_v0 (i : S50000x96.Idx) :
    (∑ k : Fin 96, X (lidx_main_v0 i k) * x4 (ridx_main_v0 i k)) = Cert.Cheb.mm X x4 i := rfl
private theorem mm_v17 (i : S50000x96.Idx) :
    (∑ k : Fin 96, X (lidx_main_v17 i k) * x4 (ridx_main_v17 i k)) = Cert.Cheb.mm X x4 i := rfl
private theorem mm_v38 (i : S50000x96.Idx) :
    (∑ k : Fin 96, X (lidx_main_v38 i k) * x4 (ridx_main_v38 i k)) = Cert.Cheb.mm X x4 i := rfl
private theorem mm_v59 (i : S50000x96.Idx) :
    (∑ k : Fin 96, X (lidx_main_v59 i k) * x4 (ridx_main_v59 i k)) = Cert.Cheb.mm X x4 i := rfl

/-- The bias laid along the rows reads the vector at the column index. -/
private theorem bias_ix (i : S50000x96.Idx) : idx_main_v61 (idx_main_v62 i) = Cert.Cheb.qix i := by
  funext a
  match a with
  | ⟨0, _⟩ => rfl

end Products

/-- The run's result term is the reference's arrangement of the specification. -/
theorem ref_out (m : (ℓ : Loc nD τ sig) → Buf (Elt Ideal) ℓ) (c : Dev nD) :
    (Cert.ReferenceIdeal.Value.res_main_v63 (F := Ideal) m c : Cert.Cheb.Mat)
      = Cert.Cheb.rOut (spmm (F := Ideal) (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)) := by
  rw [val_main_v63_eq]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  funext i
  rw [val_main_v63_apply, val_main_v60_apply, val_main_v39_apply, val_main_v18_apply, val_main_v62_apply,
    val_main_v61_apply, val_main_v0_apply, val_main_v17_apply, val_main_v38_apply, val_main_v59_apply,
    mm_v0, mm_v17, mm_v38, mm_v59, bias_ix, t3_eq, t2_eq, t1_eq]
  rfl

end Cert.ReferenceIdeal.Cheb

end
-- ==== Proof.Bridge.lean ====
/-
  The two programs on arguments that agree: the kernel program's result is the specification's kernel arrangement
  of (L, H, W, bias), the reference's is the reference arrangement of the same four, L·X being the one sparse
  product both programs spell (the two printed spellings are the same term), and the two arrangements agree
  at every entry. So the two results are equal as extended reals, entry by entry.
-/
import proofs.«134689_j88055419503321_1_alg».proof.Proof.KI.Result
import proofs.«134689_j88055419503321_1_alg».proof.Proof.RefSide
import proofs.«134689_j88055419503321_1_alg».proof.Proof.Spec

noncomputable section

namespace Cert.Bridge

open Idealize.ShloMosaic Idealize.ShloMosaic.TcCoe Idealize.SL.Sem Cert.Cheb

/-- The sparse product as the reference program spells it is the sparse product as the kernel program spells it. -/
theorem spmm_same (rows cols : (⟨Cert.KernelIdeal.S800000, .i32⟩ : BufTy).Contents (Elt Ideal))
    (vals : (⟨Cert.KernelIdeal.S800000, .f32⟩ : BufTy).Contents (Elt Ideal)) (X : Mat) :
    (Cert.ReferenceIdeal.Cheb.spmm (F := Ideal) rows cols vals X : Mat) = Cert.KernelIdeal.Cheb.spmm (F := Ideal) rows cols vals X := by
  unfold Cert.ReferenceIdeal.Cheb.spmm Cert.KernelIdeal.Cheb.spmm
  rfl

/-- Equal results from agreeing arguments. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_main_v63 (F := Ideal) m' c : Mat) = Cert.KernelIdeal.Cheb.at6 m c Cert.KernelIdeal.main_v43_1 := by
  rw [Cert.ReferenceIdeal.Cheb.ref_out m' c, h0, h1, h2, h3, h4, h5]
  refine Eq.trans ?_ ((Cert.KernelIdeal.Cheb.result m c).trans (kOut_eq _ _ _ _)).symm
  refine congrArg (fun L => rOut L _ _ _) (funext fun X => ?_)
  exact spmm_same _ _ _ X

end Cert.Bridge

end
-- ==== Proof.lean ====
/-
  The certificate. Both printed kernel programs run three Chebyshev steps between stretches of host operations; each
  step is a 25-point pipeline whose body stores, over whole blocks, a pointwise combination of three input blocks
  and an accumulator block plus a matrix product. The frames (every weakly fair execution terminates, nothing
  faults, the six arguments end as launched) are the run of that program's segments, at the word-level instance
  and at the extended reals alike; the reference's frame is its run. The ideal pass rewrote nothing. And on the
  extended reals the kernel program's result and the reference's are the same Chebyshev sum, arranged in two ways
  that agree at every entry.
-/
import proofs.«134689_j88055419503321_1_alg».proof.Defs
import proofs.«134689_j88055419503321_1_alg».proof.Proof.Gen.Kernel
import proofs.«134689_j88055419503321_1_alg».proof.Proof.Gen.KernelIdeal
import proofs.«134689_j88055419503321_1_alg».proof.Proof.Gen.ReferenceIdeal
import proofs.«134689_j88055419503321_1_alg».proof.Proof.Gen.ReferenceIdeal.Run
import proofs.«134689_j88055419503321_1_alg».proof.Proof.Gen.Pre_finite_inputs
import proofs.«134689_j88055419503321_1_alg».proof.Proof.K.Flow
import proofs.«134689_j88055419503321_1_alg».proof.Proof.KI.Flow
import proofs.«134689_j88055419503321_1_alg».proof.Proof.Bridge
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Cheb.frame (F := Bits) m ρ

theorem frame_ki [Cert.KernelIdeal.Facts] [Cert.Pre_finite_inputs.Facts] : Cert.frame_KernelIdeal :=
  fun m ρ _ => Cert.KernelIdeal.Cheb.frame (F := Ideal) m ρ

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both programs run, and end with the same result, entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Cheb.at6 m c Cert.KernelIdeal.main_v43_1, Cert.KernelIdeal.Cheb.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.results_eq m m' c (hagree c).1 (hagree c).2.1 (hagree c).2.2.1 (hagree c).2.2.2.1 (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
